-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x80 : Shape := ⟨2, ![131072, 80]⟩
abbrev S_ : Shape := ⟨0, ![]⟩

class Facts : Prop where
  bcast_S_S131072x80 : S_.BroadcastsInDim S131072x80 (![] : Fin 0 → Fin S131072x80.rank)
  reducesTo_S131072x80_S_d0_1 : S131072x80.ReducesTo [0, 1] S_
  h_S_ : 0 < S_.numel

variable [Facts]

def fn {F : FTy → Type} [FloatOps F] (main_arg0 : FVec F S131072x80 .f32) (main_arg1 : IVec S131072x80 32) (main_arg2 : IVec S131072x80 32) : IVec S_ 1 :=
  let main_v0 : FVec F S131072x80 .f32 := Host.absf main_arg0
  let main_cst : FVec F S_ .f32 := constant S_ .f32 0x7F800000#32
  let main_v1 : FVec F S131072x80 .f32 := broadcastInDim S131072x80 ![] bcast_S_S131072x80 main_cst
  let main_v2 : IVec S131072x80 1 := cmpf .olt main_v0 main_v1
  let main_c : IVec S_ 1 := constantI S_ 1 1#1
  let main_v3 : IVec S_ 1 := (fun x v => Host.reduce IntOp.andi x v reducesTo_S131072x80_S_d0_1 h_S_) main_v2 main_c
  main_v3
-- ==== Kernel.lean ====
abbrev S131072x80 : Shape := ⟨2, ![131072, 80]⟩
abbrev S81920x128 : Shape := ⟨2, ![81920, 128]⟩
abbrev S64x128 : Shape := ⟨2, ![64, 128]⟩
abbrev S2048x128 : Shape := ⟨2, ![2048, 128]⟩
abbrev S32x128 : Shape := ⟨2, ![32, 128]⟩
abbrev S1x128 : Shape := ⟨2, ![1, 128]⟩
abbrev S128 : Shape := ⟨1, ![128]⟩
abbrev S32 : Shape := ⟨1, ![32]⟩
abbrev S32x1 : Shape := ⟨2, ![32, 1]⟩
abbrev S2x32x128 : Shape := ⟨3, ![2, 32, 128]⟩
abbrev S2x32x1 : Shape := ⟨3, ![2, 32, 1]⟩
abbrev S2x32 : Shape := ⟨2, ![2, 32]⟩
abbrev S_ : Shape := ⟨0, ![]⟩
abbrev S10 : Shape := ⟨1, ![10]⟩
abbrev S1 : Shape := ⟨1, ![1]⟩

abbrev nBuf : Space → Nat
  | .hbm => 46
  | .vmem => 9
  | .smem => 0
  | _ => 0

abbrev bufTy : (tb : Table) → Fin (tcTables nBuf tb) → BufTy
  | .hbm, ⟨0, _⟩ => ⟨S131072x80, .f32⟩
  | .hbm, ⟨1, _⟩ => ⟨S131072x80, .i32⟩
  | .hbm, ⟨2, _⟩ => ⟨S131072x80, .i32⟩
  | .hbm, ⟨3, _⟩ => ⟨S81920x128, .f32⟩
  | .hbm, ⟨4, _⟩ => ⟨S81920x128, .i32⟩
  | .hbm, ⟨5, _⟩ => ⟨S81920x128, .i32⟩
  | .hbm, ⟨6, _⟩ => ⟨S64x128, .f32⟩
  | .hbm, ⟨7, _⟩ => ⟨S2x32x128, .f32⟩
  | .hbm, ⟨8, _⟩ => ⟨S2x32x1, .f32⟩
  | .hbm, ⟨9, _⟩ => ⟨S2x32, .f32⟩
  | .hbm, ⟨10, _⟩ => ⟨S_, .f32⟩
  | .hbm, ⟨11, _⟩ => ⟨S32, .f32⟩
  | .hbm, ⟨12, _⟩ => ⟨S10, .f32⟩
  | .hbm, ⟨13, _⟩ => ⟨S1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S10, .f32⟩
  | .hbm, ⟨18, _⟩ => ⟨S_, .f32⟩
  | .hbm, ⟨19, _⟩ => ⟨S10, .f32⟩
  | .hbm, ⟨20, _⟩ => ⟨S10, .i1⟩
  | .hbm, ⟨21, _⟩ => ⟨S10, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S10, .f32⟩
  | .hbm, ⟨28, _⟩ => ⟨S10, .i1⟩
  | .hbm, ⟨29, _⟩ => ⟨S_, .f32⟩
  | .hbm, ⟨30, _⟩ => ⟨S10, .f32⟩
  | .hbm, ⟨31, _⟩ => ⟨S10, .f32⟩
  | .hbm, ⟨32, _⟩ => ⟨S10, .f32⟩
  | .hbm, ⟨33, _⟩ => ⟨S10, .f32⟩
  | .hbm, ⟨34, _⟩ => ⟨S_, .f32⟩
  | .hbm, ⟨35, _⟩ => ⟨S_, .f32⟩
  | .hbm, ⟨36, _⟩ => ⟨S10, .f32⟩
  | .hbm, ⟨37, _⟩ => ⟨S10, .f32⟩
  | .hbm, ⟨38, _⟩ => ⟨S10, .f32⟩
  | .hbm, ⟨39, _⟩ => ⟨S10, .f32⟩
  | .hbm, ⟨40, _⟩ => ⟨S10, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S2048x128, .i32⟩
  | .local _ .vmem, ⟨3, _⟩ => ⟨S2048x128, .i32⟩
  | .local _ .vmem, ⟨4, _⟩ => ⟨S2048x128, .i32⟩
  | .local _ .vmem, ⟨5, _⟩ => ⟨S2048x128, .i32⟩
  | .local _ .vmem, ⟨6, _⟩ => ⟨S32x128, .f32⟩
  | .local _ .vmem, ⟨7, _⟩ => ⟨S32x128, .f32⟩
  | .local _ .vmem, ⟨8, _⟩ => ⟨S32x128, .f32⟩
  | _, _ => ⟨S131072x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_call0_v0 : Ref sig .tc := ⟨.hbm, 35, rfl⟩
abbrev main_call0_v1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 20], ![false, false]⟩

def k0_cond2 (i : grid0.Coords) : BitVec 1 :=
  let arg1 : BitVec 32 := BitVec.ofNat 32 (i 1).val
  let c19_i32 : BitVec 32 := 19#32
  let v257 : BitVec 1 := Scalar.cmpi .eq arg1 c19_i32
  let v258 : BitVec 32 := Scalar.extui v257
  let c0_i32_111 : BitVec 32 := 0#32
  let v259 : BitVec 1 := Scalar.cmpi .ne v258 c0_i32_111
  v259

def cc0_transform_0 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S131072x80_S81920x128 : S131072x80.ShapeCasts S81920x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  natLt_1_32 : 1 < 32
  inb_S32x128_S1x128_0_0 : ∀ a, (![0, 0] : Fin 2 → Nat) a + S1x128.size a ≤ S32x128.size a
  h_S1x128 : 0 < S1x128.numel
  reduces_S2048x128_S128 : S2048x128.Reduces [0] S128
  shapeCasts_S128_S1x128 : S128.ShapeCasts S1x128
  shapeCasts_S1x128_S1x128 : S1x128.ShapeCasts S1x128
  inb_S32x128_S1x128_11_0 : ∀ a, (![11, 0] : Fin 2 → Nat) a + S1x128.size a ≤ S32x128.size a
  inb_S32x128_S1x128_1_0 : ∀ a, (![1, 0] : Fin 2 → Nat) a + S1x128.size a ≤ S32x128.size a
  inb_S32x128_S1x128_12_0 : ∀ a, (![12, 0] : Fin 2 → Nat) a + S1x128.size a ≤ S32x128.size a
  inb_S32x128_S1x128_2_0 : ∀ a, (![2, 0] : Fin 2 → Nat) a + S1x128.size a ≤ S32x128.size a
  inb_S32x128_S1x128_13_0 : ∀ a, (![13, 0] : Fin 2 → Nat) a + S1x128.size a ≤ S32x128.size a
  inb_S32x128_S1x128_3_0 : ∀ a, (![3, 0] : Fin 2 → Nat) a + S1x128.size a ≤ S32x128.size a
  inb_S32x128_S1x128_14_0 : ∀ a, (![14, 0] : Fin 2 → Nat) a + S1x128.size a ≤ S32x128.size a
  inb_S32x128_S1x128_4_0 : ∀ a, (![4, 0] : Fin 2 → Nat) a + S1x128.size a ≤ S32x128.size a
  inb_S32x128_S1x128_15_0 : ∀ a, (![15, 0] : Fin 2 → Nat) a + S1x128.size a ≤ S32x128.size a
  inb_S32x128_S1x128_5_0 : ∀ a, (![5, 0] : Fin 2 → Nat) a + S1x128.size a ≤ S32x128.size a
  inb_S32x128_S1x128_16_0 : ∀ a, (![16, 0] : Fin 2 → Nat) a + S1x128.size a ≤ S32x128.size a
  inb_S32x128_S1x128_6_0 : ∀ a, (![6, 0] : Fin 2 → Nat) a + S1x128.size a ≤ S32x128.size a
  inb_S32x128_S1x128_17_0 : ∀ a, (![17, 0] : Fin 2 → Nat) a + S1x128.size a ≤ S32x128.size a
  inb_S32x128_S1x128_7_0 : ∀ a, (![7, 0] : Fin 2 → Nat) a + S1x128.size a ≤ S32x128.size a
  inb_S32x128_S1x128_18_0 : ∀ a, (![18, 0] : Fin 2 → Nat) a + S1x128.size a ≤ S32x128.size a
  inb_S32x128_S1x128_8_0 : ∀ a, (![8, 0] : Fin 2 → Nat) a + S1x128.size a ≤ S32x128.size a
  inb_S32x128_S1x128_19_0 : ∀ a, (![19, 0] : Fin 2 → Nat) a + S1x128.size a ≤ S32x128.size a
  inb_S32x128_S1x128_9_0 : ∀ a, (![9, 0] : Fin 2 → Nat) a + S1x128.size a ≤ S32x128.size a
  inb_S32x128_S1x128_20_0 : ∀ a, (![20, 0] : Fin 2 → Nat) a + S1x128.size a ≤ S32x128.size a
  inb_S32x128_S1x128_10_0 : ∀ a, (![10, 0] : Fin 2 → Nat) a + S1x128.size a ≤ S32x128.size a
  reduces_S32x128_S32 : S32x128.Reduces [1] S32
  shapeCasts_S32_S32x1 : S32.ShapeCasts S32x1
  shapeCasts_S32x1_S32x1 : S32x1.ShapeCasts S32x1
  broadcasts_S32x1_S32x128 : S32x1.Broadcasts S32x128
  shapeCasts_S64x128_S2x32x128 : S64x128.ShapeCasts S2x32x128
  slices_S2x32x128_S2x32x1_0_0_0 : S2x32x128.Slices ![0, 0, 0] S2x32x1
  shapeCasts_S2x32x1_S2x32 : S2x32x1.ShapeCasts S2x32
  reducesTo_S2x32_S32_d0 : S2x32.ReducesTo [0] S32
  h_S_ : 0 < S_.numel
  slices_S32_S10_0 : S32.Slices ![0] S10
  slices_S32_S1_10 : S32.Slices ![10] S1
  shapeCasts_S1_S_ : S1.ShapeCasts S_
  slices_S32_S10_11 : S32.Slices ![11] S10
  bcast_S_S10 : S_.BroadcastsInDim S10 (![] : Fin 0 → Fin S10.rank)
  reducesTo_S10_S_d0 : S10.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S81920x128.size a
  hwx0_0 : ∀ i : grid0.Coords, EltTy.bits .f32 = 32 ∨ (Rect.block (s := S81920x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S81920x128.size a
  hwx0_1 : ∀ i : grid0.Coords, EltTy.bits .i32 = 32 ∨ (Rect.block (s := S81920x128) S2048x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S81920x128.size a
  hwx0_2 : ∀ i : grid0.Coords, EltTy.bits .i32 = 32 ∨ (Rect.block (s := S81920x128) S2048x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S64x128.size a
  hwx0_3 : ∀ i : grid0.Coords, EltTy.bits .f32 = 32 ∨ (Rect.block (s := S64x128) S32x128.size (cc0_transform_3 i) (hinb0_3 i)).WholeWords (EltTy.packing .f32)

variable [Facts₀]

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S32x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S131072x80 : Shape := ⟨2, ![131072, 80]⟩
abbrev S_ : Shape := ⟨0, ![]⟩
abbrev S10485760 : Shape := ⟨1, ![10485760]⟩
abbrev S11 : Shape := ⟨1, ![11]⟩
abbrev S10485760x1 : Shape := ⟨2, ![10485760, 1]⟩
abbrev S10 : Shape := ⟨1, ![10]⟩
abbrev S131072x80x1 : Shape := ⟨3, ![131072, 80, 1]⟩

abbrev nBuf : Space → Nat
  | .hbm => 142
  | .vmem => 0
  | .smem => 0
  | _ => 0

abbrev hbmTy0_0 (i : Nat) : BufTy := match i % 128 with
  | 0 => ⟨S131072x80, .f32⟩
  | 1 => ⟨S131072x80, .i32⟩
  | 2 => ⟨S131072x80, .i32⟩
  | 3 => ⟨S131072x80, .f32⟩
  | 4 => ⟨S_, .i32⟩
  | 5 => ⟨S131072x80, .i32⟩
  | 6 => ⟨S131072x80, .i1⟩
  | 7 => ⟨S131072x80, .f32⟩
  | 8 => ⟨S_, .f32⟩
  | 9 => ⟨S_, .f32⟩
  | 10 => ⟨S_, .f32⟩
  | 11 => ⟨S_, .f32⟩
  | 12 => ⟨S131072x80, .f32⟩
  | 13 => ⟨S131072x80, .f32⟩
  | 14 => ⟨S_, .f32⟩
  | 15 => ⟨S131072x80, .f32⟩
  | 16 => ⟨S131072x80, .f32⟩
  | 17 => ⟨S_, .f32⟩
  | 18 => ⟨S131072x80, .f32⟩
  | 19 => ⟨S131072x80, .f32⟩
  | 20 => ⟨S131072x80, .f32⟩
  | 21 => ⟨S131072x80, .f32⟩
  | 22 => ⟨S_, .f32⟩
  | 23 => ⟨S131072x80, .f32⟩
  | 24 => ⟨S131072x80, .f32⟩
  | 25 => ⟨S131072x80, .f32⟩
  | 26 => ⟨S131072x80, .i32⟩
  | 27 => ⟨S_, .i32⟩
  | 28 => ⟨S_, .i32⟩
  | 29 => ⟨S_, .i32⟩
  | 30 => ⟨S131072x80, .i32⟩
  | 31 => ⟨S131072x80, .i32⟩
  | 32 => ⟨S_, .i32⟩
  | 33 => ⟨S131072x80, .i32⟩
  | 34 => ⟨S131072x80, .i32⟩
  | 35 => ⟨S_, .f32⟩
  | 36 => ⟨S131072x80, .f32⟩
  | 37 => ⟨S131072x80, .i1⟩
  | 38 => ⟨S_, .i32⟩
  | 39 => ⟨S_, .i32⟩
  | 40 => ⟨S131072x80, .i32⟩
  | 41 => ⟨S131072x80, .i32⟩
  | 42 => ⟨S10485760, .i32⟩
  | 43 => ⟨S_, .i32⟩
  | 44 => ⟨S11, .i32⟩
  | 45 => ⟨S_, .i32⟩
  | 46 => ⟨S_, .i32⟩
  | 47 => ⟨S10485760, .i32⟩
  | 48 => ⟨S10485760, .i32⟩
  | 49 => ⟨S_, .i32⟩
  | 50 => ⟨S10485760, .i32⟩
  | 51 => ⟨S10485760, .i1⟩
  | 52 => ⟨S_, .i32⟩
  | 53 => ⟨S10485760, .i32⟩
  | 54 => ⟨S10485760, .i32⟩
  | 55 => ⟨S10485760, .i32⟩
  | 56 => ⟨S10485760x1, .i32⟩
  | 57 => ⟨S_, .i32⟩
  | 58 => ⟨S10485760, .i32⟩
  | 59 => ⟨S11, .i32⟩
  | 60 => ⟨S10, .i32⟩
  | 61 => ⟨S10, .f32⟩
  | 62 => ⟨S_, .f32⟩
  | 63 => ⟨S10, .f32⟩
  | 64 => ⟨S10, .i1⟩
  | 65 => ⟨S10, .i32⟩
  | 66 => ⟨S_, .i32⟩
  | 67 => ⟨S_, .i32⟩
  | 68 => ⟨S_, .i32⟩
  | 69 => ⟨S_, .i32⟩
  | 70 => ⟨S_, .f32⟩
  | 71 => ⟨S_, .f32⟩
  | 72 => ⟨S10, .f32⟩
  | 73 => ⟨S10, .i1⟩
  | 74 => ⟨S_, .f32⟩
  | 75 => ⟨S10, .f32⟩
  | 76 => ⟨S10, .f32⟩
  | 77 => ⟨S10, .f32⟩
  | 78 => ⟨S10, .f32⟩
  | 79 => ⟨S_, .f32⟩
  | 80 => ⟨S_, .f32⟩
  | 81 => ⟨S10, .f32⟩
  | 82 => ⟨S10, .f32⟩
  | 83 => ⟨S10, .f32⟩
  | 84 => ⟨S10, .f32⟩
  | 85 => ⟨S_, .f32⟩
  | 86 => ⟨S131072x80, .f32⟩
  | 87 => ⟨S131072x80, .i1⟩
  | 88 => ⟨S_, .i32⟩
  | 89 => ⟨S131072x80, .i32⟩
  | 90 => ⟨S131072x80, .i1⟩
  | 91 => ⟨S_, .i32⟩
  | 92 => ⟨S131072x80, .i32⟩
  | 93 => ⟨S131072x80, .i32⟩
  | 94 => ⟨S131072x80, .i32⟩
  | 95 => ⟨S131072x80x1, .i32⟩
  | 96 => ⟨S131072x80, .f32⟩
  | 97 => ⟨S_, .f32⟩
  | 98 => ⟨S_, .f32⟩
  | 99 => ⟨S131072x80, .f32⟩
  | 100 => ⟨S131072x80, .f32⟩
  | 101 => ⟨S131072x80, .f32⟩
  | 102 => ⟨S_, .f32⟩
  | 103 => ⟨S131072x80, .f32⟩
  | 104 => ⟨S131072x80, .f32⟩
  | 105 => ⟨S131072x80, .f32⟩
  | 106 => ⟨S131072x80, .f32⟩
  | 107 => ⟨S131072x80, .i1⟩
  | 108 => ⟨S131072x80, .f32⟩
  | 109 => ⟨S131072x80, .f32⟩
  | 110 => ⟨S131072x80, .f32⟩
  | 111 => ⟨S131072x80, .f32⟩
  | 112 => ⟨S131072x80, .f32⟩
  | 113 => ⟨S131072x80, .f32⟩
  | 114 => ⟨S131072x80, .f32⟩
  | 115 => ⟨S131072x80, .f32⟩
  | 116 => ⟨S131072x80, .f32⟩
  | 117 => ⟨S_, .f32⟩
  | 118 => ⟨S131072x80, .f32⟩
  | 119 => ⟨S131072x80, .f32⟩
  | 120 => ⟨S_, .f32⟩
  | 121 => ⟨S131072x80, .f32⟩
  | 122 => ⟨S131072x80, .f32⟩
  | 123 => ⟨S131072x80, .f32⟩
  | 124 => ⟨S131072x80, .f32⟩
  | 125 => ⟨S131072x80, .i1⟩
  | 126 => ⟨S131072x80, .f32⟩
  | 127 => ⟨S131072x80, .f32⟩
  | _ => ⟨S131072x80, .f32⟩

abbrev hbmTy0_1 (i : Nat) : BufTy := match i % 128 with
  | 0 => ⟨S131072x80, .f32⟩
  | 1 => ⟨S131072x80, .f32⟩
  | 2 => ⟨S131072x80, .f32⟩
  | 3 => ⟨S131072x80, .f32⟩
  | 4 => ⟨S131072x80, .f32⟩
  | 5 => ⟨S131072x80, .f32⟩
  | 6 => ⟨S131072x80, .f32⟩
  | 7 => ⟨S131072x80, .f32⟩
  | 8 => ⟨S131072x80, .f32⟩
  | 9 => ⟨S_, .f32⟩
  | 10 => ⟨S_, .f32⟩
  | 11 => ⟨S_, .f32⟩
  | 12 => ⟨S_, .f32⟩
  | 13 => ⟨S_, .f32⟩
  | _ => ⟨S131072x80, .f32⟩

abbrev hbmTy (i : Nat) : BufTy := match i / 128 with
  | 0 => hbmTy0_0 i
  | 1 => hbmTy0_1 i
  | _ => ⟨S131072x80, .f32⟩

abbrev bufTy : (tb : Table) → Fin (tcTables nBuf tb) → BufTy
  | .hbm, ⟨i, _⟩ => hbmTy i
  | _, _ => ⟨S131072x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_4 : Ref sig .tc := ⟨.hbm, 27, rfl⟩
abbrev main_c_5 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v18 : Ref sig .tc := ⟨.hbm, 34, rfl⟩
abbrev main_cst_6 : Ref sig .tc := ⟨.hbm, 35, rfl⟩
abbrev main_v19 : Ref sig .tc := ⟨.hbm, 36, rfl⟩
abbrev main_v20 : Ref sig .tc := ⟨.hbm, 37, rfl⟩
abbrev main_c_7 : Ref sig .tc := ⟨.hbm, 38, rfl⟩
abbrev main_call1_v0 : Ref sig .tc := ⟨.hbm, 39, rfl⟩
abbrev main_call1_v1 : Ref sig .tc := ⟨.hbm, 40, rfl⟩
abbrev main_v21 : Ref sig .tc := ⟨.hbm, 41, rfl⟩
abbrev main_v22 : Ref sig .tc := ⟨.hbm, 42, rfl⟩
abbrev main_c_8 : Ref sig .tc := ⟨.hbm, 43, rfl⟩
abbrev main_v23 : Ref sig .tc := ⟨.hbm, 44, rfl⟩
abbrev main_c_9 : Ref sig .tc := ⟨.hbm, 45, rfl⟩
abbrev main_call2_v0 : Ref sig .tc := ⟨.hbm, 46, rfl⟩
abbrev main_call2_v1 : Ref sig .tc := ⟨.hbm, 47, rfl⟩
abbrev main_v24 : Ref sig .tc := ⟨.hbm, 48, rfl⟩
abbrev main_c_10 : Ref sig .tc := ⟨.hbm, 49, rfl⟩
abbrev main_v25 : Ref sig .tc := ⟨.hbm, 50, rfl⟩
abbrev main_v26 : Ref sig .tc := ⟨.hbm, 51, rfl⟩
abbrev main_c_11 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_12 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_13 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_c_14 : Ref sig .tc := ⟨.hbm, 66, rfl⟩
abbrev main_v38 : Ref sig .tc := ⟨.hbm, 67, rfl⟩
abbrev main_c_15 : Ref sig .tc := ⟨.hbm, 68, rfl⟩
abbrev main_v39 : Ref sig .tc := ⟨.hbm, 69, rfl⟩
abbrev main_v40 : Ref sig .tc := ⟨.hbm, 70, rfl⟩
abbrev main_cst_16 : Ref sig .tc := ⟨.hbm, 71, rfl⟩
abbrev main_v41 : Ref sig .tc := ⟨.hbm, 72, rfl⟩
abbrev main_v42 : Ref sig .tc := ⟨.hbm, 73, rfl⟩
abbrev main_cst_17 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_18 : Ref sig .tc := ⟨.hbm, 79, rfl⟩
abbrev main_call3_v0 : Ref sig .tc := ⟨.hbm, 80, rfl⟩
abbrev main_call3_v1 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_19 : Ref sig .tc := ⟨.hbm, 85, rfl⟩
abbrev main_v50 : Ref sig .tc := ⟨.hbm, 86, rfl⟩
abbrev main_v51 : Ref sig .tc := ⟨.hbm, 87, rfl⟩
abbrev main_c_20 : Ref sig .tc := ⟨.hbm, 88, rfl⟩
abbrev main_v52 : Ref sig .tc := ⟨.hbm, 89, rfl⟩
abbrev main_v53 : Ref sig .tc := ⟨.hbm, 90, rfl⟩
abbrev main_c_21 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_22 : Ref sig .tc := ⟨.hbm, 97, rfl⟩
abbrev main_call4_v0 : Ref sig .tc := ⟨.hbm, 98, rfl⟩
abbrev main_call4_v1 : Ref sig .tc := ⟨.hbm, 99, rfl⟩
abbrev main_v59 : Ref sig .tc := ⟨.hbm, 100, rfl⟩
abbrev main_v60 : Ref sig .tc := ⟨.hbm, 101, rfl⟩
abbrev main_call5_cst : Ref sig .tc := ⟨.hbm, 102, rfl⟩
abbrev main_call5_v0 : Ref sig .tc := ⟨.hbm, 103, rfl⟩
abbrev main_call5_v1 : Ref sig .tc := ⟨.hbm, 104, rfl⟩
abbrev main_call5_v2 : Ref sig .tc := ⟨.hbm, 105, rfl⟩
abbrev main_call5_v3 : Ref sig .tc := ⟨.hbm, 106, rfl⟩
abbrev main_call5_v4 : Ref sig .tc := ⟨.hbm, 107, rfl⟩
abbrev main_call5_v5 : Ref sig .tc := ⟨.hbm, 108, rfl⟩
abbrev main_call5_v6 : Ref sig .tc := ⟨.hbm, 109, rfl⟩
abbrev main_call5_v7 : Ref sig .tc := ⟨.hbm, 110, rfl⟩
abbrev main_call5_v8 : Ref sig .tc := ⟨.hbm, 111, rfl⟩
abbrev main_call5_v9 : Ref sig .tc := ⟨.hbm, 112, rfl⟩
abbrev main_call5_v10 : Ref sig .tc := ⟨.hbm, 113, rfl⟩
abbrev main_call5_v11 : Ref sig .tc := ⟨.hbm, 114, rfl⟩
abbrev main_v61 : Ref sig .tc := ⟨.hbm, 115, rfl⟩
abbrev main_v62 : Ref sig .tc := ⟨.hbm, 116, rfl⟩
abbrev main_cst_23 : Ref sig .tc := ⟨.hbm, 117, rfl⟩
abbrev main_v63 : Ref sig .tc := ⟨.hbm, 118, rfl⟩
abbrev main_v64 : Ref sig .tc := ⟨.hbm, 119, rfl⟩
abbrev main_call6_cst : Ref sig .tc := ⟨.hbm, 120, rfl⟩
abbrev main_call6_v0 : Ref sig .tc := ⟨.hbm, 121, rfl⟩
abbrev main_call6_v1 : Ref sig .tc := ⟨.hbm, 122, rfl⟩
abbrev main_call6_v2 : Ref sig .tc := ⟨.hbm, 123, rfl⟩
abbrev main_call6_v3 : Ref sig .tc := ⟨.hbm, 124, rfl⟩
abbrev main_call6_v4 : Ref sig .tc := ⟨.hbm, 125, rfl⟩
abbrev main_call6_v5 : Ref sig .tc := ⟨.hbm, 126, rfl⟩
abbrev main_call6_v6 : Ref sig .tc := ⟨.hbm, 127, rfl⟩
abbrev main_call6_v7 : Ref sig .tc := ⟨.hbm, 128, rfl⟩
abbrev main_call6_v8 : Ref sig .tc := ⟨.hbm, 129, rfl⟩
abbrev main_call6_v9 : Ref sig .tc := ⟨.hbm, 130, rfl⟩
abbrev main_call6_v10 : Ref sig .tc := ⟨.hbm, 131, rfl⟩
abbrev main_call6_v11 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_cst_24 : Ref sig .tc := ⟨.hbm, 137, rfl⟩
abbrev main_v69 : Ref sig .tc := ⟨.hbm, 138, rfl⟩
abbrev main_v70 : Ref sig .tc := ⟨.hbm, 139, rfl⟩
abbrev main_cst_25 : Ref sig .tc := ⟨.hbm, 140, rfl⟩
abbrev main_v71 : Ref sig .tc := ⟨.hbm, 141, rfl⟩

abbrev nD : Nat := 1
abbrev τ : Topo := Topo.v7x

variable {F : FTy → Type} [FloatOps F]

class Facts₀ : Prop where
  bcast_S_S131072x80 : S_.BroadcastsInDim S131072x80 (![] : Fin 0 → Fin S131072x80.rank)
  reducesTo_S131072x80_S_d0_1 : S131072x80.ReducesTo [0, 1] S_
  h_S_ : 0 < S_.numel
  shapeCasts_S131072x80_S10485760 : S131072x80.ShapeCasts S10485760
  bcast_S_S11 : S_.BroadcastsInDim S11 (![] : Fin 0 → Fin S11.rank)
  bcast_S_S10485760 : S_.BroadcastsInDim S10485760 (![] : Fin 0 → Fin S10485760.rank)
  bcast_S10485760_S10485760x1_0 : S10485760.BroadcastsInDim S10485760x1 (![0] : Fin 1 → Fin S10485760x1.rank)
  slices_S11_S10_0 : S11.Slices ![0] S10
  bcast_S_S10 : S_.BroadcastsInDim S10 (![] : Fin 0 → Fin S10.rank)
  natLt_1_32 : 1 < 32
  reducesTo_S10_S_d0 : S10.ReducesTo [0] S_
  bcast_S131072x80_S131072x80x1_0_1 : S131072x80.BroadcastsInDim S131072x80x1 (![0, 1] : Fin 2 → Fin S131072x80x1.rank)
  scatter_S11_S10485760x1_S10485760_n_0_0_1_wf : ScatterDims.WF S11 S10485760x1 S10485760 [] [0] [0] 1
  gather_S10_S131072x80x1_S131072x80_n_0_n_n_0_2_1_wf : GatherDims.WF S10 S131072x80x1 S131072x80 [] [0] [] [0] [] 2 ![1]

variable [Facts₀]

def scatter_S11_S10485760x1_S10485760_n_0_0_1 : ScatterDims S11 S10485760x1 S10485760 where
  updateWindowDims := []
  insertedWindowDims := [0]
  scatterDimsToOperandDims := [0]
  indexVectorDim := 1
  wf := scatter_S11_S10485760x1_S10485760_n_0_0_1_wf
def gather_S10_S131072x80x1_S131072x80_n_0_n_n_0_2_1 : GatherDims S10 S131072x80x1 S131072x80 where
  offsetDims := []
  collapsedSliceDims := [0]
  operandBatchingDims := []
  startIndicesBatchingDims := []
  startIndexMap := [0]
  indexVectorDim := 2
  sliceSizes := ![1]
  wf := gather_S10_S131072x80x1_S131072x80_n_0_n_n_0_2_1_wf

class Facts : Prop extends Facts₀ where

variable [Facts]
-- ==== Proof.Contrib.lean ====
/-
  What one grid step adds to the scratch accumulator.

  A step sees a block of 2048 rows by 128 lanes of each argument.  From it the body forms, entry by entry, valid, bin
  and bce (the three vectors named here), and adds to scratch row r, lane q, the sum over the block's 2048 rows p of
    r = 0..9   : valid (p, q) when bin (p, q) = r, else 0          (the count of bin r),
    r = 10     : valid (p, q)                                       (the number of valid entries),
    r = 11..20 : (valid (p, q) when bin (p, q) = r - 11, else 0) * bce (p, q),
  and nothing to rows 21..31.
-/
import proofs.«411588_j16535624089725_3_alg».proof.Proof.Gen.KernelIdeal.Skeleton
import Idealize.ShloMosaic.Lib.ValueIdx

noncomputable section

namespace Cert.KernelIdeal.Step

open Idealize.ShloMosaic Idealize.ShloMosaic.ValueIdx Cert.KernelIdeal Cert.KernelIdeal.Gen

variable (x0 : Vec Ideal S2048x128 .f32) (x1 x2 : Vec Ideal S2048x128 .i32)

/-- valid, entry by entry of the block. -/
abbrev validV : FVec Ideal S2048x128 .f32 := k0_pay6 (F := Ideal) x2
/-- bin, entry by entry of the block. -/
abbrev binV : IVec S2048x128 32 := k0_pay7 (F := Ideal) x0 x1
/-- bce, entry by entry of the block. -/
abbrev bceV : FVec Ideal S2048x128 .f32 := k0_pay9 (F := Ideal) (k0_pay4 x0) (k0_pay5 x1) (k0_pay8 x0 x1)

/-- valid where the entry falls in bin b, else 0. -/
def maskV (b : BitVec 32) (j : S2048x128.Idx) : EReal := if binV x0 x1 j = b then validV x2 j else 0

/-- What the step adds to scratch row r, lane q. -/
def contrib (r : Fin 32) (q : Fin 128) : EReal :=
  if r.val < 10 then ∑ p : Fin 2048, maskV x0 x1 x2 (BitVec.ofNat 32 r.val) (ix2 p q)
  else if r.val = 10 then ∑ p : Fin 2048, validV x2 (ix2 p q)
  else if r.val < 21 then ∑ p : Fin 2048, maskV x0 x1 x2 (BitVec.ofNat 32 (r.val - 11)) (ix2 p q) * bceV x0 x1 (ix2 p q)
  else 0

end Cert.KernelIdeal.Step

end
-- ==== Proof.Spec.lean ====
/-
  The loss as a function of the three argument arrays, in the two groupings the programs compute it in.

  Every entry e of the arrays has a logit x e, an integer label t e and an integer weight l e.  Write
    valid e = 1 when l e > 0, else 0,
    g e     = |sigmoid (x e) - t e|,
    bin e   = floor (10 * g e), converted to a 32-bit integer and clipped to 0..9,
    bce e   = t e * softplus (-(x e)) + (1 - t e) * softplus (x e),   softplus y = max y 0 + log (1 + exp (-|y|)).
  For a bin b let count b = sum over e with bin e = b of valid e, and bceSum b the same sum of valid e * bce e; let
  total = max (sum of valid) 1, nbins = max (number of bins with count > 0) 1 and
  weight b = (total / max (count b) 1 when count b > 0, else 0) / nbins.  Then
    lossBins    = (sum over the ten bins b of weight b * bceSum b) / total          (one pass over the entries per bin),
    lossEntries = (sum over the entries e of (weight (bin e) when valid e > 0, else 0) * bce e) / total.
  Both are stated on the extended reals; that they agree when every logit is a real number is a separate module.
-/
import Idealize.ShloMosaic.PureOps.Ideal
import Idealize.ShloMosaic.Lib.ValueIdx

noncomputable section

namespace Cert.Ghmc

open Idealize.ShloMosaic

/-- The index set of the entries: 131072 rows of 80. -/
abbrev SE : Shape := ⟨2, ![131072, 80]⟩

/-- The factor 10 (the number of bins) as the programs spell it. -/
def ten : EReal := Ideal.ofBits .f32 0x41200000#32

/-- An integer label as a real number. -/
def labelE (t : BitVec 32) : EReal := ((t.toInt : ℝ) : EReal)

/-- 1 for a positive weight, 0 otherwise. -/
def validE (l : BitVec 32) : EReal := if 0 < l.toInt then 1 else 0

/-- The gradient magnitude |sigmoid x - t|. -/
def gradE (x : EReal) (t : BitVec 32) : EReal :=
  max (Ideal.logistic x - labelE t) (-(Ideal.logistic x - labelE t))

/-- The bin of an entry: floor (10 g) as a 32-bit integer (saturating), clipped to 0..9. -/
def binE (x : EReal) (t : BitVec 32) : BitVec 32 :=
  IntOp.minsi 9#32 (IntOp.maxsi 0#32 (Ideal.fptosi 32 (Ideal.liftRound Int.floor (gradE x t * ten))))

/-- softplus y = max y 0 + log (1 + exp (-|y|)). -/
def softplusE (y : EReal) : EReal := max y 0 + Ideal.log1p (Ideal.exp (-(max y (-y))))

/-- The binary cross entropy with logits of one entry. -/
def bceE (x : EReal) (t : BitVec 32) : EReal :=
  labelE t * softplusE (-x) + (1 - labelE t) * softplusE x

variable (x : SE.Idx → EReal) (t l : SE.Idx → BitVec 32)

/-- valid e when entry e falls in bin b, else 0. -/
def maskE (b : BitVec 32) (e : SE.Idx) : EReal := if binE (x e) (t e) = b then validE (l e) else 0

/-- The number of valid entries in bin b. -/
def count (b : BitVec 32) : EReal := ∑ e : SE.Idx, maskE x t l b e

/-- The cross entropies of the valid entries in bin b, summed. -/
def bceSum (b : BitVec 32) : EReal := ∑ e : SE.Idx, maskE x t l b e * bceE (x e) (t e)

/-- The number of valid entries, at least 1. -/
def total : EReal := max (∑ e : SE.Idx, validE (l e)) 1

/-- The number of non-empty bins, at least 1. -/
def nbins : EReal := max (∑ b : Fin 10, (if 0 < count x t l (BitVec.ofNat 32 b.val) then (1 : EReal) else 0)) 1

/-- The weight of bin b. -/
def weight (b : BitVec 32) : EReal :=
  Ideal.div (if 0 < count x t l b then Ideal.div (total l) (max (count x t l b) 1) else 0) (nbins x t l)

/-- The loss, bin by bin. -/
def lossBins : EReal :=
  Ideal.div (∑ b : Fin 10, weight x t l (BitVec.ofNat 32 b.val) * bceSum x t l (BitVec.ofNat 32 b.val)) (total l) * 1

/-- The loss, entry by entry. -/
def lossEntries : EReal :=
  Ideal.div (∑ e : SE.Idx, (if 0 < validE (l e) then weight x t l (binE (x e) (t e)) else 0) * bceE (x e) (t e)) (total l) * 1

end Cert.Ghmc

end
-- ==== Proof.Layout.lean ====
/-
  Where a block entry sits among the 131072 x 80 entries.

  The kernel views the entries as 81920 rows of 128 lanes (the same entries in the same row-major order) and a grid
  step n in 0..39 sees rows 2048 n .. 2048 n + 2047.  So the entry at row p, lane q of step n's block is entry number
  128 * (2048 n + p) + q in row-major order, that is row k / 80, column k % 80 of the arguments.  Every entry is met exactly
  once, so a sum over steps, block rows and lanes is the sum over the entries.
-/
import proofs.«411588_j16535624089725_3_alg».proof.Proof.Spec
import Mathlib.Algebra.BigOperators.Fin
import Mathlib.Algebra.BigOperators.Group.Finset.Basic

noncomputable section

namespace Cert.Ghmc

open Idealize.ShloMosaic Idealize.ShloMosaic.ValueIdx

/-- The row-major number of the entry at row p, lane q of step n's block. -/
def flatOf (n p q : ℕ) : ℕ := 128 * (2048 * n + p) + q

/-- Entry number k (row k / 80, column k % 80). -/
def entryOf (k : ℕ) : SE.Idx :=
  ix2 (⟨k / 80 % 131072, Nat.mod_lt _ (by norm_num)⟩ : Fin 131072) (⟨k % 80, Nat.mod_lt _ (by norm_num)⟩ : Fin 80)

/-- Rows of `n` laid end to end: the double sum over `m` rows of `n` is the sum over the first `m * n` numbers. -/
theorem sum_range_rows {M : Type*} [AddCommMonoid M] (g : ℕ → M) (m n : ℕ) :
    ∑ a ∈ Finset.range m, ∑ b ∈ Finset.range n, g (n * a + b) = ∑ k ∈ Finset.range (m * n), g k := by
  induction m with
  | zero => simp
  | succ m ih =>
    rw [Finset.sum_range_succ, ih, Nat.add_mul, Nat.one_mul, Finset.sum_range_add, Nat.mul_comm m n]

/-- The entry whose number has quotient `a` and remainder `b` by 80 is the one at row `a`, column `b`. -/
theorem entryOf_eq {k : ℕ} {a : Fin 131072} {b : Fin 80} (ha : k / 80 % 131072 = a.val) (hb : k % 80 = b.val) :
    entryOf k = ix2 a b := by
  funext d
  match d with
  | ⟨0, _⟩ => exact Fin.ext ha
  | ⟨1, _⟩ => exact Fin.ext hb

/-- Steps, block rows and lanes run through the numbers 0 .. 10485759 once each, in order:
    40 steps of 2048 rows give the 81920 rows, and 81920 rows of 128 lanes give the numbers. -/
theorem sum_steps {M : Type*} [AddCommMonoid M] (g : ℕ → M) :
    ∑ n ∈ Finset.range 40, ∑ p : Fin 2048, ∑ q : Fin 128, g (flatOf n p.val q.val)
      = ∑ k ∈ Finset.range 10485760, g k := by
  have hfin : ∀ n ∈ Finset.range 40, ∑ p : Fin 2048, ∑ q : Fin 128, g (flatOf n p.val q.val)
      = ∑ p ∈ Finset.range 2048, ∑ q ∈ Finset.range 128, g (128 * (2048 * n + p) + q) := by
    intro n _
    rw [Finset.sum_range (fun p => ∑ q ∈ Finset.range 128, g (128 * (2048 * n + p) + q))]
    refine Finset.sum_congr rfl fun p _ => ?_
    rw [Finset.sum_range (fun q => g (128 * (2048 * n + p.val) + q))]
    rfl
  rw [Finset.sum_congr rfl hfin, show (10485760 : ℕ) = 40 * 2048 * 128 from by norm_num]
  exact (sum_range_rows (fun r => ∑ q ∈ Finset.range 128, g (128 * r + q)) 40 2048).trans
    (sum_range_rows g (40 * 2048) 128)

/-- The entries in row-major order: row `a`, column `b` is number `80 a + b`, and 131072 rows of 80 give the numbers
    0 .. 10485759. -/
theorem sum_entries {M : Type*} [AddCommMonoid M] (f : SE.Idx → M) :
    ∑ e : SE.Idx, f e = ∑ k ∈ Finset.range 10485760, f (entryOf k) := by
  rw [sum_idx2 f, show (10485760 : ℕ) = 131072 * 80 from by norm_num,
    ← sum_range_rows (fun k => f (entryOf k)) 131072 80,
    Finset.sum_range (fun a => ∑ b ∈ Finset.range 80, f (entryOf (80 * a + b)))]
  refine Finset.sum_congr rfl fun a _ => ?_
  rw [Finset.sum_range (fun b => f (entryOf (80 * a.val + b)))]
  refine Finset.sum_congr rfl fun b _ => ?_
  have ha := a.isLt
  have hb := b.isLt
  rw [entryOf_eq (k := 80 * a.val + b.val) (a := a) (b := b) (by omega) (by omega)]

/-- Steps, block rows and lanes enumerate the entries once each. -/
theorem sum_blocks {M : Type*} [AddCommMonoid M] (f : SE.Idx → M) :
    ∑ n ∈ Finset.range 40, ∑ p : Fin 2048, ∑ q : Fin 128, f (entryOf (flatOf n p.val q.val)) = ∑ e : SE.Idx, f e :=
  (sum_steps (fun k => f (entryOf k))).trans (sum_entries f).symm

end Cert.Ghmc

end
-- ==== Proof.Blocks.lean ====
/-
  The blocks a grid step sees, and the array the kernel leaves, named at their literal shapes.

  Step t of the grid (t = 20 c' + j: core c', step j) reads block t of each reshaped argument: rows 2048 t .. 2048 t + 2047
  of 81920 x 128, which are the arguments' entries 128 * (2048 t + p) + q in row-major order.
-/
import proofs.«411588_j16535624089725_3_alg».proof.Proof.Gen.KernelIdeal.Frame
import proofs.«411588_j16535624089725_3_alg».proof.Proof.Contrib
import proofs.«411588_j16535624089725_3_alg».proof.Proof.Layout
import Idealize.ShloMosaic.Lib.Pipeline.Value

noncomputable section

namespace Cert.KernelIdeal.Acc

open Idealize.ShloMosaic Idealize.ShloMosaic.ValueIdx Idealize.SL.Sem Cert.KernelIdeal Cert.KernelIdeal.Gen Cert.KernelIdeal.Step Cert.Ghmc

variable (m : (ℓ : Loc nD τ sig) → Buf (Elt Ideal) ℓ)

/-- The logits' block at step t. -/
abbrev blk0 (c : Dev nD) (t : Fin cfg0.N) : Vec Ideal S2048x128 .f32 := iblk m c 0 t
/-- The labels' block at step t. -/
abbrev blk1 (c : Dev nD) (t : Fin cfg0.N) : Vec Ideal S2048x128 .i32 := iblk m c 1 t
/-- The weights' block at step t. -/
abbrev blk2 (c : Dev nD) (t : Fin cfg0.N) : Vec Ideal S2048x128 .i32 := iblk m c 2 t

/-- The three arguments as the program finds them. -/
abbrev arg0 (c : Dev nD) : Vec Ideal S131072x80 .f32 := m ((c.tc : Thread nD τ).loc main_arg0)
abbrev arg1 (c : Dev nD) : Vec Ideal S131072x80 .i32 := m ((c.tc : Thread nD τ).loc main_arg1)
abbrev arg2 (c : Dev nD) : Vec Ideal S131072x80 .i32 := m ((c.tc : Thread nD τ).loc main_arg2)

/-- What step n adds to scratch row r, lane q (nothing past the grid). -/
def stepAt (c : Dev nD) (n : ℕ) (r : Fin 32) (q : Fin 128) : EReal :=
  if h : n < cfg0.N then contrib (blk0 m c ⟨n, h⟩) (blk1 m c ⟨n, h⟩) (blk2 m c ⟨n, h⟩) r q else 0

/-- The 64 x 128 array the kernel leaves: 32 rows per core. -/
abbrev outArr (c : Dev nD) : Vec Ideal S64x128 .f32 := (dats (F := Ideal) m 0 c).arrAt 3 cfg0.N

/-- Each input window's block index at grid point t: block t along the rows, block 0 along the lanes. -/
theorem blkIndex0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem blkIndex1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem blkIndex2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- The array window 0 reads when the grid starts: the logits viewed as 81920 rows of 128. -/
theorem blkView0_eq (c : Dev nD) :
    (V m c main_v0 : S81920x128.Idx → EReal)
      = shapeCast S81920x128 (arg0 m c : S131072x80.Idx → EReal) shapeCasts_S131072x80_S81920x128 := by
  show StableHlo.after hostOps0 (fun b => m (c, b)) (Proc.devRef .tc main_v0) = _
  after_results
  rfl
/-- The same for the labels. -/
theorem blkView1_eq (c : Dev nD) :
    (V m c main_v1 : S81920x128.Idx → BitVec 32)
      = shapeCast S81920x128 (arg1 m c : S131072x80.Idx → BitVec 32) shapeCasts_S131072x80_S81920x128 := by
  show StableHlo.after hostOps0 (fun b => m (c, b)) (Proc.devRef .tc main_v1) = _
  after_results
  rfl
/-- The same for the weights. -/
theorem blkView2_eq (c : Dev nD) :
    (V m c main_v2 : S81920x128.Idx → BitVec 32)
      = shapeCast S81920x128 (arg2 m c : S131072x80.Idx → BitVec 32) shapeCasts_S131072x80_S81920x128 := by
  show StableHlo.after hostOps0 (fun b => m (c, b)) (Proc.devRef .tc main_v2) = _
  after_results
  rfl

/-- The 81920 x 128 view read at row 2048 n + p, lane q: both shapes list the entries in row-major order, and that
    position has number 128 * (2048 n + p) + q, which is below 131072 * 80. -/
theorem blkView_at {α : Type} (x : S131072x80.Idx → α) (j : S81920x128.Idx) (n p q : ℕ)
    (hn : n < 40) (hp : p < 2048) (hq : q < 128)
    (h0 : (j 0).val = 2048 * n + p) (h1 : (j 1).val = q) :
    shapeCast S81920x128 x shapeCasts_S131072x80_S81920x128 j = x (entryOf (flatOf n p q)) := by
  refine shapeCast_apply _ _ j _ ?_
  rw [Shape.rowMajor_val_two, Shape.rowMajor_val_two]
  show (flatOf n p q / 80 % 131072) * 80 + flatOf n p q % 80 = (j 0).val * 128 + (j 1).val
  unfold flatOf
  rw [h0, h1]
  omega

/-- Row p, lane q of the logits' block at step t is entry 128 * (2048 t + p) + q of the logits. -/
theorem blk0_apply (c : Dev nD) (t : Fin cfg0.N) (p : Fin 2048) (q : Fin 128) :
    blk0 m c t (ix2 p q) = arg0 m c (entryOf (flatOf t.val p.val q.val)) := by
  have hN : t.val < 40 := lt_of_lt_of_eq t.isLt (show cfg0.N = 40 from N_0)
  -- the block's entry sits in the array at block index times block size plus its own coordinate, axis by axis
  unfold blk0 iblk
  rw [View.read_apply]
  show V m c main_v0 (((cfg0.win 0).blk t).view.emb (ix2 p q)) = _
  refine (congrFun (blkView0_eq m c) _).trans ?_
  refine blkView_at _ _ t.val p.val q.val hN p.isLt q.isLt ?_ ?_
  · show win0_0.index t 0 * 2048 + 1 * p.val = _
    rw [(blkIndex0 t).1]; omega
  · show win0_0.index t 1 * 128 + 1 * q.val = _
    rw [(blkIndex0 t).2]; omega

/-- The same for the labels. -/
theorem blk1_apply (c : Dev nD) (t : Fin cfg0.N) (p : Fin 2048) (q : Fin 128) :
    blk1 m c t (ix2 p q) = arg1 m c (entryOf (flatOf t.val p.val q.val)) := by
  have hN : t.val < 40 := lt_of_lt_of_eq t.isLt (show cfg0.N = 40 from N_0)
  -- the block's entry sits in the array at block index times block size plus its own coordinate, axis by axis
  unfold blk1 iblk
  rw [View.read_apply]
  show V m c main_v1 (((cfg0.win 1).blk t).view.emb (ix2 p q)) = _
  refine (congrFun (blkView1_eq m c) _).trans ?_
  refine blkView_at _ _ t.val p.val q.val hN p.isLt q.isLt ?_ ?_
  · show win0_1.index t 0 * 2048 + 1 * p.val = _
    rw [(blkIndex1 t).1]; omega
  · show win0_1.index t 1 * 128 + 1 * q.val = _
    rw [(blkIndex1 t).2]; omega

/-- The same for the weights. -/
theorem blk2_apply (c : Dev nD) (t : Fin cfg0.N) (p : Fin 2048) (q : Fin 128) :
    blk2 m c t (ix2 p q) = arg2 m c (entryOf (flatOf t.val p.val q.val)) := by
  have hN : t.val < 40 := lt_of_lt_of_eq t.isLt (show cfg0.N = 40 from N_0)
  -- the block's entry sits in the array at block index times block size plus its own coordinate, axis by axis
  unfold blk2 iblk
  rw [View.read_apply]
  show V m c main_v2 (((cfg0.win 2).blk t).view.emb (ix2 p q)) = _
  refine (congrFun (blkView2_eq m c) _).trans ?_
  refine blkView_at _ _ t.val p.val q.val hN p.isLt q.isLt ?_ ?_
  · show win0_2.index t 0 * 2048 + 1 * p.val = _
    rw [(blkIndex2 t).1]; omega
  · show win0_2.index t 1 * 128 + 1 * q.val = _
    rw [(blkIndex2 t).2]; omega

end Cert.KernelIdeal.Acc

end
-- ==== Proof.RowSums.lean ====
/-
  Each store of the body into the scratch accumulator, read at a lane: the row it loaded plus the sum over the block's
  rows that the step contributes to that scratch row; the closing lane sum of the last step; and the zero the first step
  resets the scratch to.
-/
import proofs.«411588_j16535624089725_3_alg».proof.Proof.Contrib
import Idealize.ShloMosaic.PureOps.Ideal.Laws
import Idealize.ShloMosaic.Lib.Pipeline.Value
import Idealize.ShloMosaic.Lib.ValueLayout

noncomputable section

namespace Cert.KernelIdeal.Step

open Idealize.ShloMosaic Idealize.ShloMosaic.ValueIdx Cert.KernelIdeal Cert.KernelIdeal.Gen

variable (x0 : Vec Ideal S2048x128 .f32) (x1 x2 : Vec Ideal S2048x128 .i32)

/-! ## A sum over the block's rows, read at a lane -/

/-- Over lane q, the entry of the block whose row is p is (p, q). -/
theorem lift_rows (p : Fin 2048) (q : Fin 128) : reduces_S2048x128_S128.lift (ix1 q) p = ix2 p q := by
  funext c
  refine Fin.ext ?_
  match c with
  | ⟨0, _⟩ => rfl
  | ⟨1, _⟩ => rfl

/-- A block's vector summed over its 2048 rows, laid out as one row of 128 lanes and added to the row already there:
at lane q, the old entry plus the sum over the rows p of the vector at (p, q). -/
theorem rowsAdded_apply (w : FVec Ideal S2048x128 .f32) (prev : Vec Ideal S1x128 .f32) (q : Fin 128) :
    addf prev (shapeCast S1x128
        (multiReduction (F := Ideal) .add [0] S128 w 0x00000000#32 reduces_S2048x128_S128 (.inl rfl) rfl)
        shapeCasts_S128_S1x128) (ix2 (0 : Fin 1) q)
      = prev (ix2 (0 : Fin 1) q) + ∑ p : Fin 2048, w (ix2 p q) := by
  refine congrArg (prev (ix2 (0 : Fin 1) q) + ·) ?_
  refine (shapeCast_a_1a_apply _ shapeCasts_S128_S1x128 (0 : Fin 1) q).trans ?_
  refine (Ideal.multiReduction_add_single w 0x00000000#32 reduces_S2048x128_S128 (.inl rfl) rfl (ix1 q)).trans ?_
  exact Finset.sum_congr rfl fun p _ => congrArg w (lift_rows p q)

/-- The same seen through the cast of a row to its own shape that precedes the store. -/
theorem rowStored_apply (w : FVec Ideal S2048x128 .f32) (prev : Vec Ideal S1x128 .f32) (q : Fin 128) :
    shapeCast S1x128 (addf prev (shapeCast S1x128
        (multiReduction (F := Ideal) .add [0] S128 w 0x00000000#32 reduces_S2048x128_S128 (.inl rfl) rfl)
        shapeCasts_S128_S1x128)) shapeCasts_S1x128_S1x128 (ix2 (0 : Fin 1) q)
      = prev (ix2 (0 : Fin 1) q) + ∑ p : Fin 2048, w (ix2 p q) :=
  (congrFun (shapeCast_self _ shapeCasts_S1x128_S1x128) _).trans (rowsAdded_apply w prev q)

/-! ## The summed vectors, entry by entry -/

/-- The one-bit word of an equality test is 1 exactly when the two words are equal. -/
theorem cmpi_eq_one_iff (x y : BitVec 32) : IntOp.cmpi .eq x y = (1 : BitVec 1) ↔ x = y := by
  show BitVec.ofBool (x == y) = (1 : BitVec 1) ↔ x = y
  by_cases h : x = y
  · rw [beq_iff_eq.2 h]; exact iff_of_true rfl h
  · rw [beq_eq_false_iff_ne.2 h]; exact iff_of_false (by decide) h

/-- The vector that keeps valid where bin equals b and is zero elsewhere, read at an entry. -/
theorem mask_apply (b : BitVec 32) (j : S2048x128.Idx) :
    select (cmpi .eq (binV x0 x1) (broadcast S2048x128 b)) (validV x2)
        (broadcast S2048x128 (Scalar.ofBits (F := Ideal) .f32 0x00000000#32)) j
      = maskV x0 x1 x2 b j := by
  show Scalar.select (IntOp.cmpi .eq (binV x0 x1 j) b) (validV x2 j) (Ideal.ofBits .f32 0x00000000#32) = _
  rw [Ideal.ofBits_zero_f32]
  unfold maskV Scalar.select
  by_cases h : binV x0 x1 j = b
  · exact (if_pos ((cmpi_eq_one_iff _ _).2 h)).trans (if_pos h).symm
  · exact (if_neg fun h' => h ((cmpi_eq_one_iff _ _).1 h')).trans (if_neg h).symm

/-- That vector times bce, read at an entry. -/
theorem maskBce_apply (b : BitVec 32) (j : S2048x128.Idx) :
    mulf (select (cmpi .eq (binV x0 x1) (broadcast S2048x128 b)) (validV x2)
        (broadcast S2048x128 (Scalar.ofBits (F := Ideal) .f32 0x00000000#32))) (bceV x0 x1) j
      = maskV x0 x1 x2 b j * bceV x0 x1 j :=
  congrArg (· * bceV x0 x1 j) (mask_apply x0 x1 x2 b j)

/-! ## What a step adds, row by row of the scratch -/

/-- Rows 0 to 9: the sum of the masked valid entries. -/
theorem contrib_count (r : Fin 32) (hr : r.val < 10) (q : Fin 128) :
    contrib x0 x1 x2 r q = ∑ p : Fin 2048, maskV x0 x1 x2 (BitVec.ofNat 32 r.val) (ix2 p q) := by
  rw [contrib, if_pos hr]

/-- Row 10: the sum of the valid entries. -/
theorem contrib_valid (q : Fin 128) :
    contrib x0 x1 x2 (10 : Fin 32) q = ∑ p : Fin 2048, validV x2 (ix2 p q) := by
  rw [contrib, if_neg (show ¬ (10 : Fin 32).val < 10 by decide), if_pos (show (10 : Fin 32).val = 10 by decide)]

/-- Rows 11 to 20: the sum of the masked valid entries times bce. -/
theorem contrib_bce (r : Fin 32) (h10 : 10 < r.val) (h21 : r.val < 21) (q : Fin 128) :
    contrib x0 x1 x2 r q
      = ∑ p : Fin 2048, maskV x0 x1 x2 (BitVec.ofNat 32 (r.val - 11)) (ix2 p q) * bceV x0 x1 (ix2 p q) := by
  rw [contrib, if_neg (by omega), if_neg (by omega), if_pos h21]

/-- A store of a count row: the summed vector is the mask of bin b, and b is the row's number. -/
theorem count_row (w : FVec Ideal S2048x128 .f32) (b : BitVec 32) (r : Fin 32) (hr : r.val < 10)
    (hb : BitVec.ofNat 32 r.val = b) (hw : ∀ j, w j = maskV x0 x1 x2 b j)
    (prev : Vec Ideal S1x128 .f32) (q : Fin 128) :
    shapeCast S1x128 (addf prev (shapeCast S1x128
        (multiReduction (F := Ideal) .add [0] S128 w 0x00000000#32 reduces_S2048x128_S128 (.inl rfl) rfl)
        shapeCasts_S128_S1x128)) shapeCasts_S1x128_S1x128 (ix2 (0 : Fin 1) q)
      = prev (ix2 (0 : Fin 1) q) + contrib x0 x1 x2 r q := by
  rw [rowStored_apply, contrib_count x0 x1 x2 r hr, hb]
  exact congrArg (prev (ix2 (0 : Fin 1) q) + ·) (Finset.sum_congr rfl fun p _ => hw (ix2 p q))

/-- A store of a cross-entropy row: the summed vector is the mask of bin b times bce, and b is the row's number less 11. -/
theorem bce_row (w : FVec Ideal S2048x128 .f32) (b : BitVec 32) (r : Fin 32) (h10 : 10 < r.val) (h21 : r.val < 21)
    (hb : BitVec.ofNat 32 (r.val - 11) = b) (hw : ∀ j, w j = maskV x0 x1 x2 b j * bceV x0 x1 j)
    (prev : Vec Ideal S1x128 .f32) (q : Fin 128) :
    shapeCast S1x128 (addf prev (shapeCast S1x128
        (multiReduction (F := Ideal) .add [0] S128 w 0x00000000#32 reduces_S2048x128_S128 (.inl rfl) rfl)
        shapeCasts_S128_S1x128)) shapeCasts_S1x128_S1x128 (ix2 (0 : Fin 1) q)
      = prev (ix2 (0 : Fin 1) q) + contrib x0 x1 x2 r q := by
  rw [rowStored_apply, contrib_bce x0 x1 x2 r h10 h21, hb]
  exact congrArg (prev (ix2 (0 : Fin 1) q) + ·) (Finset.sum_congr rfl fun p _ => hw (ix2 p q))

/-! ## The closing lane sum: a column kept beside its rows -/

/-- Over row r, the entry of the scratch whose lane is q is (r, q). -/
theorem lift_lanes (r : Fin 32) (q : Fin 128) : reduces_S32x128_S32.lift (ix1 r) q = ix2 r q := by
  funext c
  refine Fin.ext ?_
  match c with
  | ⟨0, _⟩ => rfl
  | ⟨1, _⟩ => rfl

/-- An `[a]` array cast to the column `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, c)`, the column's entry of row `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- Row 0, the count of bin 0: the row as loaded plus the valid entries of the block that fall in bin 0, lane by lane. -/
theorem row0 (prev : Vec Ideal S1x128 .f32) (q : Fin 128) :
    (k0_pay11 (F := Ideal) (k0_pay6 x2) (k0_pay7 x0 x1) prev) (ix2 (0 : Fin 1) q)
      = prev (ix2 (0 : Fin 1) q) + contrib x0 x1 x2 (0 : Fin 32) q :=
  count_row x0 x1 x2 _ 0#32 0 (by decide) rfl (mask_apply x0 x1 x2 0#32) prev q

/-- Row 1, the count of bin 1. -/
theorem row1 (prev : Vec Ideal S1x128 .f32) (q : Fin 128) :
    (k0_pay14 (F := Ideal) (k0_pay13 (k0_pay6 x2) (k0_pay7 x0 x1)) prev) (ix2 (0 : Fin 1) q)
      = prev (ix2 (0 : Fin 1) q) + contrib x0 x1 x2 (1 : Fin 32) q :=
  count_row x0 x1 x2 _ 1#32 1 (by decide) rfl (mask_apply x0 x1 x2 1#32) prev q

/-- Row 2, the count of bin 2. -/
theorem row2 (prev : Vec Ideal S1x128 .f32) (q : Fin 128) :
    (k0_pay17 (F := Ideal) (k0_pay6 x2) (k0_pay7 x0 x1) prev) (ix2 (0 : Fin 1) q)
      = prev (ix2 (0 : Fin 1) q) + contrib x0 x1 x2 (2 : Fin 32) q :=
  count_row x0 x1 x2 _ 2#32 2 (by decide) rfl (mask_apply x0 x1 x2 2#32) prev q

/-- Row 3, the count of bin 3. -/
theorem row3 (prev : Vec Ideal S1x128 .f32) (q : Fin 128) :
    (k0_pay20 (F := Ideal) (k0_pay6 x2) (k0_pay7 x0 x1) prev) (ix2 (0 : Fin 1) q)
      = prev (ix2 (0 : Fin 1) q) + contrib x0 x1 x2 (3 : Fin 32) q :=
  count_row x0 x1 x2 _ 3#32 3 (by decide) rfl (mask_apply x0 x1 x2 3#32) prev q

/-- Row 4, the count of bin 4. -/
theorem row4 (prev : Vec Ideal S1x128 .f32) (q : Fin 128) :
    (k0_pay23 (F := Ideal) (k0_pay6 x2) (k0_pay7 x0 x1) prev) (ix2 (0 : Fin 1) q)
      = prev (ix2 (0 : Fin 1) q) + contrib x0 x1 x2 (4 : Fin 32) q :=
  count_row x0 x1 x2 _ 4#32 4 (by decide) rfl (mask_apply x0 x1 x2 4#32) prev q

/-- Row 5, the count of bin 5. -/
theorem row5 (prev : Vec Ideal S1x128 .f32) (q : Fin 128) :
    (k0_pay27 (F := Ideal) (k0_pay6 x2) (k0_pay7 x0 x1) prev) (ix2 (0 : Fin 1) q)
      = prev (ix2 (0 : Fin 1) q) + contrib x0 x1 x2 (5 : Fin 32) q :=
  count_row x0 x1 x2 _ 5#32 5 (by decide) rfl (mask_apply x0 x1 x2 5#32) prev q

/-- Row 6, the count of bin 6. -/
theorem row6 (prev : Vec Ideal S1x128 .f32) (q : Fin 128) :
    (k0_pay30 (F := Ideal) (k0_pay6 x2) (k0_pay7 x0 x1) prev) (ix2 (0 : Fin 1) q)
      = prev (ix2 (0 : Fin 1) q) + contrib x0 x1 x2 (6 : Fin 32) q :=
  count_row x0 x1 x2 _ 6#32 6 (by decide) rfl (mask_apply x0 x1 x2 6#32) prev q

/-- Row 7, the count of bin 7. -/
theorem row7 (prev : Vec Ideal S1x128 .f32) (q : Fin 128) :
    (k0_pay33 (F := Ideal) (k0_pay6 x2) (k0_pay7 x0 x1) prev) (ix2 (0 : Fin 1) q)
      = prev (ix2 (0 : Fin 1) q) + contrib x0 x1 x2 (7 : Fin 32) q :=
  count_row x0 x1 x2 _ 7#32 7 (by decide) rfl (mask_apply x0 x1 x2 7#32) prev q

/-- Row 8, the count of bin 8. -/
theorem row8 (prev : Vec Ideal S1x128 .f32) (q : Fin 128) :
    (k0_pay37 (F := Ideal) (k0_pay36 (k0_pay6 x2) (k0_pay7 x0 x1) prev)) (ix2 (0 : Fin 1) q)
      = prev (ix2 (0 : Fin 1) q) + contrib x0 x1 x2 (8 : Fin 32) q :=
  count_row x0 x1 x2 _ 8#32 8 (by decide) rfl (mask_apply x0 x1 x2 8#32) prev q

/-- Row 9, the count of bin 9. -/
theorem row9 (prev : Vec Ideal S1x128 .f32) (q : Fin 128) :
    (k0_pay40 (F := Ideal) (k0_pay6 x2) (k0_pay7 x0 x1) prev) (ix2 (0 : Fin 1) q)
      = prev (ix2 (0 : Fin 1) q) + contrib x0 x1 x2 (9 : Fin 32) q :=
  count_row x0 x1 x2 _ 9#32 9 (by decide) rfl (mask_apply x0 x1 x2 9#32) prev q

/-- Row 10, the number of valid entries. -/
theorem row10 (prev : Vec Ideal S1x128 .f32) (q : Fin 128) :
    (k0_pay1 (F := Ideal) (k0_pay42 (k0_pay6 x2) prev)) (ix2 (0 : Fin 1) q)
      = prev (ix2 (0 : Fin 1) q) + contrib x0 x1 x2 (10 : Fin 32) q :=
  (rowStored_apply (validV x2) prev q).trans
    (congrArg (prev (ix2 (0 : Fin 1) q) + ·) (contrib_valid x0 x1 x2 q).symm)

/-- Row 11, the cross entropies of the valid entries in bin 0. -/
theorem row11 (prev : Vec Ideal S1x128 .f32) (q : Fin 128) :
    (k0_pay12 (F := Ideal) (k0_pay4 x0) (k0_pay5 x1) (k0_pay6 x2) (k0_pay7 x0 x1) (k0_pay8 x0 x1) prev) (ix2 (0 : Fin 1) q)
      = prev (ix2 (0 : Fin 1) q) + contrib x0 x1 x2 (11 : Fin 32) q :=
  bce_row x0 x1 x2 _ 0#32 11 (by decide) (by decide) rfl (maskBce_apply x0 x1 x2 0#32) prev q

/-- Row 12, the cross entropies of the valid entries in bin 1. -/
theorem row12 (prev : Vec Ideal S1x128 .f32) (q : Fin 128) :
    (k0_pay15 (F := Ideal) (k0_pay9 (k0_pay4 x0) (k0_pay5 x1) (k0_pay8 x0 x1)) (k0_pay13 (k0_pay6 x2) (k0_pay7 x0 x1)) prev) (ix2 (0 : Fin 1) q)
      = prev (ix2 (0 : Fin 1) q) + contrib x0 x1 x2 (12 : Fin 32) q :=
  bce_row x0 x1 x2 _ 1#32 12 (by decide) (by decide) rfl (maskBce_apply x0 x1 x2 1#32) prev q

/-- Row 13, the cross entropies of the valid entries in bin 2. -/
theorem row13 (prev : Vec Ideal S1x128 .f32) (q : Fin 128) :
    (k0_pay18 (F := Ideal) (k0_pay6 x2) (k0_pay7 x0 x1) (k0_pay9 (k0_pay4 x0) (k0_pay5 x1) (k0_pay8 x0 x1)) prev) (ix2 (0 : Fin 1) q)
      = prev (ix2 (0 : Fin 1) q) + contrib x0 x1 x2 (13 : Fin 32) q :=
  bce_row x0 x1 x2 _ 2#32 13 (by decide) (by decide) rfl (maskBce_apply x0 x1 x2 2#32) prev q

/-- Row 14, the cross entropies of the valid entries in bin 3. -/
theorem row14 (prev : Vec Ideal S1x128 .f32) (q : Fin 128) :
    (k0_pay21 (F := Ideal) (k0_pay6 x2) (k0_pay7 x0 x1) (k0_pay9 (k0_pay4 x0) (k0_pay5 x1) (k0_pay8 x0 x1)) prev) (ix2 (0 : Fin 1) q)
      = prev (ix2 (0 : Fin 1) q) + contrib x0 x1 x2 (14 : Fin 32) q :=
  bce_row x0 x1 x2 _ 3#32 14 (by decide) (by decide) rfl (maskBce_apply x0 x1 x2 3#32) prev q

/-- Row 15, the cross entropies of the valid entries in bin 4. -/
theorem row15 (prev : Vec Ideal S1x128 .f32) (q : Fin 128) :
    (k0_pay25 (F := Ideal) (k0_pay24 (k0_pay6 x2) (k0_pay7 x0 x1) (k0_pay9 (k0_pay4 x0) (k0_pay5 x1) (k0_pay8 x0 x1)) prev)) (ix2 (0 : Fin 1) q)
      = prev (ix2 (0 : Fin 1) q) + contrib x0 x1 x2 (15 : Fin 32) q :=
  bce_row x0 x1 x2 _ 4#32 15 (by decide) (by decide) rfl (maskBce_apply x0 x1 x2 4#32) prev q

/-- Row 16, the cross entropies of the valid entries in bin 5. -/
theorem row16 (prev : Vec Ideal S1x128 .f32) (q : Fin 128) :
    (k0_pay28 (F := Ideal) (k0_pay6 x2) (k0_pay7 x0 x1) (k0_pay9 (k0_pay4 x0) (k0_pay5 x1) (k0_pay8 x0 x1)) prev) (ix2 (0 : Fin 1) q)
      = prev (ix2 (0 : Fin 1) q) + contrib x0 x1 x2 (16 : Fin 32) q :=
  bce_row x0 x1 x2 _ 5#32 16 (by decide) (by decide) rfl (maskBce_apply x0 x1 x2 5#32) prev q

/-- Row 17, the cross entropies of the valid entries in bin 6. -/
theorem row17 (prev : Vec Ideal S1x128 .f32) (q : Fin 128) :
    (k0_pay31 (F := Ideal) (k0_pay9 (k0_pay4 x0) (k0_pay5 x1) (k0_pay8 x0 x1)) (k0_pay29 (k0_pay6 x2) (k0_pay7 x0 x1)) prev) (ix2 (0 : Fin 1) q)
      = prev (ix2 (0 : Fin 1) q) + contrib x0 x1 x2 (17 : Fin 32) q :=
  bce_row x0 x1 x2 _ 6#32 17 (by decide) (by decide) rfl (maskBce_apply x0 x1 x2 6#32) prev q

/-- Row 18, the cross entropies of the valid entries in bin 7. -/
theorem row18 (prev : Vec Ideal S1x128 .f32) (q : Fin 128) :
    (k0_pay34 (F := Ideal) (k0_pay6 x2) (k0_pay7 x0 x1) (k0_pay9 (k0_pay4 x0) (k0_pay5 x1) (k0_pay8 x0 x1)) prev) (ix2 (0 : Fin 1) q)
      = prev (ix2 (0 : Fin 1) q) + contrib x0 x1 x2 (18 : Fin 32) q :=
  bce_row x0 x1 x2 _ 7#32 18 (by decide) (by decide) rfl (maskBce_apply x0 x1 x2 7#32) prev q

/-- Row 19, the cross entropies of the valid entries in bin 8. -/
theorem row19 (prev : Vec Ideal S1x128 .f32) (q : Fin 128) :
    (k0_pay38 (F := Ideal) (k0_pay9 (k0_pay4 x0) (k0_pay5 x1) (k0_pay8 x0 x1)) (k0_pay35 (k0_pay6 x2) (k0_pay7 x0 x1)) prev) (ix2 (0 : Fin 1) q)
      = prev (ix2 (0 : Fin 1) q) + contrib x0 x1 x2 (19 : Fin 32) q :=
  bce_row x0 x1 x2 _ 8#32 19 (by decide) (by decide) rfl (maskBce_apply x0 x1 x2 8#32) prev q

/-- Row 20, the cross entropies of the valid entries in bin 9. -/
theorem row20 (prev : Vec Ideal S1x128 .f32) (q : Fin 128) :
    (k0_pay41 (F := Ideal) (k0_pay6 x2) (k0_pay7 x0 x1) (k0_pay9 (k0_pay4 x0) (k0_pay5 x1) (k0_pay8 x0 x1)) prev) (ix2 (0 : Fin 1) q)
      = prev (ix2 (0 : Fin 1) q) + contrib x0 x1 x2 (20 : Fin 32) q :=
  bce_row x0 x1 x2 _ 9#32 20 (by decide) (by decide) rfl (maskBce_apply x0 x1 x2 9#32) prev q

/-- The first step's reset writes zero everywhere. -/
theorem reset_apply (j : S32x128.Idx) : k0_pay3 (F := Ideal) j = 0 := by
  show shapeCast S32x128 (broadcast S32x128 (Scalar.ofBits (F := Ideal) .f32 0x00000000#32))
    shapeCasts_S32x128_S32x128 j = 0
  rw [shapeCast_self]
  exact Ideal.ofBits_zero_f32

/-- The last step's output: every lane of row r holds the sum of the scratch row's 128 lanes. -/
theorem lanes_apply (v : Vec Ideal S32x128 .f32) (r : Fin 32) (q' : Fin 128) :
    k0_pay2 (F := Ideal) v (ix2 r q') = ∑ q : Fin 128, v (ix2 r q) := by
  show broadcastTo S32x128 (shapeCast S32x1 (shapeCast S32x1
      (multiReduction (F := Ideal) .add [1] S32 v 0x00000000#32 reduces_S32x128_S32 (.inl rfl) rfl)
      shapeCasts_S32_S32x1) shapeCasts_S32x1_S32x1) broadcasts_S32x1_S32x128 (ix2 r q') = _
  rw [shapeCast_self]
  refine (broadcastTo_a1_ab_apply _ broadcasts_S32x1_S32x128 r q').trans ?_
  refine (shapeCast_a_a1_apply _ shapeCasts_S32_S32x1 r (0 : Fin 1)).trans ?_
  refine (Ideal.multiReduction_add_single v 0x00000000#32 reduces_S32x128_S32 (.inl rfl) rfl (ix1 r)).trans ?_
  exact Finset.sum_congr rfl fun q _ => congrArg v (lift_lanes r q)

end Cert.KernelIdeal.Step

end
-- ==== Proof.StepFirst.lean ====
/-
  The first step of a core (j = 0): the scratch is reset to zero and then accumulated into, so afterwards row r, lane q
  holds exactly the step's contribution (rows 0..20).

  The body stores the whole scratch (zero) and then one row at a time, in the order 0, 11, 1, 12, ..., 9, 20, 10; each
  row store holds the row as loaded just before it plus the step's contribution to that row.  Going along the stores in
  that order, after the reset and the first n row stores the scratch holds the contribution in the rows already stored
  and zero in every other row: a row is loaded before it is stored for the first time, so what is loaded is zero.
-/
import proofs.«411588_j16535624089725_3_alg».proof.Proof.Gen.KernelIdeal.Frame
import proofs.«411588_j16535624089725_3_alg».proof.Proof.RowSums
import Idealize.ShloMosaic.Lib.WritesUnit

set_option maxRecDepth 16384

noncomputable section

namespace Cert.KernelIdeal.Step

open Idealize.ShloMosaic Idealize.ShloMosaic.ValueIdx Idealize.ShloMosaic.Tactic Idealize.SL Idealize.SL.Sem Cert.KernelIdeal Cert.KernelIdeal.Gen

/-! ## The order of the row stores -/

/-- The place of scratch row ρ in the order in which the body stores the rows (0, 11, 1, 12, ..., 9, 20 and last 10),
    counted from 1; the rows 21..31, which are never stored, get 22. -/
def first_stamp (ρ : ℕ) : ℕ :=
  if ρ < 10 then 2 * ρ + 1 else if ρ = 10 then 21 else if ρ < 21 then 2 * (ρ - 11) + 2 else 22

theorem first_stamp_pos (a : ℕ) : ¬ first_stamp a ≤ 0 := by
  unfold first_stamp
  split_ifs <;> omega

/-- Two rows stored at the same place are the same row. -/
theorem first_stamp_inj {a b : ℕ} (h : first_stamp a = first_stamp b) (ha : first_stamp a ≤ 21) : a = b := by
  unfold first_stamp at h ha
  split_ifs at h ha <;> omega

/-- The rows 0..20 are all stored by the twenty-first store. -/
theorem first_stamp_le_of_lt {a : ℕ} (h : a < 21) : first_stamp a ≤ 21 := by
  unfold first_stamp
  split_ifs <;> omega

/-- The zero offsets of a whole-buffer access. -/
theorem first_hz : (![0, 0] : Fin 2 → ℕ) = fun _ => 0 :=
  funext fun a => match a with | ⟨0, _⟩ => rfl | ⟨1, _⟩ => rfl

section Stores

variable (x0 : Vec Ideal S2048x128 .f32) (x1 x2 : Vec Ideal S2048x128 .i32)

/-- The scratch after the reset and the first n row stores: the step's contribution in the rows stored so far, zero in
    the others. -/
def first_acc (n : ℕ) (ρ : Fin 32) (q : Fin 128) : EReal := if first_stamp ρ.val ≤ n then contrib x0 x1 x2 ρ q else 0

/-- One more row store. If the stores so far left `first_acc n`, and the new store, the m-th (m = n + 1), puts into row ρ0 the
    row as loaded plus the step's contribution to it, then the stores now leave `first_acc m`: row ρ0 was zero when loaded. -/
theorem first_canon_store_row {sg : RefSig} {κ : Kind} {sp : Space} (v : View sg κ sp S32x128 .f32) (n m ρ0 : ℕ) (h32 : ρ0 < 32)
    (hst : first_stamp ρ0 = m) (hm : m = n + 1) (hm21 : m ≤ 21)
    (inb : ∀ a, (![ρ0, 0] : Fin 2 → ℕ) a + S1x128.size a ≤ S32x128.size a)
    (w : (Rect.unit (s := S32x128) ![ρ0, 0] S1x128.size inb).shape.Idx → Elt Ideal .f32)
    (L : List (View.Piece (Elt Ideal) S32x128 .f32))
    (hL : ∀ (ρ : Fin 32) (q : Fin 128), View.canon L (ix2 ρ q) = first_acc x0 x1 x2 n ρ q)
    (hw : ∀ q : Fin 128, w (ix2 (0 : Fin 1) q)
      = v.readCov L (Rect.unit (s := S32x128) ![ρ0, 0] S1x128.size inb).toLoadRect (ix2 (0 : Fin 1) q)
        + contrib x0 x1 x2 (⟨ρ0, h32⟩ : Fin 32) q)
    (ρ : Fin 32) (q : Fin 128) :
    View.canon ((⟨Rect.unit (s := S32x128) ![ρ0, 0] S1x128.size inb, w⟩ : View.Piece (Elt Ideal) S32x128 .f32) :: L) (ix2 ρ q)
      = first_acc x0 x1 x2 m ρ q := by
  by_cases h : ρ.val = ρ0
  · -- the row just stored
    obtain rfl : ρ = ⟨ρ0, h32⟩ := Fin.ext h
    have hi : (Rect.unit (s := S32x128) ![ρ0, 0] S1x128.size inb).toLoadRect.idx (ix2 (0 : Fin 1) q)
        = ix2 (⟨ρ0, h32⟩ : Fin 32) q := by
      funext a
      match a with
      | ⟨0, _⟩ => exact Fin.ext (by show ρ0 + 1 * 0 = ρ0; omega)
      | ⟨1, _⟩ => exact Fin.ext (by show 0 + 1 * q.val = q.val; omega)
    have hprev : v.readCov L (Rect.unit (s := S32x128) ![ρ0, 0] S1x128.size inb).toLoadRect (ix2 (0 : Fin 1) q)
        = View.canon L (ix2 (⟨ρ0, h32⟩ : Fin 32) q) := by
      rw [View.readCov_eq_canon']
      exact congrArg (View.canon L) hi
    have hpay := View.canon_cons_emb (Rect.unit (s := S32x128) ![ρ0, 0] S1x128.size inb) w L (ix2 (0 : Fin 1) q)
    rw [show (Rect.unit (s := S32x128) ![ρ0, 0] S1x128.size inb).emb (ix2 (0 : Fin 1) q)
      = ix2 (⟨ρ0, h32⟩ : Fin 32) q from hi] at hpay
    rw [hpay, hw q, hprev, hL]
    unfold first_acc
    rw [if_neg (show ¬ first_stamp ρ0 ≤ n by omega), if_pos (show first_stamp ρ0 ≤ m by omega), zero_add]
  · -- any other row keeps what it held
    have hnot : ix2 ρ q ∉ (Rect.unit (s := S32x128) ![ρ0, 0] S1x128.size inb).set := by
      rw [Rect.mem_set_unit]
      intro hall
      have h0 := hall (0 : Fin 2)
      change ρ0 ≤ ρ.val ∧ ρ.val < ρ0 + 1 at h0
      omega
    rw [View.canon_cons_of_not_mem (⟨Rect.unit (s := S32x128) ![ρ0, 0] S1x128.size inb, w⟩ : View.Piece (Elt Ideal) S32x128 .f32) L hnot, hL]
    unfold first_acc
    have hne : first_stamp ρ.val ≠ m := fun hh => h (first_stamp_inj (hh.trans hst.symm) (by omega))
    exact if_congr (by omega) rfl rfl

/-! ## The body's loads of its three input blocks, and the values it forms from them once -/

variable (c : Dev nD) (arg2 : Memref sig .tc .vmem S2048x128 .f32) (harg2 : arg2.IsWhole)
  (arg3 : Memref sig .tc .vmem S2048x128 .i32) (harg3 : arg3.IsWhole)
  (arg4 : Memref sig .tc .vmem S2048x128 .i32) (harg4 : arg4.IsWhole)
  (arg6 : Memref sig .tc .vmem S32x128 .f32)

/-- A load of the whole first input block reads the block. -/
theorem first_load_x0 : View.readAt (Elt Ideal) arg2.view
    (Rect.unit ![0, 0] S2048x128.size inb_S2048x128_S2048x128_0_0).toLoadRect (harg2.unread x0) = x0 := by
  rw [View.readAt_eq_ld, harg2.read_unread, View.ld_unit_zero (S := S2048x128) first_hz]

/-- A load of the whole second input block reads the block. -/
theorem first_load_x1 : View.readAt (Elt Ideal) arg3.view
    (Rect.unit ![0, 0] S2048x128.size inb_S2048x128_S2048x128_0_0).toLoadRect (harg3.unread x1) = x1 := by
  rw [View.readAt_eq_ld, harg3.read_unread, View.ld_unit_zero (S := S2048x128) first_hz]

/-- A load of the whole third input block reads the block. -/
theorem first_load_x2 : View.readAt (Elt Ideal) arg4.view
    (Rect.unit ![0, 0] S2048x128.size inb_S2048x128_S2048x128_0_0).toLoadRect (harg4.unread x2) = x2 := by
  rw [View.readAt_eq_ld, harg4.read_unread, View.ld_unit_zero (S := S2048x128) first_hz]

theorem first_r_eq : kernelRun0_A.sl.r (F := Ideal) c arg2 harg2 x0 = k0_pay4 x0 := by
  unfold kernelRun0_A.sl.r
  rw [first_load_x0]

theorem first_r1_eq : kernelRun0_A.sl.r_1 (F := Ideal) c arg3 harg3 x1 = k0_pay5 x1 := by
  unfold kernelRun0_A.sl.r_1
  rw [first_load_x1]

/-- valid, as the body forms it. -/
theorem first_r2_eq : kernelRun0_A.sl.r_2 (F := Ideal) c arg4 harg4 x2 = k0_pay6 x2 := by
  unfold kernelRun0_A.sl.r_2
  rw [first_load_x2]

/-- bin, as the body forms it. -/
theorem first_r3_eq : kernelRun0_A.sl.r_3 (F := Ideal) c arg2 harg2 arg3 harg3 x0 x1 = k0_pay7 x0 x1 := by
  unfold kernelRun0_A.sl.r_3
  rw [first_load_x0, first_load_x1]

theorem first_r4_eq : kernelRun0_A.sl.r_4 (F := Ideal) c arg2 harg2 arg3 harg3 x0 x1 = k0_pay8 x0 x1 := by
  unfold kernelRun0_A.sl.r_4
  rw [first_load_x0, first_load_x1]

/-- bce, as the body forms it. -/
theorem first_r5_eq : kernelRun0_A.sl.r_5 (F := Ideal) c arg2 harg2 arg3 harg3 x0 x1
    = k0_pay9 (k0_pay4 x0) (k0_pay5 x1) (k0_pay8 x0 x1) := by
  unfold kernelRun0_A.sl.r_5
  rw [first_r_eq, first_r1_eq, first_r4_eq]

/-- The mask of bin 1. -/
theorem first_r6_eq : kernelRun0_A.sl.r_6 (F := Ideal) c arg2 harg2 arg3 harg3 arg4 harg4 x0 x1 x2
    = k0_pay13 (k0_pay6 x2) (k0_pay7 x0 x1) := by
  unfold kernelRun0_A.sl.r_6
  rw [first_r2_eq, first_r3_eq]

/-- The mask of bin 6. -/
theorem first_r8_eq : kernelRun0_A.sl.r_8 (F := Ideal) c arg2 harg2 arg3 harg3 arg4 harg4 x0 x1 x2
    = k0_pay29 (k0_pay6 x2) (k0_pay7 x0 x1) := by
  unfold kernelRun0_A.sl.r_8
  rw [first_r2_eq, first_r3_eq]

/-- The mask of bin 8. -/
theorem first_r9_eq : kernelRun0_A.sl.r_9 (F := Ideal) c arg2 harg2 arg3 harg3 arg4 harg4 x0 x1 x2
    = k0_pay35 (k0_pay6 x2) (k0_pay7 x0 x1) := by
  unfold kernelRun0_A.sl.r_9
  rw [first_r2_eq, first_r3_eq]

/-! ## The stores, one after the other -/

/-- After the reset: zero everywhere. -/
theorem first_after_reset (ρ : Fin 32) (q : Fin 128) :
    View.canon (kernelRun0_A.sl.HS0_1 (F := Ideal)) (ix2 ρ q) = first_acc x0 x1 x2 0 ρ q := by
  unfold kernelRun0_A.sl.HS0_1
  rw [View.canon_unit_zero (S := S32x128) first_hz, reset_apply]
  unfold first_acc
  rw [if_neg (first_stamp_pos ρ.val)]

/-- After the store of row 0. -/
theorem first_after_store1 (ρ : Fin 32) (q : Fin 128) :
    View.canon (kernelRun0_A.sl.HS0_2 (F := Ideal) c arg2 harg2 arg3 harg3 arg4 harg4 arg6 x0 x1 x2) (ix2 ρ q)
      = first_acc x0 x1 x2 1 ρ q := by
  unfold kernelRun0_A.sl.HS0_2
  refine first_canon_store_row x0 x1 x2 arg6.view 0 1 0 (by omega) rfl rfl (by omega) _ _ _
    (first_after_reset x0 x1 x2) (fun q' => ?_) ρ q
  rw [first_r2_eq, first_r3_eq]
  exact row0 x0 x1 x2 (kernelRun0_A.sl.v64 c arg6) q'

/-- After the store of row 11. -/
theorem first_after_store2 (ρ : Fin 32) (q : Fin 128) :
    View.canon (kernelRun0_A.sl.HS0_3 (F := Ideal) c arg2 harg2 arg3 harg3 arg4 harg4 arg6 x0 x1 x2) (ix2 ρ q)
      = first_acc x0 x1 x2 2 ρ q := by
  unfold kernelRun0_A.sl.HS0_3
  refine first_canon_store_row x0 x1 x2 arg6.view 1 2 11 (by omega) rfl rfl (by omega) _ _ _
    (first_after_store1 x0 x1 x2 c arg2 harg2 arg3 harg3 arg4 harg4 arg6) (fun q' => ?_) ρ q
  rw [first_r_eq, first_r1_eq, first_r2_eq, first_r3_eq, first_r4_eq]
  exact row11 x0 x1 x2 (kernelRun0_A.sl.v71 c arg2 harg2 arg3 harg3 arg4 harg4 arg6 x0 x1 x2) q'

/-- After the store of row 1. -/
theorem first_after_store3 (ρ : Fin 32) (q : Fin 128) :
    View.canon (kernelRun0_A.sl.HS0_4 (F := Ideal) c arg2 harg2 arg3 harg3 arg4 harg4 arg6 x0 x1 x2) (ix2 ρ q)
      = first_acc x0 x1 x2 3 ρ q := by
  unfold kernelRun0_A.sl.HS0_4
  refine first_canon_store_row x0 x1 x2 arg6.view 2 3 1 (by omega) rfl rfl (by omega) _ _ _
    (first_after_store2 x0 x1 x2 c arg2 harg2 arg3 harg3 arg4 harg4 arg6) (fun q' => ?_) ρ q
  rw [first_r6_eq]
  exact row1 x0 x1 x2 (kernelRun0_A.sl.v83 c arg2 harg2 arg3 harg3 arg4 harg4 arg6 x0 x1 x2) q'

/-- After the store of row 12. -/
theorem first_after_store4 (ρ : Fin 32) (q : Fin 128) :
    View.canon (kernelRun0_A.sl.HS0_5 (F := Ideal) c arg2 harg2 arg3 harg3 arg4 harg4 arg6 x0 x1 x2) (ix2 ρ q)
      = first_acc x0 x1 x2 4 ρ q := by
  unfold kernelRun0_A.sl.HS0_5
  refine first_canon_store_row x0 x1 x2 arg6.view 3 4 12 (by omega) rfl rfl (by omega) _ _ _
    (first_after_store3 x0 x1 x2 c arg2 harg2 arg3 harg3 arg4 harg4 arg6) (fun q' => ?_) ρ q
  rw [first_r5_eq, first_r6_eq]
  exact row12 x0 x1 x2 (kernelRun0_A.sl.v90 c arg2 harg2 arg3 harg3 arg4 harg4 arg6 x0 x1 x2) q'

/-- After the store of row 2. -/
theorem first_after_store5 (ρ : Fin 32) (q : Fin 128) :
    View.canon (kernelRun0_A.sl.HS0_6 (F := Ideal) c arg2 harg2 arg3 harg3 arg4 harg4 arg6 x0 x1 x2) (ix2 ρ q)
      = first_acc x0 x1 x2 5 ρ q := by
  unfold kernelRun0_A.sl.HS0_6
  refine first_canon_store_row x0 x1 x2 arg6.view 4 5 2 (by omega) rfl rfl (by omega) _ _ _
    (first_after_store4 x0 x1 x2 c arg2 harg2 arg3 harg3 arg4 harg4 arg6) (fun q' => ?_) ρ q
  rw [first_r2_eq, first_r3_eq]
  exact row2 x0 x1 x2 (kernelRun0_A.sl.v102 c arg2 harg2 arg3 harg3 arg4 harg4 arg6 x0 x1 x2) q'

/-- After the store of row 13. -/
theorem first_after_store6 (ρ : Fin 32) (q : Fin 128) :
    View.canon (kernelRun0_A.sl.HS0_7 (F := Ideal) c arg2 harg2 arg3 harg3 arg4 harg4 arg6 x0 x1 x2) (ix2 ρ q)
      = first_acc x0 x1 x2 6 ρ q := by
  unfold kernelRun0_A.sl.HS0_7
  refine first_canon_store_row x0 x1 x2 arg6.view 5 6 13 (by omega) rfl rfl (by omega) _ _ _
    (first_after_store5 x0 x1 x2 c arg2 harg2 arg3 harg3 arg4 harg4 arg6) (fun q' => ?_) ρ q
  rw [first_r2_eq, first_r3_eq, first_r5_eq]
  exact row13 x0 x1 x2 (kernelRun0_A.sl.v109 c arg2 harg2 arg3 harg3 arg4 harg4 arg6 x0 x1 x2) q'

/-- After the store of row 3. -/
theorem first_after_store7 (ρ : Fin 32) (q : Fin 128) :
    View.canon (kernelRun0_A.sl.HS0_8 (F := Ideal) c arg2 harg2 arg3 harg3 arg4 harg4 arg6 x0 x1 x2) (ix2 ρ q)
      = first_acc x0 x1 x2 7 ρ q := by
  unfold kernelRun0_A.sl.HS0_8
  refine first_canon_store_row x0 x1 x2 arg6.view 6 7 3 (by omega) rfl rfl (by omega) _ _ _
    (first_after_store6 x0 x1 x2 c arg2 harg2 arg3 harg3 arg4 harg4 arg6) (fun q' => ?_) ρ q
  rw [first_r2_eq, first_r3_eq]
  exact row3 x0 x1 x2 (kernelRun0_A.sl.v121 c arg2 harg2 arg3 harg3 arg4 harg4 arg6 x0 x1 x2) q'

/-- After the store of row 14. -/
theorem first_after_store8 (ρ : Fin 32) (q : Fin 128) :
    View.canon (kernelRun0_A.sl.HS0_9 (F := Ideal) c arg2 harg2 arg3 harg3 arg4 harg4 arg6 x0 x1 x2) (ix2 ρ q)
      = first_acc x0 x1 x2 8 ρ q := by
  unfold kernelRun0_A.sl.HS0_9
  refine first_canon_store_row x0 x1 x2 arg6.view 7 8 14 (by omega) rfl rfl (by omega) _ _ _
    (first_after_store7 x0 x1 x2 c arg2 harg2 arg3 harg3 arg4 harg4 arg6) (fun q' => ?_) ρ q
  rw [first_r2_eq, first_r3_eq, first_r5_eq]
  exact row14 x0 x1 x2 (kernelRun0_A.sl.v128 c arg2 harg2 arg3 harg3 arg4 harg4 arg6 x0 x1 x2) q'

/-- After the store of row 4. -/
theorem first_after_store9 (ρ : Fin 32) (q : Fin 128) :
    View.canon (kernelRun0_A.sl.HS0_10 (F := Ideal) c arg2 harg2 arg3 harg3 arg4 harg4 arg6 x0 x1 x2) (ix2 ρ q)
      = first_acc x0 x1 x2 9 ρ q := by
  unfold kernelRun0_A.sl.HS0_10
  refine first_canon_store_row x0 x1 x2 arg6.view 8 9 4 (by omega) rfl rfl (by omega) _ _ _
    (first_after_store8 x0 x1 x2 c arg2 harg2 arg3 harg3 arg4 harg4 arg6) (fun q' => ?_) ρ q
  rw [first_r2_eq, first_r3_eq]
  exact row4 x0 x1 x2 (kernelRun0_A.sl.v140 c arg2 harg2 arg3 harg3 arg4 harg4 arg6 x0 x1 x2) q'

/-- After the store of row 15. -/
theorem first_after_store10 (ρ : Fin 32) (q : Fin 128) :
    View.canon (kernelRun0_A.sl.HS0_11 (F := Ideal) c arg2 harg2 arg3 harg3 arg4 harg4 arg6 x0 x1 x2) (ix2 ρ q)
      = first_acc x0 x1 x2 10 ρ q := by
  unfold kernelRun0_A.sl.HS0_11
  refine first_canon_store_row x0 x1 x2 arg6.view 9 10 15 (by omega) rfl rfl (by omega) _ _ _
    (first_after_store9 x0 x1 x2 c arg2 harg2 arg3 harg3 arg4 harg4 arg6) (fun q' => ?_) ρ q
  unfold kernelRun0_A.sl.r_7
  rw [first_r2_eq, first_r3_eq, first_r5_eq]
  exact row15 x0 x1 x2 (kernelRun0_A.sl.v147 c arg2 harg2 arg3 harg3 arg4 harg4 arg6 x0 x1 x2) q'

/-- After the store of row 5. -/
theorem first_after_store11 (ρ : Fin 32) (q : Fin 128) :
    View.canon (kernelRun0_A.sl.HS0_12 (F := Ideal) c arg2 harg2 arg3 harg3 arg4 harg4 arg6 x0 x1 x2) (ix2 ρ q)
      = first_acc x0 x1 x2 11 ρ q := by
  unfold kernelRun0_A.sl.HS0_12
  refine first_canon_store_row x0 x1 x2 arg6.view 10 11 5 (by omega) rfl rfl (by omega) _ _ _
    (first_after_store10 x0 x1 x2 c arg2 harg2 arg3 harg3 arg4 harg4 arg6) (fun q' => ?_) ρ q
  rw [first_r2_eq, first_r3_eq]
  exact row5 x0 x1 x2 (kernelRun0_A.sl.v159 c arg2 harg2 arg3 harg3 arg4 harg4 arg6 x0 x1 x2) q'

/-- After the store of row 16. -/
theorem first_after_store12 (ρ : Fin 32) (q : Fin 128) :
    View.canon (kernelRun0_A.sl.HS0_13 (F := Ideal) c arg2 harg2 arg3 harg3 arg4 harg4 arg6 x0 x1 x2) (ix2 ρ q)
      = first_acc x0 x1 x2 12 ρ q := by
  unfold kernelRun0_A.sl.HS0_13
  refine first_canon_store_row x0 x1 x2 arg6.view 11 12 16 (by omega) rfl rfl (by omega) _ _ _
    (first_after_store11 x0 x1 x2 c arg2 harg2 arg3 harg3 arg4 harg4 arg6) (fun q' => ?_) ρ q
  rw [first_r2_eq, first_r3_eq, first_r5_eq]
  exact row16 x0 x1 x2 (kernelRun0_A.sl.v166 c arg2 harg2 arg3 harg3 arg4 harg4 arg6 x0 x1 x2) q'

/-- After the store of row 6. -/
theorem first_after_store13 (ρ : Fin 32) (q : Fin 128) :
    View.canon (kernelRun0_A.sl.HS0_14 (F := Ideal) c arg2 harg2 arg3 harg3 arg4 harg4 arg6 x0 x1 x2) (ix2 ρ q)
      = first_acc x0 x1 x2 13 ρ q := by
  unfold kernelRun0_A.sl.HS0_14
  refine first_canon_store_row x0 x1 x2 arg6.view 12 13 6 (by omega) rfl rfl (by omega) _ _ _
    (first_after_store12 x0 x1 x2 c arg2 harg2 arg3 harg3 arg4 harg4 arg6) (fun q' => ?_) ρ q
  rw [first_r2_eq, first_r3_eq]
  exact row6 x0 x1 x2 (kernelRun0_A.sl.v178 c arg2 harg2 arg3 harg3 arg4 harg4 arg6 x0 x1 x2) q'

/-- After the store of row 17. -/
theorem first_after_store14 (ρ : Fin 32) (q : Fin 128) :
    View.canon (kernelRun0_A.sl.HS0_15 (F := Ideal) c arg2 harg2 arg3 harg3 arg4 harg4 arg6 x0 x1 x2) (ix2 ρ q)
      = first_acc x0 x1 x2 14 ρ q := by
  unfold kernelRun0_A.sl.HS0_15
  refine first_canon_store_row x0 x1 x2 arg6.view 13 14 17 (by omega) rfl rfl (by omega) _ _ _
    (first_after_store13 x0 x1 x2 c arg2 harg2 arg3 harg3 arg4 harg4 arg6) (fun q' => ?_) ρ q
  rw [first_r5_eq, first_r8_eq]
  exact row17 x0 x1 x2 (kernelRun0_A.sl.v185 c arg2 harg2 arg3 harg3 arg4 harg4 arg6 x0 x1 x2) q'

/-- After the store of row 7. -/
theorem first_after_store15 (ρ : Fin 32) (q : Fin 128) :
    View.canon (kernelRun0_A.sl.HS0_16 (F := Ideal) c arg2 harg2 arg3 harg3 arg4 harg4 arg6 x0 x1 x2) (ix2 ρ q)
      = first_acc x0 x1 x2 15 ρ q := by
  unfold kernelRun0_A.sl.HS0_16
  refine first_canon_store_row x0 x1 x2 arg6.view 14 15 7 (by omega) rfl rfl (by omega) _ _ _
    (first_after_store14 x0 x1 x2 c arg2 harg2 arg3 harg3 arg4 harg4 arg6) (fun q' => ?_) ρ q
  rw [first_r2_eq, first_r3_eq]
  exact row7 x0 x1 x2 (kernelRun0_A.sl.v197 c arg2 harg2 arg3 harg3 arg4 harg4 arg6 x0 x1 x2) q'

/-- After the store of row 18. -/
theorem first_after_store16 (ρ : Fin 32) (q : Fin 128) :
    View.canon (kernelRun0_A.sl.HS0_17 (F := Ideal) c arg2 harg2 arg3 harg3 arg4 harg4 arg6 x0 x1 x2) (ix2 ρ q)
      = first_acc x0 x1 x2 16 ρ q := by
  unfold kernelRun0_A.sl.HS0_17
  refine first_canon_store_row x0 x1 x2 arg6.view 15 16 18 (by omega) rfl rfl (by omega) _ _ _
    (first_after_store15 x0 x1 x2 c arg2 harg2 arg3 harg3 arg4 harg4 arg6) (fun q' => ?_) ρ q
  rw [first_r2_eq, first_r3_eq, first_r5_eq]
  exact row18 x0 x1 x2 (kernelRun0_A.sl.v204 c arg2 harg2 arg3 harg3 arg4 harg4 arg6 x0 x1 x2) q'

/-- After the store of row 8. -/
theorem first_after_store17 (ρ : Fin 32) (q : Fin 128) :
    View.canon (kernelRun0_A.sl.HS0_18 (F := Ideal) c arg2 harg2 arg3 harg3 arg4 harg4 arg6 x0 x1 x2) (ix2 ρ q)
      = first_acc x0 x1 x2 17 ρ q := by
  unfold kernelRun0_A.sl.HS0_18
  refine first_canon_store_row x0 x1 x2 arg6.view 16 17 8 (by omega) rfl rfl (by omega) _ _ _
    (first_after_store16 x0 x1 x2 c arg2 harg2 arg3 harg3 arg4 harg4 arg6) (fun q' => ?_) ρ q
  unfold kernelRun0_A.sl.r_10
  rw [first_r2_eq, first_r3_eq]
  exact row8 x0 x1 x2 (kernelRun0_A.sl.v216 c arg2 harg2 arg3 harg3 arg4 harg4 arg6 x0 x1 x2) q'

/-- After the store of row 19. -/
theorem first_after_store18 (ρ : Fin 32) (q : Fin 128) :
    View.canon (kernelRun0_A.sl.HS0_19 (F := Ideal) c arg2 harg2 arg3 harg3 arg4 harg4 arg6 x0 x1 x2) (ix2 ρ q)
      = first_acc x0 x1 x2 18 ρ q := by
  unfold kernelRun0_A.sl.HS0_19
  refine first_canon_store_row x0 x1 x2 arg6.view 17 18 19 (by omega) rfl rfl (by omega) _ _ _
    (first_after_store17 x0 x1 x2 c arg2 harg2 arg3 harg3 arg4 harg4 arg6) (fun q' => ?_) ρ q
  rw [first_r5_eq, first_r9_eq]
  exact row19 x0 x1 x2 (kernelRun0_A.sl.v223 c arg2 harg2 arg3 harg3 arg4 harg4 arg6 x0 x1 x2) q'

/-- After the store of row 9. -/
theorem first_after_store19 (ρ : Fin 32) (q : Fin 128) :
    View.canon (kernelRun0_A.sl.HS0_20 (F := Ideal) c arg2 harg2 arg3 harg3 arg4 harg4 arg6 x0 x1 x2) (ix2 ρ q)
      = first_acc x0 x1 x2 19 ρ q := by
  unfold kernelRun0_A.sl.HS0_20
  refine first_canon_store_row x0 x1 x2 arg6.view 18 19 9 (by omega) rfl rfl (by omega) _ _ _
    (first_after_store18 x0 x1 x2 c arg2 harg2 arg3 harg3 arg4 harg4 arg6) (fun q' => ?_) ρ q
  rw [first_r2_eq, first_r3_eq]
  exact row9 x0 x1 x2 (kernelRun0_A.sl.v235 c arg2 harg2 arg3 harg3 arg4 harg4 arg6 x0 x1 x2) q'

/-- After the store of row 20. -/
theorem first_after_store20 (ρ : Fin 32) (q : Fin 128) :
    View.canon (kernelRun0_A.sl.HS0_21 (F := Ideal) c arg2 harg2 arg3 harg3 arg4 harg4 arg6 x0 x1 x2) (ix2 ρ q)
      = first_acc x0 x1 x2 20 ρ q := by
  unfold kernelRun0_A.sl.HS0_21
  refine first_canon_store_row x0 x1 x2 arg6.view 19 20 20 (by omega) rfl rfl (by omega) _ _ _
    (first_after_store19 x0 x1 x2 c arg2 harg2 arg3 harg3 arg4 harg4 arg6) (fun q' => ?_) ρ q
  rw [first_r2_eq, first_r3_eq, first_r5_eq]
  exact row20 x0 x1 x2 (kernelRun0_A.sl.v242 c arg2 harg2 arg3 harg3 arg4 harg4 arg6 x0 x1 x2) q'

/-- After the last store, of row 10: every row 0..20 holds the step's contribution. -/
theorem first_after_store21 (ρ : Fin 32) (q : Fin 128) :
    View.canon ((⟨Rect.unit (s := S32x128) ![10, 0] S1x128.size inb_S32x128_S1x128_10_0,
        k0_pay1 (kernelRun0_A.sl.r_11 (F := Ideal) c arg2 harg2 arg3 harg3 arg4 harg4 arg6 x0 x1 x2)⟩
          : View.Piece (Elt Ideal) S32x128 .f32)
        :: kernelRun0_A.sl.HS0_21 (F := Ideal) c arg2 harg2 arg3 harg3 arg4 harg4 arg6 x0 x1 x2) (ix2 ρ q)
      = first_acc x0 x1 x2 21 ρ q := by
  refine first_canon_store_row x0 x1 x2 arg6.view 20 21 10 (by omega) rfl rfl (by omega) _ _ _
    (first_after_store20 x0 x1 x2 c arg2 harg2 arg3 harg3 arg4 harg4 arg6) (fun q' => ?_) ρ q
  unfold kernelRun0_A.sl.r_11
  rw [first_r2_eq]
  exact row10 x0 x1 x2 (kernelRun0_A.sl.v250 c arg2 harg2 arg3 harg3 arg4 harg4 arg6 x0 x1 x2) q'

end Stores

/-- After a core's first step the scratch holds the step's contribution. -/
theorem scratch_first (c : Dev nD) (i : grid0.Coords) (arg2 : Memref sig .tc .vmem S2048x128 .f32) (harg2 : arg2.IsWhole) (arg3 : Memref sig .tc .vmem S2048x128 .i32) (harg3 : arg3.IsWhole) (arg4 : Memref sig .tc .vmem S2048x128 .i32) (harg4 : arg4.IsWhole) (arg5 : Memref sig .tc .vmem S32x128 .f32) (harg5 : arg5.IsWhole) (arg6 : Memref sig .tc .vmem S32x128 .f32) (harg6 : arg6.IsWhole) (hc0 : cond0_0 i) (hc1 : ¬cond0_1 i)
    (x0 : Vec Ideal S2048x128 .f32) (x1 x2 : Vec Ideal S2048x128 .i32) (r : Fin 32) (q : Fin 128) (hr : r.val < 21) :
    sout0_A_0 (F := Ideal) c i arg2 harg2 arg3 harg3 arg4 harg4 arg5 harg5 arg6 harg6 hc0 hc1 x0 x1 x2 (ix2 r q) = contrib x0 x1 x2 r q := by
  unfold sout0_A_0
  unfold kernelRun0_A
  dsimp only
  rw [View.read_writes_junk_apply_eq_canon]
  refine (first_after_store21 x0 x1 x2 c arg2 harg2 arg3 harg3 arg4 harg4 arg6 r q).trans ?_
  unfold first_acc
  rw [if_pos (first_stamp_le_of_lt hr)]

end Cert.KernelIdeal.Step

end
-- ==== Proof.StepMiddle.lean ====
/-
  A middle step of a core (0 < j < 19): each of the scratch rows 0..20 is loaded, the step's contribution added, and stored
  back; the other rows are untouched.

  The step leaves twenty-one stores in the scratch, each of one whole row, no two of the same row.  Read at row r, lane q,
  with r < 21, the stores of the other rows leave the entry alone and the store of row r gives its payload at lane q.  That
  payload is the body's arithmetic on the block's three inputs and on row r as it was loaded, and the row lemma of that
  store says it is the loaded entry plus the step's contribution to row r, lane q.
-/
import proofs.«411588_j16535624089725_3_alg».proof.Proof.Gen.KernelIdeal.Frame
import proofs.«411588_j16535624089725_3_alg».proof.Proof.RowSums
import Idealize.ShloMosaic.Lib.WritesUnit

set_option maxRecDepth 16384

noncomputable section

namespace Cert.KernelIdeal.Step

open Idealize.ShloMosaic Idealize.ShloMosaic.ValueIdx Idealize.ShloMosaic.Tactic Idealize.SL Idealize.SL.Sem Cert.KernelIdeal Cert.KernelIdeal.Gen

/-- The offsets of a whole input block are zero on both axes. -/
theorem middle_offsets_zero : (![0, 0] : Fin 2 → Nat) = fun _ => 0 := funext fun a => by fin_cases a <;> rfl

section Rows

variable {sg : RefSig} {κ : Kind} {sp : Space} (v : View sg κ sp S32x128 .f32) (f : v.ty.Contents (Elt Ideal))

/-- Row k, lane q, when the newest store is the store of row k: its payload at lane q. -/
theorem middle_row_hit (k : ℕ) (inb : ∀ a : Fin 2, (![k, 0] : Fin 2 → ℕ) a + (![1, 128] : Fin 2 → ℕ) a ≤ S32x128.size a)
    (w : (Rect.unit (s := S32x128) ![k, 0] ![1, 128] inb).shape.Idx → Elt Ideal .f32)
    (L : List (View.Piece (Elt Ideal) S32x128 .f32)) (r : Fin 32) (q : Fin 128) (hk : r.val = k) :
    v.read (Elt Ideal) (v.writes (Elt Ideal) f
        ((⟨Rect.unit (s := S32x128) ![k, 0] ![1, 128] inb, w⟩ : View.Piece (Elt Ideal) S32x128 .f32) :: L)) (ix2 r q)
      = w (ix2 (0 : Fin 1) q) :=
  View.read_writes_cons_rows_of_mem v f inb w L (ix2 r q) (ix2 (0 : Fin 1) q) rfl hk rfl

/-- Row r, when the newest store is the store of another row k: what the earlier stores left. -/
theorem middle_row_miss (k : ℕ) (inb : ∀ a : Fin 2, (![k, 0] : Fin 2 → ℕ) a + (![1, 128] : Fin 2 → ℕ) a ≤ S32x128.size a)
    (w : (Rect.unit (s := S32x128) ![k, 0] ![1, 128] inb).shape.Idx → Elt Ideal .f32)
    (L : List (View.Piece (Elt Ideal) S32x128 .f32)) (r : Fin 32) (q : Fin 128) (hk : r.val ≠ k) :
    v.read (Elt Ideal) (v.writes (Elt Ideal) f
        ((⟨Rect.unit (s := S32x128) ![k, 0] ![1, 128] inb, w⟩ : View.Piece (Elt Ideal) S32x128 .f32) :: L)) (ix2 r q)
      = v.read (Elt Ideal) (v.writes (Elt Ideal) f L) (ix2 r q) :=
  View.read_writes_cons_rows_of_not_mem (o := k) (W := 1) v f inb w L (ix2 r q) rfl rfl
    (by show r.val < k ∨ k + 1 ≤ r.val; omega)

end Rows

/-- Row k of the scratch as a load of that one row reads it: lane q of the loaded row is entry (k, q). -/
theorem middle_ld_row (xs0 : Vec Ideal S32x128 .f32) (k : ℕ)
    (inb : ∀ a : Fin 2, (![k, 0] : Fin 2 → ℕ) a + (![1, 128] : Fin 2 → ℕ) a ≤ S32x128.size a) (r : Fin 32) (q : Fin 128)
    (hk : r.val = k) :
    View.ld xs0 (Rect.unit (s := S32x128) ![k, 0] ![1, 128] inb) (ix2 (0 : Fin 1) q) = xs0 (ix2 r q) := by
  subst hk
  refine congrArg xs0 (funext fun a => Fin.ext ?_)
  match a with
  | ⟨0, _⟩ => exact Nat.add_zero _
  | ⟨1, _⟩ => show 0 + 1 * q.val = q.val; omega

/-- The newest store is of another row than the one read: go on to the earlier stores. -/
local macro "earlier" : tactic =>
  `(tactic| refine (middle_row_miss _ _ _ _ _ _ _ _ (by dsimp only; decide)).trans ?_)

/-- Row k, which n newer stores of other rows precede: past those, the store of row k gives its payload, the row lemma
    splits it into the loaded entry and the contribution, and the loaded entry is entry (k, q) of the scratch. -/
local macro "row_at " k:num " after " n:num " by " e:term : tactic =>
  `(tactic| (iterate $n earlier
             refine (middle_row_hit _ _ $k _ _ _ _ _ rfl).trans ?_
             refine ($e _ _).trans ?_
             exact congrArg (· + contrib _ _ _ ($k : Fin 32) _) (middle_ld_row _ $k _ _ _ rfl)))

/-- After a middle step the scratch holds what it held before plus the step's contribution. -/
theorem scratch_middle (c : Dev nD) (i : grid0.Coords) (arg2 : Memref sig .tc .vmem S2048x128 .f32) (harg2 : arg2.IsWhole) (arg3 : Memref sig .tc .vmem S2048x128 .i32) (harg3 : arg3.IsWhole) (arg4 : Memref sig .tc .vmem S2048x128 .i32) (harg4 : arg4.IsWhole) (arg5 : Memref sig .tc .vmem S32x128 .f32) (harg5 : arg5.IsWhole) (arg6 : Memref sig .tc .vmem S32x128 .f32) (harg6 : arg6.IsWhole) (hc0 : ¬cond0_0 i) (hc1 : ¬cond0_1 i)
    (x0 : Vec Ideal S2048x128 .f32) (x1 x2 : Vec Ideal S2048x128 .i32) (xs0 : Vec Ideal S32x128 .f32) (r : Fin 32) (q : Fin 128) (hr : r.val < 21) :
    sout0_B_0 (F := Ideal) c i arg2 harg2 arg3 harg3 arg4 harg4 arg5 harg5 arg6 harg6 hc0 hc1 x0 x1 x2 xs0 (ix2 r q) = xs0 (ix2 r q) + contrib x0 x1 x2 r q := by
  unfold sout0_B_0
  unfold kernelRun0_B
  dsimp only
  sl_unfold_words
  -- a load of an input block reads the block; a load of one scratch row reads that row of what the scratch held
  simp only [View.readAt_eq_ld, harg2.read_unread, harg3.read_unread, harg4.read_unread, harg6.read_unread,
    View.ld_unit_zero (S := S2048x128) middle_offsets_zero]
  -- the stores, newest first, are of rows 10, 20, 9, 19, 8, 18, ..., 1, 11, 0: row k ≤ 10 has 2 (10 - k) newer stores
  -- before it, row k ≥ 11 has 2 (20 - k) + 1
  obtain ⟨r, hr32⟩ := r
  dsimp only at hr
  interval_cases r
  · row_at 0 after 20 by row0 x0 x1 x2
  · row_at 1 after 18 by row1 x0 x1 x2
  · row_at 2 after 16 by row2 x0 x1 x2
  · row_at 3 after 14 by row3 x0 x1 x2
  · row_at 4 after 12 by row4 x0 x1 x2
  · row_at 5 after 10 by row5 x0 x1 x2
  · row_at 6 after 8 by row6 x0 x1 x2
  · row_at 7 after 6 by row7 x0 x1 x2
  · row_at 8 after 4 by row8 x0 x1 x2
  · row_at 9 after 2 by row9 x0 x1 x2
  · row_at 10 after 0 by row10 x0 x1 x2
  · row_at 11 after 19 by row11 x0 x1 x2
  · row_at 12 after 17 by row12 x0 x1 x2
  · row_at 13 after 15 by row13 x0 x1 x2
  · row_at 14 after 13 by row14 x0 x1 x2
  · row_at 15 after 11 by row15 x0 x1 x2
  · row_at 16 after 9 by row16 x0 x1 x2
  · row_at 17 after 7 by row17 x0 x1 x2
  · row_at 18 after 5 by row18 x0 x1 x2
  · row_at 19 after 3 by row19 x0 x1 x2
  · row_at 20 after 1 by row20 x0 x1 x2

end Cert.KernelIdeal.Step

end
-- ==== Proof.StepLast.lean ====
/-
  The last step of a core (j = 19): the scratch is accumulated into as in a middle step, and then every lane of output row r
  receives the sum of the scratch row's 128 lanes.
-/
import proofs.«411588_j16535624089725_3_alg».proof.Proof.Gen.KernelIdeal.Frame
import proofs.«411588_j16535624089725_3_alg».proof.Proof.RowSums
import Idealize.ShloMosaic.Lib.WritesUnit

set_option maxRecDepth 16384

noncomputable section

namespace Cert.KernelIdeal.Step

open Idealize.ShloMosaic Idealize.ShloMosaic.ValueIdx Idealize.ShloMosaic.Tactic Idealize.SL Idealize.SL.Sem Cert.KernelIdeal Cert.KernelIdeal.Gen

/-- The offsets of a whole-buffer access are zero on both axes. -/
theorem last_off_zero : (![0, 0] : Fin 2 → ℕ) = fun _ => 0 :=
  funext fun a => by fin_cases a <;> rfl

/-- A whole input block, loaded whole, is the block. -/
theorem last_load_whole {e : EltTy} (M : Memref sig .tc .vmem S2048x128 e) (hM : M.IsWhole) (X : Vec Ideal S2048x128 e) :
    View.readAt (Elt Ideal) M.view (Rect.unit ![0, 0] S2048x128.size inb_S2048x128_S2048x128_0_0).toLoadRect (hM.unread X) = X :=
  (congrArg (fun Y => View.ld Y (Rect.unit ![0, 0] S2048x128.size inb_S2048x128_S2048x128_0_0)) (hM.read_unread X)).trans
    (View.ld_unit_zero last_off_zero inb_S2048x128_S2048x128_0_0 X)

/-- Row o of the scratch, loaded before any store of the step, at lane q: what the scratch held at (o, q). -/
theorem last_load_row (M : Memref sig .tc .vmem S32x128 .f32) (hM : M.IsWhole) (X : Vec Ideal S32x128 .f32) (o : ℕ)
    (inb : ∀ a : Fin 2, (![o, 0] : Fin 2 → ℕ) a + S1x128.size a ≤ S32x128.size a) (r : Fin 32) (h : r.val = o) (q : Fin 128) :
    View.readAt (Elt Ideal) M.view (Rect.unit (s := S32x128) ![o, 0] S1x128.size inb).toLoadRect (hM.unread X) (ix2 (0 : Fin 1) q)
      = X (ix2 r q) := by
  refine (congrFun (hM.read_unread X) _).trans (congrArg X ?_)
  refine Shape.idx_ext₂ ?_ ?_
  · show o + 1 * 0 = r.val
    omega
  · show 0 + 1 * q.val = q.val
    omega

section Walk

variable (v : View sig .tc .vmem S32x128 .f32) (f : v.ty.Contents (Elt Ideal))

/-- The newest store is of row o: an entry of row o reads its payload at the entry's lane. -/
theorem last_row_hit (o : ℕ) (inb : ∀ a : Fin 2, (![o, 0] : Fin 2 → ℕ) a + S1x128.size a ≤ S32x128.size a)
    (w : Vec Ideal S1x128 .f32) (L : List (View.Piece (Elt Ideal) S32x128 .f32)) (r : Fin 32) (q : Fin 128) (h : r.val = o) :
    v.read (Elt Ideal) (v.writes (Elt Ideal) f (⟨Rect.unit ![o, 0] S1x128.size inb, w⟩ :: L)) (ix2 r q) = w (ix2 (0 : Fin 1) q) :=
  View.read_writes_cons_rows_of_mem v f inb w L (ix2 r q) (ix2 (0 : Fin 1) q) rfl
    (by show r.val = o + 0; omega) rfl

/-- The newest store is of row o: an entry of another row reads what the earlier stores left. -/
theorem last_row_miss (o : ℕ) (inb : ∀ a : Fin 2, (![o, 0] : Fin 2 → ℕ) a + S1x128.size a ≤ S32x128.size a)
    (w : Vec Ideal S1x128 .f32) (L : List (View.Piece (Elt Ideal) S32x128 .f32)) (r : Fin 32) (q : Fin 128) (h : r.val ≠ o) :
    v.read (Elt Ideal) (v.writes (Elt Ideal) f (⟨Rect.unit ![o, 0] S1x128.size inb, w⟩ :: L)) (ix2 r q)
      = v.read (Elt Ideal) (v.writes (Elt Ideal) f L) (ix2 r q) :=
  View.read_writes_cons_rows_of_not_mem (W := 1) v f inb w L (ix2 r q) rfl rfl
    (by show r.val < o ∨ o + 1 ≤ r.val; omega)

end Walk

/-- The newest store is of row o, its payload at lane q being the row as loaded plus c: an entry (o, q) reads what the
scratch held there plus c. -/
theorem last_hit_step (M : Memref sig .tc .vmem S32x128 .f32) (hM : M.IsWhole) (xs0 : Vec Ideal S32x128 .f32) (o : ℕ)
    (inb : ∀ a : Fin 2, (![o, 0] : Fin 2 → ℕ) a + S1x128.size a ≤ S32x128.size a)
    (w : Vec Ideal S1x128 .f32) (L : List (View.Piece (Elt Ideal) S32x128 .f32)) (r : Fin 32) (q : Fin 128)
    (h : r.val = o) (c : EReal)
    (hw : w (ix2 (0 : Fin 1) q)
      = View.readAt (Elt Ideal) M.view (Rect.unit (s := S32x128) ![o, 0] S1x128.size inb).toLoadRect (hM.unread xs0) (ix2 (0 : Fin 1) q) + c) :
    M.view.read (Elt Ideal) (M.view.writes (Elt Ideal) (hM.unread xs0) (⟨Rect.unit ![o, 0] S1x128.size inb, w⟩ :: L)) (ix2 r q)
      = xs0 (ix2 r q) + c :=
  ((last_row_hit M.view (hM.unread xs0) o inb w L r q h).trans hw).trans
    (congrArg (· + c) (last_load_row M hM xs0 o inb r h q))

/- One store of the walk through the scratch's stores, newest first, the newest being of row k: an entry of row k is
settled by that row's lemma; for an entry of another row the goal becomes the same reading of the earlier stores. The
names r, q, x0, x1, x2, xs0, arg6 and harg6 are the enclosing theorem's. -/
set_option hygiene false in
local macro "last_walk " k:num row:ident : tactic =>
  `(tactic| (
    by_cases hk : r.val = $k
    · obtain rfl : r = ($k : Fin 32) := Fin.ext hk
      exact last_hit_step arg6 harg6 xs0 $k _ _ _ ($k : Fin 32) q rfl _ ($row x0 x1 x2 _ q)
    refine (last_row_miss arg6.view (harg6.unread xs0) _ _ _ _ r q hk).trans ?_))

/-- After the last step the scratch holds what it held before plus the step's contribution. -/
theorem scratch_last (c : Dev nD) (i : grid0.Coords) (arg2 : Memref sig .tc .vmem S2048x128 .f32) (harg2 : arg2.IsWhole) (arg3 : Memref sig .tc .vmem S2048x128 .i32) (harg3 : arg3.IsWhole) (arg4 : Memref sig .tc .vmem S2048x128 .i32) (harg4 : arg4.IsWhole) (arg5 : Memref sig .tc .vmem S32x128 .f32) (harg5 : arg5.IsWhole) (arg6 : Memref sig .tc .vmem S32x128 .f32) (harg6 : arg6.IsWhole) (hc0 : ¬cond0_0 i) (hc1 : cond0_1 i)
    (x0 : Vec Ideal S2048x128 .f32) (x1 x2 : Vec Ideal S2048x128 .i32) (xs0 : Vec Ideal S32x128 .f32) (r : Fin 32) (q : Fin 128) (hr : r.val < 21) :
    sout0_C_0 (F := Ideal) c i arg2 harg2 arg3 harg3 arg4 harg4 arg5 harg5 arg6 harg6 hc0 hc1 x0 x1 x2 xs0 (ix2 r q) = xs0 (ix2 r q) + contrib x0 x1 x2 r q := by
  unfold sout0_C_0
  unfold kernelRun0_C
  dsimp only
  sl_unfold_words
  rw [last_load_whole arg2 harg2 x0, last_load_whole arg3 harg3 x1, last_load_whole arg4 harg4 x2]
  -- the 21 stores, newest first; each loaded its row before any of them was made
  last_walk 10 row10
  last_walk 20 row20
  last_walk 9 row9
  last_walk 19 row19
  last_walk 8 row8
  last_walk 18 row18
  last_walk 7 row7
  last_walk 17 row17
  last_walk 6 row6
  last_walk 16 row16
  last_walk 5 row5
  last_walk 15 row15
  last_walk 4 row4
  last_walk 14 row14
  last_walk 3 row3
  last_walk 13 row13
  last_walk 2 row2
  last_walk 12 row12
  last_walk 1 row1
  last_walk 11 row11
  last_walk 0 row0
  -- no row below 21 is left
  exfalso
  omega

/-- The output block of the last step: row r, any lane, is the lane sum of the scratch row as the step leaves it. -/
theorem output_last (c : Dev nD) (i : grid0.Coords) (arg2 : Memref sig .tc .vmem S2048x128 .f32) (harg2 : arg2.IsWhole) (arg3 : Memref sig .tc .vmem S2048x128 .i32) (harg3 : arg3.IsWhole) (arg4 : Memref sig .tc .vmem S2048x128 .i32) (harg4 : arg4.IsWhole) (arg5 : Memref sig .tc .vmem S32x128 .f32) (harg5 : arg5.IsWhole) (arg6 : Memref sig .tc .vmem S32x128 .f32) (harg6 : arg6.IsWhole) (hc0 : ¬cond0_0 i) (hc1 : cond0_1 i)
    (x0 : Vec Ideal S2048x128 .f32) (x1 x2 : Vec Ideal S2048x128 .i32) (xs0 : Vec Ideal S32x128 .f32) (r : Fin 32) (q' : Fin 128) :
    out0_C_3 (F := Ideal) c i arg2 harg2 arg3 harg3 arg4 harg4 arg5 harg5 arg6 harg6 hc0 hc1 x0 x1 x2 xs0 (ix2 r q')
      = ∑ q : Fin 128, sout0_C_0 (F := Ideal) c i arg2 harg2 arg3 harg3 arg4 harg4 arg5 harg5 arg6 harg6 hc0 hc1 x0 x1 x2 xs0 (ix2 r q) := by
  unfold out0_C_3 sout0_C_0
  unfold kernelRun0_C
  dsimp only
  sl_unfold_words
  -- the one store covers the block: the block is its payload, the lane sums of the scratch loaded whole after its stores
  refine (congrFun (View.read_writes_junk_eq_canon VO0_3 _) (ix2 r q')).trans ?_
  refine (congrFun (View.canon_unit_zero (S := S32x128) last_off_zero inb_S32x128_S32x128_0_0 _) (ix2 r q')).trans ?_
  refine (lanes_apply _ r q').trans ?_
  -- the scratch loaded whole is the scratch
  refine Finset.sum_congr rfl fun q _ => ?_
  exact congrFun (View.ld_unit_zero (S := S32x128) last_off_zero inb_S32x128_S32x128_0_0 _) (ix2 r q)

end Cert.KernelIdeal.Step

end
-- ==== Proof.Accumulate.lean ====
/-
  The scratch accumulator point by point.

  Grid point t = 20 c' + j is step j of core c'.  The first step of a core resets the scratch and adds its contribution; every
  later step adds its own.  So after point t scratch row r (r = 0..20), lane q holds the contributions of the core's steps
  0..j, summed; and at a core's last step the output block's row r holds, in every lane, the lane sum of that scratch row.
-/
import proofs.«411588_j16535624089725_3_alg».proof.Proof.Blocks
import proofs.«411588_j16535624089725_3_alg».proof.Proof.StepFirst
import proofs.«411588_j16535624089725_3_alg».proof.Proof.StepMiddle
import proofs.«411588_j16535624089725_3_alg».proof.Proof.StepLast

set_option maxRecDepth 16384

noncomputable section

namespace Cert.KernelIdeal.Acc

open Idealize.ShloMosaic Idealize.ShloMosaic.ValueIdx Idealize.SL.Sem Cert.KernelIdeal Cert.KernelIdeal.Gen Cert.KernelIdeal.Step

variable (m : (ℓ : Loc nD τ sig) → Buf (Elt Ideal) ℓ)

/-- What step n adds, for a point n of the grid: the contribution of the blocks the step sees. -/
theorem stepAt_of_lt (c : Dev nD) (n : ℕ) (hn : n < cfg0.N) (r : Fin 32) (q : Fin 128) :
    stepAt m c n r q = contrib (blk0 m c ⟨n, hn⟩) (blk1 m c ⟨n, hn⟩) (blk2 m c ⟨n, hn⟩) r q := by
  unfold stepAt
  exact dif_pos hn

/-- The scratch after point n, over the natural number n: by induction on n.  At a core's first step (n % 20 = 0) the sum
    has the one term n; at a later step n % 20 = j + 1 the point before is step j of the same core, and the sum over
    0..j+1 is the sum over 0..j plus the term at n / 20 * 20 + (j + 1) = n. -/
theorem scratch_at_nat (c : Dev nD) : ∀ (n : ℕ) (hn : n < cfg0.N) (r : Fin 32) (q : Fin 128), r.val < 21 →
    (outsAt0 (F := Ideal) m c n hn).2 (ix2 r q)
      = ∑ j ∈ Finset.range (n % 20 + 1), stepAt m c (n / 20 * 20 + j) r q := by
  intro n
  induction n using Nat.strong_induction_on with
  | _ n ih =>
    intro hn r q hr
    by_cases h0 : n % 20 = 0
    · -- first step of a core: the sum is its single term
      have h1 : ¬ n % 20 = 19 := by omega
      have e : n / 20 * 20 + 0 = n := by omega
      have hR : ∑ j ∈ Finset.range (n % 20 + 1), stepAt m c (n / 20 * 20 + j) r q
          = contrib (blk0 m c ⟨n, hn⟩) (blk1 m c ⟨n, hn⟩) (blk2 m c ⟨n, hn⟩) r q := by
        rw [h0, Finset.sum_range_succ, Finset.sum_range_zero, zero_add, e, stepAt_of_lt m c n hn r q]
      rw [hR, outsAt0_A m c ⟨n, hn⟩ h0 h1]
      dsimp only
      exact Step.scratch_first c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) ((hcond0_0 ⟨n, hn⟩).mpr h0) (fun h => h1 ((hcond0_1 ⟨n, hn⟩).mp h)) (blk0 m c ⟨n, hn⟩) (blk1 m c ⟨n, hn⟩) (blk2 m c ⟨n, hn⟩) r q hr
    · -- a later step: the point before is the previous step of the same core
      have e1 : (n - 1) % 20 + 1 = n % 20 := by omega
      have e2 : (n - 1) / 20 = n / 20 := by omega
      have e3 : n / 20 * 20 + n % 20 = n := by omega
      have hp := ih (n - 1) (by omega) (Nat.lt_of_le_of_lt (Nat.sub_le _ _) hn) r q hr
      rw [e1, e2] at hp
      have hR : ∑ j ∈ Finset.range (n % 20 + 1), stepAt m c (n / 20 * 20 + j) r q
          = (outsAt0 (F := Ideal) m c (n - 1) (Nat.lt_of_le_of_lt (Nat.sub_le _ _) hn)).2 (ix2 r q)
            + contrib (blk0 m c ⟨n, hn⟩) (blk1 m c ⟨n, hn⟩) (blk2 m c ⟨n, hn⟩) r q := by
        rw [Finset.sum_range_succ, e3, ← hp, stepAt_of_lt m c n hn r q]
      rw [hR]
      by_cases h1 : n % 20 = 19
      · rw [outsAt0_C m c ⟨n, hn⟩ h0 h1]
        dsimp only
        exact Step.scratch_last c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) (fun h => h0 ((hcond0_0 ⟨n, hn⟩).mp h)) ((hcond0_1 ⟨n, hn⟩).mpr h1) (blk0 m c ⟨n, hn⟩) (blk1 m c ⟨n, hn⟩) (blk2 m c ⟨n, hn⟩) (outsAt0 (F := Ideal) m c (n - 1) (Nat.lt_of_le_of_lt (Nat.sub_le _ _) hn)).2 r q hr
      · rw [outsAt0_B m c ⟨n, hn⟩ h0 h1]
        dsimp only
        exact Step.scratch_middle c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) (fun h => h0 ((hcond0_0 ⟨n, hn⟩).mp h)) (fun h => h1 ((hcond0_1 ⟨n, hn⟩).mp h)) (blk0 m c ⟨n, hn⟩) (blk1 m c ⟨n, hn⟩) (blk2 m c ⟨n, hn⟩) (outsAt0 (F := Ideal) m c (n - 1) (Nat.lt_of_le_of_lt (Nat.sub_le _ _) hn)).2 r q hr

/-- The scratch after point t: the contributions of the core's steps so far. -/
theorem scratch_at (c : Dev nD) (t : Fin cfg0.N) (r : Fin 32) (q : Fin 128) (hr : r.val < 21) :
    (outsAt0 (F := Ideal) m c t.val t.isLt).2 (ix2 r q)
      = ∑ j ∈ Finset.range (t.val % 20 + 1), stepAt m c (t.val / 20 * 20 + j) r q :=
  scratch_at_nat m c t.val t.isLt r q hr

/-- The output block at a core's last step: the lane sums of the scratch as that step leaves it. -/
theorem output_at (c : Dev nD) (t : Fin cfg0.N) (h19 : t.val % 20 = 19) (r : Fin 32) (q' : Fin 128) :
    (outsAt0 (F := Ideal) m c t.val t.isLt).1 (ix2 r q')
      = ∑ q : Fin 128, (outsAt0 (F := Ideal) m c t.val t.isLt).2 (ix2 r q) := by
  have h0 : ¬ t.val % 20 = 0 := by omega
  rw [outsAt0_C m c t h0 h19]
  dsimp only
  exact Step.output_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h19) (blk0 m c t) (blk1 m c t) (blk2 m c t) (outsAt0 (F := Ideal) m c (t.val - 1) (Nat.lt_of_le_of_lt (Nat.sub_le _ _) t.isLt)).2 r q'

end Cert.KernelIdeal.Acc

end
-- ==== Proof.OutputArray.lean ====
/-
  The array the kernel leaves.

  Only a core's last step writes its output block back: point 19 writes rows 0..31 and point 39 rows 32..63 of the 64 x 128
  array.  So row 32 k + r holds, in every lane, the lane sum of core k's scratch row r after its last step.
-/
import proofs.«411588_j16535624089725_3_alg».proof.Proof.Accumulate
import Idealize.ShloMosaic.Lib.Pipeline.Value

set_option maxRecDepth 16384

noncomputable section

namespace Cert.KernelIdeal.Acc

open Idealize.ShloMosaic Idealize.ShloMosaic.ValueIdx Idealize.SL.Sem Cert.KernelIdeal Cert.KernelIdeal.Gen Cert.KernelIdeal.Step

variable (m : (ℓ : Loc nD τ sig) → Buf (Elt Ideal) ℓ)

/-- Output block index at grid point t: block t / 20 along the rows (one block per core), block 0 along the lanes. -/
theorem outBlkIndex : ∀ t : Fin cfg0.N, win0_3.index t (0 : Fin 2) = t.val / 20 ∧ win0_3.index t (1 : Fin 2) = 0 :=
  (by decide +kernel : ∀ t : Fin grid0.N, win0_3.index t (0 : Fin 2) = t.val / 20 ∧ win0_3.index t (1 : Fin 2) = 0)

/-- Every output block is a full 32 x 128 block. -/
theorem outBlkExtent : ∀ t : Fin cfg0.N, win0_3.xsize (grid0.coords t) (0 : Fin 2) = 32 ∧ win0_3.xsize (grid0.coords t) (1 : Fin 2) = 128 :=
  (by decide +kernel : ∀ t : Fin grid0.N, win0_3.xsize (grid0.coords t) (0 : Fin 2) = 32 ∧ win0_3.xsize (grid0.coords t) (1 : Fin 2) = 128)

/-- The lane sum of scratch row r after point n (0 outside the grid or past the block's rows). -/
def outRowSum (c : Dev nD) (n r : ℕ) : EReal :=
  if h : n < cfg0.N ∧ r < 32 then ∑ q : Fin 128, (outsAt0 (F := Ideal) m c n h.1).2 (ix2 (⟨r, h.2⟩ : Fin 32) q) else 0

theorem outRowSum_eq (c : Dev nD) (n : ℕ) (h : n < cfg0.N) (r : Fin 32) :
    outRowSum m c n r.val = ∑ q : Fin 128, (outsAt0 (F := Ideal) m c n h).2 (ix2 r q) := by
  unfold outRowSum
  rw [dif_pos ⟨h, r.isLt⟩]

/-- The array the kernel leaves, as a function of the index: row i belongs to core i / 32, whose last step is point
    20 (i / 32) + 19, and holds the lane sum of that core's scratch row i % 32 in every lane. -/
def outArrFn (c : Dev nD) : Vec Ideal S64x128 .f32 :=
  fun i => outRowSum m c (20 * ((i 0).val / 32) + 19) ((i 0).val % 32)

/-- At a core's last step t, entry y of the output block is the array's entry at row 32 (t / 20) + y 0. -/
theorem outBlk_at (c : Dev nD) (t : Fin cfg0.N) (h19 : t.val % 20 = 19) (y : S32x128.Idx) (i : S64x128.Idx)
    (h0 : (i 0).val = t.val / 20 * 32 + (y 0).val) :
    (outsAt0 (F := Ideal) m c t.val t.isLt).1 y = outArrFn m c i := by
  obtain ⟨r, q', rfl⟩ : ∃ (r : Fin 32) (q' : Fin 128), y = ix2 r q' := ⟨y 0, y 1, eq_ix2 y⟩
  rw [output_at m c t h19 r q']
  unfold outArrFn
  have hr : r.val < 32 := r.isLt
  have h0' : (i 0).val = t.val / 20 * 32 + r.val := h0
  rw [h0', show (t.val / 20 * 32 + r.val) / 32 = t.val / 20 by omega, show (t.val / 20 * 32 + r.val) % 32 = r.val by omega,
    show 20 * (t.val / 20) + 19 = t.val by omega]
  exact (outRowSum_eq m c t.val t.isLt r).symm

/-- What a write-back writes: only the points with t % 20 = 19 write back, and there the output block is that block of
    the array. -/
theorem outBlk_flushed (c : Dev nD) (t : Fin cfg0.N) (hf : (cfg0.win 3).flush t = true) :
    (dats (F := Ideal) m 0 c).flushed 3 t = ((cfg0.win 3).blk t).view.read (Elt Ideal) (outArrFn m c) := by
  have h19 : t.val % 20 = 19 := (flush0_3 t).mp hf
  show (cfg0.win 3).cut (grid0.coords t) ((dats (F := Ideal) m 0 c).after 3 t) = _
  rw [after0_3]
  funext y
  rw [View.read_apply]
  show (outsAt0 (F := Ideal) m c t.val t.isLt).1 ((cfg0.win 3).xinj (grid0.coords t) y) = outArrFn m c (((cfg0.win 3).blk t).view.emb y)
  refine outBlk_at m c t h19 _ _ ?_
  -- the entry's row in the array: block index times 32 plus its row inside the block
  show win0_3.index t 0 * 32 + 1 * (y 0).val = t.val / 20 * 32 + (y 0).val
  rw [(outBlkIndex t).1]; omega

/-- Every entry of the array lies in a block that is written back: row i in the block of point 20 (i / 32) + 19, which
    spans rows 32 (i / 32) .. 32 (i / 32) + 31 and all 128 lanes. -/
theorem outBlk_covered (c : Dev nD) (i : ((cfg0.win 3).arr.view.loc (c.tc : Thread nD τ)).2.ty.Idx) :
    ∃ t : Fin cfg0.N, (cfg0.win 3).flush t = true ∧ i ∈ ((cfg0.win 3).blk t).view.set := by
  have hN : cfg0.N = 40 := N_0
  have h0 : (i 0).val < 64 := (i 0).isLt
  have h1 : (i 1).val < 128 := (i 1).isLt
  have ht : 20 * ((i 0).val / 32) + 19 < cfg0.N := by omega
  refine ⟨⟨20 * ((i 0).val / 32) + 19, ht⟩, (flush0_3 _).mpr (by show (20 * ((i 0).val / 32) + 19) % 20 = 19; omega), ?_⟩
  show i ∈ ((View.whole main_v3).slice (win0_3.rect ⟨20 * ((i 0).val / 32) + 19, ht⟩)).set
  rw [View.set_slice_whole, Rect.mem_set_unit]
  intro a
  match a with
  | ⟨0, _⟩ =>
    show win0_3.index _ 0 * 32 ≤ (i 0).val ∧ (i 0).val < win0_3.index _ 0 * 32 + win0_3.xsize (grid0.coords _) 0
    rw [(outBlkIndex _).1, (outBlkExtent _).1]
    show (20 * ((i 0).val / 32) + 19) / 20 * 32 ≤ (i 0).val ∧ (i 0).val < (20 * ((i 0).val / 32) + 19) / 20 * 32 + 32
    omega
  | ⟨1, _⟩ =>
    show win0_3.index _ 1 * 128 ≤ (i 1).val ∧ (i 1).val < win0_3.index _ 1 * 128 + win0_3.xsize (grid0.coords _) 1
    rw [(outBlkIndex _).2, (outBlkExtent _).2]
    omega

/-- Row 32 k + r of the array the kernel leaves: the lane sum of core k's final scratch row r. -/
theorem final_array (c : Dev nD) (k : Fin 2) (h : 20 * k.val + 19 < cfg0.N) (r : Fin 32) (q' : Fin 128) :
    outArr m c (ix2 (⟨32 * k.val + r.val, by have := k.isLt; have := r.isLt; omega⟩ : Fin 64) q')
      = ∑ q : Fin 128, (outsAt0 (F := Ideal) m c (20 * k.val + 19) h).2 (ix2 r q) := by
  -- the written-back blocks cover the array, so it ends as the function above; read that at row 32 k + r
  have hfin : outArr m c = outArrFn m c :=
    (dats (F := Ideal) m 0 c).arrAt_eq_of_cover 3 (outArrFn m c) (outBlk_flushed m c) (fun i => outBlk_covered c i)
  refine (congrFun hfin _).trans ?_
  unfold outArrFn
  show outRowSum m c (20 * ((32 * k.val + r.val) / 32) + 19) ((32 * k.val + r.val) % 32) = _
  have hk := k.isLt
  have hr := r.isLt
  rw [show (32 * k.val + r.val) / 32 = k.val by omega, show (32 * k.val + r.val) % 32 = r.val by omega]
  exact outRowSum_eq m c _ h r

end Cert.KernelIdeal.Acc

end
-- ==== Proof.HostTail.lean ====
/-
  The lines after the kernel call.

  They take lane 0 of the 64 x 128 array as 2 x 32, add the two cores' rows into 32 combined rows, and from rows 0..9 (the
  counts), row 10 (the number of valid entries) and rows 11..20 (the cross-entropy sums) compute the loss.
-/
import proofs.«411588_j16535624089725_3_alg».proof.Proof.Blocks
import Idealize.ShloMosaic.Lib.StableHlo.Run
import Idealize.ShloMosaic.Lib.Pipeline.Value
import Idealize.ShloMosaic.Lib.IdealHost
import Idealize.ShloMosaic.PureOps.Ideal.Laws

set_option maxRecDepth 16384

noncomputable section

namespace Cert.KernelIdeal.Acc

open Idealize.ShloMosaic Idealize.ShloMosaic.ValueIdx Idealize.SL.Sem Cert.KernelIdeal Cert.KernelIdeal.Gen

variable (m : (ℓ : Loc nD τ sig) → Buf (Elt Ideal) ℓ)

/-- The loss as the lines after the call compute it from the 32 combined rows. -/
def lossOfRows (comb : Fin 32 → EReal) : EReal :=
  Ideal.div (∑ b : Fin 10,
      Ideal.div (if 0 < comb ⟨b.val, by have := b.isLt; omega⟩
          then Ideal.div (max (comb 10) 1) (max (comb ⟨b.val, by have := b.isLt; omega⟩) 1) else 0)
        (max (∑ b' : Fin 10, (if 0 < comb ⟨b'.val, by have := b'.isLt; omega⟩ then (1 : EReal) else 0)) 1)
      * comb ⟨11 + b.val, by have := b.isLt; omega⟩)
    (max (comb 10) 1) * 1

section Stages

variable {F : FTy → Type} [FloatOps F]

/-- Lane 0 of the 64 x 128 array read as 2 x 32, the two halves added: the 32 combined rows. -/
def tailRows (A : Vec F S64x128 .f32) : Vec F S32 .f32 :=
  Host.reduceAdd
    (shapeCast S2x32
      (extractStridedSlice S2x32x1 ![0, 0, 0] (shapeCast S2x32x128 A shapeCasts_S64x128_S2x32x128)
        slices_S2x32x128_S2x32x1_0_0_0)
      shapeCasts_S2x32x1_S2x32)
    (constant S_ .f32 0x00000000#32) reducesTo_S2x32_S32_d0 h_S_

/-- Rows 0..9: the counts. -/
def countsOf (R : Vec F S32 .f32) : Vec F S10 .f32 := extractStridedSlice S10 ![0] R slices_S32_S10_0

/-- Row 10, at least 1: the number of valid entries. -/
def totOf (R : Vec F S32 .f32) : Vec F S_ .f32 :=
  maximumf (shapeCast S_ (extractStridedSlice S1 ![10] R slices_S32_S1_10) shapeCasts_S1_S_)
    (constant S_ .f32 0x3F800000#32)

/-- Rows 11..20: the cross-entropy sums. -/
def bcesOf (R : Vec F S32 .f32) : Vec F S10 .f32 := extractStridedSlice S10 ![11] R slices_S32_S10_11

/-- Ten zeros. -/
def zero10 : Vec F S10 .f32 := broadcastInDim S10 ![] bcast_S_S10 (constant S_ .f32 0x00000000#32)

/-- Which counts are positive. -/
def posOf (R : Vec F S32 .f32) : Vec F S10 .i1 := cmpf .ogt (countsOf R) zero10

/-- The number of positive counts, at least 1. -/
def nbOf (R : Vec F S32 .f32) : Vec F S_ .f32 :=
  maximumf (Host.reduceAdd (uitofp .f32 (posOf R)) (constant S_ .f32 0x00000000#32) reducesTo_S10_S_d0 h_S_)
    (constant S_ .f32 0x3F800000#32)

/-- The weights before the division by the number of non-empty bins. -/
def wOf (R : Vec F S32 .f32) : Vec F S10 .f32 :=
  select (posOf R)
    (Host.divf (broadcastInDim S10 ![] bcast_S_S10 (totOf R))
      (maximumf (countsOf R) (broadcastInDim S10 ![] bcast_S_S10 (constant S_ .f32 0x3F800000#32))))
    zero10

/-- The loss from the 32 combined rows, as the lines compute it. -/
def lossVec (R : Vec F S32 .f32) : Vec F S_ .f32 :=
  mulf
    (Host.divf
      (Host.reduceAdd (mulf (Host.divf (wOf R) (broadcastInDim S10 ![] bcast_S_S10 (nbOf R))) (bcesOf R))
        (constant S_ .f32 0x00000000#32) reducesTo_S10_S_d0 h_S_)
      (totOf R))
    (constant S_ .f32 0x3F800000#32)

end Stages

section Read

/-- A sum over a rank-1 index set is the sum over its coordinate. -/
private theorem sum_idx1 {n : Nat} (f : (⟨1, ![n]⟩ : Shape).Idx → EReal) : ∑ i, f i = ∑ a : Fin n, f (ix1 a) :=
  Fintype.sum_equiv ⟨fun i => i 0, ix1, fun i => (eq_ix1 i).symm, fun _ => rfl⟩ _ _ fun i => congrArg f (eq_ix1 i)

/-- The word 0x00000000 is the real 0. -/
private theorem zero_apply (i : S_.Idx) : (constant (F := Ideal) S_ .f32 0x00000000#32) i = (0 : EReal) :=
  Ideal.ofBits_zero_f32

/-- The word 0x3F800000 is the real 1. -/
private theorem one_apply (i : S_.Idx) : (constant (F := Ideal) S_ .f32 0x3F800000#32) i = (1 : EReal) :=
  Ideal.ofBits_one_f32

/-- Combined row r is the sum over the two halves of lane 0 of row 32 k + r. -/
theorem tailRows_apply (A : Vec Ideal S64x128 .f32) (r : Fin 32) :
    tailRows A (ix1 r)
      = ∑ k : Fin 2, A (ix2 (⟨32 * k.val + r.val, by have := k.isLt; have := r.isLt; omega⟩ : Fin 64) (0 : Fin 128)) := by
  unfold tailRows
  rw [hostReduceAdd_apply, Ideal.hostReduceAdd_single reducesTo_S2x32_S32_d0 (by decide : S2x32.Reduces [0] S32),
    zero_apply, zero_add]
  refine Finset.sum_congr rfl fun (k : Fin 2) _ => ?_
  refine (shapeCast_apply _ shapeCasts_S2x32x1_S2x32 _ (ix3 (k : Fin 2) r (0 : Fin 1)) ?_).trans ?_
  · rw [Shape.rowMajor_val_three, Shape.rowMajor_val_two]
    show (k.val * 32 + r.val) * 1 + 0 = k.val * 32 + r.val
    omega
  refine (extractStridedSlice_apply ![0, 0, 0] _ slices_S2x32x128_S2x32x1_0_0_0 _ (ix3 (k : Fin 2) r (0 : Fin 128))
    (fun a => match a with
      | ⟨0, _⟩ => by show k.val = 0 + k.val; omega
      | ⟨1, _⟩ => by show r.val = 0 + r.val; omega
      | ⟨2, _⟩ => by show 0 = 0 + 0; omega)).trans ?_
  refine shapeCast_apply A shapeCasts_S64x128_S2x32x128 _ _ ?_
  rw [Shape.rowMajor_val_two, Shape.rowMajor_val_three]
  show (32 * k.val + r.val) * 128 + 0 = (k.val * 32 + r.val) * 128 + 0
  omega

/-- Count b is combined row b. -/
theorem countsOf_apply (R : Vec Ideal S32 .f32) (b : Fin 10) :
    countsOf R (ix1 b) = R (ix1 (⟨b.val, by have := b.isLt; omega⟩ : Fin 32)) :=
  extractStridedSlice_apply ![0] R slices_S32_S10_0 _ _ (fun a => match a with
    | ⟨0, _⟩ => by show b.val = 0 + b.val; omega)

/-- Cross-entropy sum b is combined row 11 + b. -/
theorem bcesOf_apply (R : Vec Ideal S32 .f32) (b : Fin 10) :
    bcesOf R (ix1 b) = R (ix1 (⟨11 + b.val, by have := b.isLt; omega⟩ : Fin 32)) :=
  extractStridedSlice_apply ![11] R slices_S32_S10_11 _ _ (fun a => match a with
    | ⟨0, _⟩ => by show 11 + b.val = 11 + b.val; rfl)

/-- The number of valid entries is combined row 10, at least 1. -/
theorem totOf_apply (R : Vec Ideal S32 .f32) (i : S_.Idx) : totOf R i = max (R (ix1 (10 : Fin 32))) 1 := by
  show max (shapeCast S_ (extractStridedSlice S1 ![10] R slices_S32_S1_10) shapeCasts_S1_S_ i)
    ((constant (F := Ideal) S_ .f32 0x3F800000#32) i) = _
  rw [one_apply]
  refine congrArg (fun v => max v (1 : EReal)) ?_
  refine (shapeCast_apply _ shapeCasts_S1_S_ i (ix1 (0 : Fin 1)) ?_).trans ?_
  · rw [Shape.rowMajor_val_one]
    exact (Shape.rowMajorPi_zero _ i).symm
  exact extractStridedSlice_apply ![10] R slices_S32_S1_10 _ _ (fun a => match a with
    | ⟨0, _⟩ => by show 10 = 10 + 0; rfl)

/-- Every entry of the ten zeros is 0. -/
theorem zero10_apply (j : S10.Idx) : (zero10 (F := Ideal)) j = (0 : EReal) := by
  unfold zero10
  rw [broadcastInDim_scalar_apply, zero_apply]

/-- Count b is positive. -/
theorem posOf_apply (R : Vec Ideal S32 .f32) (b : Fin 10) :
    posOf R (ix1 b) = BitVec.ofBool (decide (0 < R (ix1 (⟨b.val, by have := b.isLt; omega⟩ : Fin 32)))) := by
  show Ideal.cmp .ogt (countsOf R (ix1 b)) ((zero10 (F := Ideal)) (ix1 b)) = _
  rw [countsOf_apply, zero10_apply]
  rfl

/-- The number of positive counts, at least 1. -/
theorem nbOf_apply (R : Vec Ideal S32 .f32) (i : S_.Idx) :
    nbOf R i = max (∑ b : Fin 10, (if 0 < R (ix1 (⟨b.val, by have := b.isLt; omega⟩ : Fin 32)) then (1 : EReal) else 0)) 1 := by
  show max (Host.reduceAdd (uitofp (F := Ideal) .f32 (posOf R)) (constant (F := Ideal) S_ .f32 0x00000000#32) reducesTo_S10_S_d0 h_S_ i)
    ((constant (F := Ideal) S_ .f32 0x3F800000#32) i) = _
  rw [one_apply, hostReduceAdd_apply, Ideal.hostReduceAdd_total reducesTo_S10_S_d0 (fun b => b.elim0), zero_apply, zero_add,
    sum_idx1]
  refine congrArg (fun v => max v (1 : EReal)) ?_
  refine Finset.sum_congr rfl fun b _ => ?_
  show (((posOf R (ix1 b)).toNat : ℝ) : EReal) = _
  rw [posOf_apply]
  by_cases h : 0 < R (ix1 (⟨b.val, by have := b.isLt; omega⟩ : Fin 32))
  · rw [if_pos h, decide_eq_true h]; simp
  · rw [if_neg h, decide_eq_false h]; simp

/-- Weight b before the division by the number of non-empty bins. -/
theorem wOf_apply (R : Vec Ideal S32 .f32) (b : Fin 10) :
    wOf R (ix1 b)
      = if 0 < R (ix1 (⟨b.val, by have := b.isLt; omega⟩ : Fin 32))
          then Ideal.div (max (R (ix1 (10 : Fin 32))) 1) (max (R (ix1 (⟨b.val, by have := b.isLt; omega⟩ : Fin 32))) 1)
          else 0 := by
  show Scalar.select (posOf R (ix1 b))
      (Ideal.div (broadcastInDim S10 ![] bcast_S_S10 (totOf R) (ix1 b))
        (max (countsOf R (ix1 b))
          (broadcastInDim S10 ![] bcast_S_S10 (constant (F := Ideal) S_ .f32 0x3F800000#32) (ix1 b))))
      (zero10 (F := Ideal) (ix1 b)) = _
  rw [posOf_apply, broadcastInDim_scalar_apply, broadcastInDim_scalar_apply, totOf_apply, countsOf_apply, one_apply,
    zero10_apply]
  unfold Scalar.select
  by_cases h : 0 < R (ix1 (⟨b.val, by have := b.isLt; omega⟩ : Fin 32))
  · rw [if_pos h, decide_eq_true h]
    exact if_pos (by decide)
  · rw [if_neg h, decide_eq_false h]
    exact if_neg (by decide)

/-- The loss read off the combined rows. -/
theorem lossVec_apply (R : Vec Ideal S32 .f32) (i : S_.Idx) : lossVec R i = lossOfRows fun r => R (ix1 r) := by
  show Ideal.div
      (Host.reduceAdd (mulf (Host.divf (wOf R) (broadcastInDim S10 ![] bcast_S_S10 (nbOf R))) (bcesOf R))
        (constant (F := Ideal) S_ .f32 0x00000000#32) reducesTo_S10_S_d0 h_S_ i)
      (totOf R i) * (constant (F := Ideal) S_ .f32 0x3F800000#32) i = _
  rw [one_apply, totOf_apply, hostReduceAdd_apply, Ideal.hostReduceAdd_total reducesTo_S10_S_d0 (fun b => b.elim0),
    zero_apply, zero_add, sum_idx1]
  unfold lossOfRows
  refine congrArg (fun v => Ideal.div v (max (R (ix1 (10 : Fin 32))) 1) * 1) ?_
  refine Finset.sum_congr rfl fun b _ => ?_
  show Ideal.div (wOf R (ix1 b)) (broadcastInDim S10 ![] bcast_S_S10 (nbOf R) (ix1 b)) * bcesOf R (ix1 b) = _
  rw [wOf_apply, broadcastInDim_scalar_apply, nbOf_apply, bcesOf_apply]

end Read

/-- The lines after the call, composed: the loss of the combined rows of the array the kernel leaves. -/
theorem tail_eq (c : Dev nD) :
    Pipeline.afterTail₀ cfgs (dats (F := Ideal) m) 0 (V0 m) [hostOps1, hostOps1_1, hostOps1_2] c main_v30
      = lossVec (F := Ideal) (tailRows (outArr m c)) := by
  have e : Pipeline.withArrays (cfgs 0).spec c (V0 m c) (fun w => (dats (F := Ideal) m 0 c).arrAt w (cfgs 0).N)
      (Proc.devRef .tc main_v3) = outArr m c :=
    Pipeline.withArrays_arr spec0 launch0.win.arr_inj c _ _ 3
  unfold Pipeline.afterTail₀
  simp only [hostOps1, hostOps1_1, hostOps1_2, List.flatten_cons, List.flatten_nil, List.append_nil, List.cons_append, List.nil_append]
  after_results_simp
  rw [e]
  rfl

/-- The program's result: the loss of the two cores' rows added. -/
theorem result_eq (c : Dev nD) :
    Pipeline.afterTail₀ cfgs (dats (F := Ideal) m) 0 (V0 m) [hostOps1, hostOps1_1, hostOps1_2] c main_v30
      = fun _ => lossOfRows fun r => ∑ k : Fin 2,
          outArr m c (ix2 (⟨32 * k.val + r.val, by have := k.isLt; have := r.isLt; omega⟩ : Fin 64) (0 : Fin 128)) := by
  rw [tail_eq]
  funext i
  rw [lossVec_apply]
  exact congrArg lossOfRows (funext fun r => tailRows_apply (outArr m c) r)

end Cert.KernelIdeal.Acc

end
-- ==== Proof.Elements.lean ====
/-
  The body's three vectors, entry by entry: valid, bin and bce of a block are the specification's functions of the block's
  entries.
-/
import proofs.«411588_j16535624089725_3_alg».proof.Proof.Contrib
import proofs.«411588_j16535624089725_3_alg».proof.Proof.Spec
import Idealize.ShloMosaic.Lib.IdealHost
import Idealize.ShloMosaic.PureOps.Ideal.Laws
import Idealize.ShloMosaic.Lib.Pipeline.Value

noncomputable section

namespace Cert.KernelIdeal.Step

open Idealize.ShloMosaic Idealize.ShloMosaic.ValueIdx Cert.KernelIdeal Cert.KernelIdeal.Gen Cert.Ghmc

/-- The comparison "0 < l", widened to 32 bits and read as a real number, is 1 when l is positive and 0 otherwise. -/
private theorem sgt_zero_toReal (l : BitVec 32) :
    ((((IntOp.cmpi .sgt l 0#32).setWidth 32).toInt : ℝ) : EReal) = validE l := by
  unfold validE
  have hc : IntOp.cmpi .sgt l 0#32 = BitVec.ofBool (decide (0 < l.toInt)) := by
    unfold IntOp.cmpi
    simp only [BitVec.slt, BitVec.toInt_zero]
  rw [hc]
  by_cases h : 0 < l.toInt
  · rw [if_pos h, decide_eq_true h]
    have e : ((BitVec.ofBool true).setWidth 32).toInt = 1 := by decide
    rw [e, Int.cast_one, EReal.coe_one]
  · rw [if_neg h, decide_eq_false h]
    have e : ((BitVec.ofBool false).setWidth 32).toInt = 0 := by decide
    rw [e, Int.cast_zero, EReal.coe_zero]

/-- The body's softplus.  It selects on "d ≠ d" for d = y - 0, which never holds, so the value is always the second
    branch, and there y - 0 = y and 0 - |y| = -|y|:  max y 0 + log (1 + exp (-|y|)). -/
private theorem softplus_select (y : EReal) :
    Scalar.select (Ideal.cmp .one (y - 0) (y - 0)) (y + 0)
      (max y 0 + Ideal.log1p (Ideal.exp (0 - max (y - 0) (-(y - 0))))) = softplusE y := by
  have hc : Ideal.cmp .one (y - 0) (y - 0) = 0#1 := by
    unfold Ideal.cmp
    simp
  rw [hc, select_zero, sub_zero, zero_sub]
  rfl

variable (x0 : Vec Ideal S2048x128 .f32) (x1 x2 : Vec Ideal S2048x128 .i32)

/-- valid of a block entry. -/
theorem validV_apply (j : S2048x128.Idx) : validV x2 j = validE (x2 j) := by
  -- the block is cast to its own shape, compared with 0 entry by entry, widened and converted
  rw [← sgt_zero_toReal]
  unfold validV k0_pay6
  simp only [shapeCast_self]
  rfl

/-- bin of a block entry. -/
theorem binV_apply (j : S2048x128.Idx) : binV x0 x1 j = binE (x0 j) (x1 j) := by
  -- entry by entry the chain is floor (|sigmoid x - t| * 10), converted and clipped, exactly as binE spells it
  unfold binV k0_pay7 k0_pay4 k0_pay5
  simp only [shapeCast_self]
  rfl

/-- bce of a block entry. -/
theorem bceV_apply (j : S2048x128.Idx) : bceV x0 x1 j = bceE (x0 j) (x1 j) := by
  unfold bceV k0_pay9 k0_pay8 k0_pay4 k0_pay5
  simp only [shapeCast_self]
  -- the entry of the block, with the constant words 0 and 1 still unread:  t * sp (0 - x) + (1 - t) * sp x,
  -- sp the body's select form of softplus
  show labelE (x1 j) * Scalar.select
          (Ideal.cmp .one ((Ideal.ofBits .f32 0x00000000#32 - x0 j) - Ideal.ofBits .f32 0x00000000#32) ((Ideal.ofBits .f32 0x00000000#32 - x0 j) - Ideal.ofBits .f32 0x00000000#32))
          ((Ideal.ofBits .f32 0x00000000#32 - x0 j) + Ideal.ofBits .f32 0x00000000#32)
          (max (Ideal.ofBits .f32 0x00000000#32 - x0 j) (Ideal.ofBits .f32 0x00000000#32)
            + Ideal.log1p (Ideal.exp (Ideal.ofBits .f32 0x00000000#32
                - max ((Ideal.ofBits .f32 0x00000000#32 - x0 j) - Ideal.ofBits .f32 0x00000000#32) (-((Ideal.ofBits .f32 0x00000000#32 - x0 j) - Ideal.ofBits .f32 0x00000000#32)))))
      + (Ideal.ofBits .f32 0x3F800000#32 - labelE (x1 j)) * Scalar.select
          (Ideal.cmp .one (x0 j - Ideal.ofBits .f32 0x00000000#32) (x0 j - Ideal.ofBits .f32 0x00000000#32))
          (x0 j + Ideal.ofBits .f32 0x00000000#32)
          (max (x0 j) (Ideal.ofBits .f32 0x00000000#32)
            + Ideal.log1p (Ideal.exp (Ideal.ofBits .f32 0x00000000#32
                - max (x0 j - Ideal.ofBits .f32 0x00000000#32) (-(x0 j - Ideal.ofBits .f32 0x00000000#32)))))
      = bceE (x0 j) (x1 j)
  rw [Ideal.ofBits_zero_f32, Ideal.ofBits_one_f32, softplus_select, softplus_select, zero_sub]
  rfl

end Cert.KernelIdeal.Step

end
-- ==== Proof.KernelSum.lean ====
/-
  The combined rows are the specification's sums.

  Combined row r adds, over the two cores, the 128 lanes and a core's 20 steps, what each step contributes to scratch row r;
  a step's contribution is a sum over its block's 2048 rows.  Cores, steps, block rows and lanes enumerate the entries once
  each, so rows 0..9 are the counts of the bins, row 10 the number of valid entries and rows 11..20 the bins' cross-entropy
  sums.
-/
import proofs.«411588_j16535624089725_3_alg».proof.Proof.Blocks
import proofs.«411588_j16535624089725_3_alg».proof.Proof.Elements
import Mathlib.Algebra.BigOperators.Fin
import Mathlib.Algebra.BigOperators.Group.Finset.Basic
import Mathlib.Algebra.BigOperators.Group.Finset.Sigma

set_option maxRecDepth 16384

noncomputable section

namespace Cert.KernelIdeal.Acc

open Idealize.ShloMosaic Idealize.ShloMosaic.ValueIdx Idealize.SL.Sem Cert.KernelIdeal Cert.KernelIdeal.Gen Cert.KernelIdeal.Step Cert.Ghmc

variable (m : (ℓ : Loc nD τ sig) → Buf (Elt Ideal) ℓ)

/-- Combined row r: over the cores, the lanes and a core's steps. -/
def combRow (c : Dev nD) (r : Fin 32) : EReal :=
  ∑ k : Fin 2, ∑ q : Fin 128, ∑ j ∈ Finset.range 20, stepAt m c (20 * k.val + j) r q

/-- The two cores' twenty steps each are the forty steps. -/
theorem sum_cores {M : Type*} [AddCommMonoid M] (G : ℕ → M) :
    ∑ k : Fin 2, ∑ j ∈ Finset.range 20, G (20 * k.val + j) = ∑ n ∈ Finset.range 40, G n := by
  rw [Fin.sum_univ_two, show (40 : ℕ) = 20 + 20 from rfl, Finset.sum_range_add]
  simp

/-- A step inside the grid adds what its blocks contribute. -/
theorem stepAt_lt (c : Dev nD) {n : ℕ} (h : n < cfg0.N) (r : Fin 32) (q : Fin 128) :
    stepAt m c n r q = contrib (blk0 m c ⟨n, h⟩) (blk1 m c ⟨n, h⟩) (blk2 m c ⟨n, h⟩) r q := by
  rw [stepAt, dif_pos h]

/-- A row below 10 collects the valid entries of its bin. -/
theorem contrib_count (x0 : Vec Ideal S2048x128 .f32) (x1 x2 : Vec Ideal S2048x128 .i32) (r : Fin 32) (hr : r.val < 10)
    (q : Fin 128) : contrib x0 x1 x2 r q = ∑ p : Fin 2048, maskV x0 x1 x2 (BitVec.ofNat 32 r.val) (ix2 p q) := by
  rw [contrib, if_pos hr]

/-- Row 10 collects the valid entries. -/
theorem contrib_valid (x0 : Vec Ideal S2048x128 .f32) (x1 x2 : Vec Ideal S2048x128 .i32) (r : Fin 32) (hr : r.val = 10)
    (q : Fin 128) : contrib x0 x1 x2 r q = ∑ p : Fin 2048, validV x2 (ix2 p q) := by
  rw [contrib, if_neg (by omega), if_pos hr]

/-- Rows 11 to 20 collect the cross entropies of the valid entries of bin r - 11. -/
theorem contrib_bce (x0 : Vec Ideal S2048x128 .f32) (x1 x2 : Vec Ideal S2048x128 .i32) (r : Fin 32) (h1 : 10 < r.val)
    (h2 : r.val < 21) (q : Fin 128) :
    contrib x0 x1 x2 r q
      = ∑ p : Fin 2048, maskV x0 x1 x2 (BitVec.ofNat 32 (r.val - 11)) (ix2 p q) * bceV x0 x1 (ix2 p q) := by
  rw [contrib, if_neg (by omega), if_neg (by omega), if_pos h2]

/-- The bin mask of a block entry is the specification's mask of the entry it holds. -/
theorem maskV_blk (c : Dev nD) (t : Fin cfg0.N) (bb : BitVec 32) (p : Fin 2048) (q : Fin 128) :
    maskV (blk0 m c t) (blk1 m c t) (blk2 m c t) bb (ix2 p q)
      = maskE (arg0 m c) (arg1 m c) (arg2 m c) bb (entryOf (flatOf t.val p.val q.val)) := by
  rw [maskV, maskE, binV_apply, validV_apply, blk0_apply, blk1_apply, blk2_apply]

/-- valid of a block entry is valid of the entry it holds. -/
theorem validV_blk (c : Dev nD) (t : Fin cfg0.N) (p : Fin 2048) (q : Fin 128) :
    validV (blk2 m c t) (ix2 p q) = validE (arg2 m c (entryOf (flatOf t.val p.val q.val))) := by
  rw [validV_apply, blk2_apply]

/-- The cross entropy of a block entry is that of the entry it holds. -/
theorem bceV_blk (c : Dev nD) (t : Fin cfg0.N) (p : Fin 2048) (q : Fin 128) :
    bceV (blk0 m c t) (blk1 m c t) (ix2 p q)
      = bceE (arg0 m c (entryOf (flatOf t.val p.val q.val))) (arg1 m c (entryOf (flatOf t.val p.val q.val))) := by
  rw [bceV_apply, blk0_apply, blk1_apply]

/-- A combined row whose steps each add, at lane q, the sum over the block's rows of F at the entries the block holds, is the
    sum of F over all entries: lanes and steps are exchanged, the cores' steps are the forty steps, lanes and block rows are
    exchanged, and steps, block rows and lanes enumerate the entries once each. -/
theorem combRow_eq (c : Dev nD) (r : Fin 32) (F : SE.Idx → EReal)
    (h : ∀ n, n < 40 → ∀ q : Fin 128, stepAt m c n r q = ∑ p : Fin 2048, F (entryOf (flatOf n p.val q.val))) :
    combRow m c r = ∑ e : SE.Idx, F e := by
  rw [combRow, ← sum_blocks F,
    Finset.sum_congr rfl (fun (k : Fin 2) _ =>
      (Finset.sum_comm : ∑ q : Fin 128, ∑ j ∈ Finset.range 20, stepAt m c (20 * k.val + j) r q
        = ∑ j ∈ Finset.range 20, ∑ q : Fin 128, stepAt m c (20 * k.val + j) r q)),
    sum_cores (fun n => ∑ q : Fin 128, stepAt m c n r q)]
  refine Finset.sum_congr rfl fun n hn => ?_
  rw [Finset.sum_congr rfl (fun q _ => h n (Finset.mem_range.mp hn) q)]
  exact Finset.sum_comm

/-- Rows 0..9: the counts. -/
theorem comb_count (c : Dev nD) (b : Fin 10) :
    combRow m c ⟨b.val, by have := b.isLt; omega⟩ = count (arg0 m c) (arg1 m c) (arg2 m c) (BitVec.ofNat 32 b.val) := by
  rw [Cert.Ghmc.count]
  refine combRow_eq m c _ (maskE (arg0 m c) (arg1 m c) (arg2 m c) (BitVec.ofNat 32 b.val)) fun n hn q => ?_
  have h : n < cfg0.N := lt_of_lt_of_eq hn (show cfg0.N = 40 from N_0).symm
  rw [stepAt_lt m c h, contrib_count _ _ _ _ (show (⟨b.val, _⟩ : Fin 32).val < 10 from b.isLt)]
  exact Finset.sum_congr rfl fun p _ => maskV_blk m c ⟨n, h⟩ _ p q

/-- Row 10: the number of valid entries. -/
theorem comb_valid (c : Dev nD) : combRow m c 10 = ∑ e : SE.Idx, validE (arg2 m c e) := by
  refine combRow_eq m c _ (fun e => validE (arg2 m c e)) fun n hn q => ?_
  have h : n < cfg0.N := lt_of_lt_of_eq hn (show cfg0.N = 40 from N_0).symm
  rw [stepAt_lt m c h, contrib_valid _ _ _ _ (show (10 : Fin 32).val = 10 from rfl)]
  exact Finset.sum_congr rfl fun p _ => validV_blk m c ⟨n, h⟩ p q

/-- Rows 11..20: the cross-entropy sums. -/
theorem comb_bce (c : Dev nD) (b : Fin 10) :
    combRow m c ⟨11 + b.val, by have := b.isLt; omega⟩ = bceSum (arg0 m c) (arg1 m c) (arg2 m c) (BitVec.ofNat 32 b.val) := by
  rw [Cert.Ghmc.bceSum]
  refine combRow_eq m c _
    (fun e => maskE (arg0 m c) (arg1 m c) (arg2 m c) (BitVec.ofNat 32 b.val) e * bceE (arg0 m c e) (arg1 m c e)) fun n hn q => ?_
  have h : n < cfg0.N := lt_of_lt_of_eq hn (show cfg0.N = 40 from N_0).symm
  have hb := b.isLt
  rw [stepAt_lt m c h, contrib_bce _ _ _ _ (show 10 < (⟨11 + b.val, _⟩ : Fin 32).val from by show 10 < 11 + b.val; omega)
    (show (⟨11 + b.val, _⟩ : Fin 32).val < 21 from by show 11 + b.val < 21; omega)]
  refine Finset.sum_congr rfl fun p _ => ?_
  rw [maskV_blk m c ⟨n, h⟩, bceV_blk m c ⟨n, h⟩]
  simp only [Nat.add_sub_cancel_left]

end Cert.KernelIdeal.Acc

end
-- ==== Proof.KernelLoss.lean ====
/-
  The kernel's program computes the loss bin by bin.

  The array the kernel leaves holds, in row 32 k + r, the lane sum of core k's scratch row r after its twenty steps; that scratch
  row is the sum of the twenty steps' contributions; the lines after the call add the two cores' rows.  So combined row r is the
  sum over cores, lanes and steps of the contributions to row r, which are the counts (rows 0..9), the number of valid entries
  (row 10) and the cross-entropy sums (rows 11..20); and the loss the lines after the call compute from those rows is the
  specification's loss, bin by bin.
-/
import proofs.«411588_j16535624089725_3_alg».proof.Proof.OutputArray
import proofs.«411588_j16535624089725_3_alg».proof.Proof.HostTail
import proofs.«411588_j16535624089725_3_alg».proof.Proof.KernelSum

set_option maxRecDepth 16384

noncomputable section

namespace Cert.KernelIdeal.Acc

open Idealize.ShloMosaic Idealize.ShloMosaic.ValueIdx Idealize.SL.Sem Cert.KernelIdeal Cert.KernelIdeal.Gen Cert.KernelIdeal.Step Cert.Ghmc

variable (m : (ℓ : Loc nD τ sig) → Buf (Elt Ideal) ℓ)

/-- Core k's scratch row r after its last step: its twenty steps' contributions. -/
theorem scratch_final (c : Dev nD) (k : Fin 2) (h : 20 * k.val + 19 < cfg0.N) (r : Fin 32) (q : Fin 128) (hr : r.val < 21) :
    (outsAt0 (F := Ideal) m c (20 * k.val + 19) h).2 (ix2 r q) = ∑ j ∈ Finset.range 20, stepAt m c (20 * k.val + j) r q := by
  have e := scratch_at m c ⟨20 * k.val + 19, h⟩ r q hr
  have h1 : (20 * k.val + 19) % 20 + 1 = 20 := by omega
  have h2 : (20 * k.val + 19) / 20 * 20 = 20 * k.val := by omega
  simp only [h1, h2] at e
  exact e

/-- The two cores' rows added: combined row r. -/
theorem comb_eq (c : Dev nD) (r : Fin 32) (hr : r.val < 21) :
    (∑ k : Fin 2, outArr m c (ix2 (⟨32 * k.val + r.val, by have := k.isLt; have := r.isLt; omega⟩ : Fin 64) (0 : Fin 128)))
      = combRow m c r := by
  unfold combRow
  refine Finset.sum_congr rfl fun k _ => ?_
  have hN : cfg0.N = 40 := N_0
  have hk : 20 * k.val + 19 < cfg0.N := by rw [hN]; have := k.isLt; omega
  rw [final_array m c k hk r 0]
  exact Finset.sum_congr rfl fun q _ => scratch_final m c k hk r q hr

/-- The loss of the combined rows is the specification's loss, bin by bin. -/
theorem lossOfRows_comb (c : Dev nD) :
    lossOfRows (fun r => ∑ k : Fin 2, outArr m c (ix2 (⟨32 * k.val + r.val, by have := k.isLt; have := r.isLt; omega⟩ : Fin 64) (0 : Fin 128)))
      = lossBins (arg0 m c) (arg1 m c) (arg2 m c) := by
  have hcount : ∀ b : Fin 10, (∑ k : Fin 2, outArr m c (ix2 (⟨32 * k.val + (⟨b.val, by have := b.isLt; omega⟩ : Fin 32).val, by have := k.isLt; have := b.isLt; omega⟩ : Fin 64) (0 : Fin 128)))
      = count (arg0 m c) (arg1 m c) (arg2 m c) (BitVec.ofNat 32 b.val) := fun b =>
    (comb_eq m c ⟨b.val, by have := b.isLt; omega⟩ (by have := b.isLt; show b.val < 21; omega)).trans (comb_count m c b)
  have hvalid : (∑ k : Fin 2, outArr m c (ix2 (⟨32 * k.val + (10 : Fin 32).val, by have := k.isLt; omega⟩ : Fin 64) (0 : Fin 128)))
      = ∑ e : SE.Idx, validE (arg2 m c e) :=
    (comb_eq m c 10 (by decide)).trans (comb_valid m c)
  have hbce : ∀ b : Fin 10, (∑ k : Fin 2, outArr m c (ix2 (⟨32 * k.val + (⟨11 + b.val, by have := b.isLt; omega⟩ : Fin 32).val, by have := k.isLt; have := b.isLt; omega⟩ : Fin 64) (0 : Fin 128)))
      = bceSum (arg0 m c) (arg1 m c) (arg2 m c) (BitVec.ofNat 32 b.val) := fun b =>
    (comb_eq m c ⟨11 + b.val, by have := b.isLt; omega⟩ (by have := b.isLt; show 11 + b.val < 21; omega)).trans (comb_bce m c b)
  unfold lossOfRows lossBins weight nbins total
  simp only [hcount, hvalid, hbce]

/-- The idealized kernel's program: every weakly fair execution terminates with the result at the loss, bin by bin, of the
    arguments, and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v30) = (fun _ => lossBins (arg0 m c) (arg1 m c) (arg2 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v30 (Pipeline.mem_restRefs_of main_v30 (by decide) (by decide))).trans
        ((result_eq m c).trans (funext fun _ => lossOfRows_comb m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Acc

end
-- ==== Proof.RefElements.lean ====
/-
  The reference's stages entry by entry: valid, bin and bce of an entry, and the number of valid entries, are the
  specification's functions.  (The reference spells sigmoid as 1 / (1 + exp (-x)), negation as a negation and valid as an
  unsigned conversion of the comparison; on the extended reals these are the kernel's functions.)
-/
import proofs.«411588_j16535624089725_3_alg».proof.Proof.RefRead
import proofs.«411588_j16535624089725_3_alg».proof.Proof.Spec
import Idealize.ShloMosaic.Lib.IdealHost
import Idealize.ShloMosaic.PureOps.Ideal.Laws

set_option maxRecDepth 16384

noncomputable section

namespace Cert.ReferenceIdeal.RefValue

open Idealize.ShloMosaic Idealize.ShloMosaic.ValueIdx Cert.ReferenceIdeal Cert.ReferenceIdeal.ReadP Cert.Ghmc

variable (x0 : (⟨S131072x80, .f32⟩ : BufTy).Contents (Elt Ideal)) (x1 x2 : (⟨S131072x80, .i32⟩ : BufTy).Contents (Elt Ideal))

/-- A word compared with itself for inequality is the word 0, so a select on it takes its last branch. -/
theorem select_une_self {α : Type} (d : EReal) (a b : α) : Scalar.select (Ideal.cmp .une d d) a b = b := by
  have h : Ideal.cmp .une d d = 0#1 := by
    unfold Ideal.cmp
    simp
  rw [h]
  exact select_zero a b

/-- The reference's softplus: the guarded form `select (d ≠ d) (y + 0) (max y 0 + log1p (exp (-|d|)))` with `d = y - 0`
    is `max y 0 + log1p (exp (-|y|))`. -/
theorem softplus_ref (y : Ideal .f32) :
    Scalar.select
        (FloatOps.cmpf .une (FloatOps.subf y (FloatOps.ofBits .f32 0x00000000#32))
          (FloatOps.subf y (FloatOps.ofBits .f32 0x00000000#32)))
        (FloatOps.addf y (FloatOps.ofBits .f32 0x00000000#32))
        (FloatOps.addf (FloatOps.maximumf y (FloatOps.ofBits .f32 0x00000000#32))
          (FloatOps.hostUnary .log1p (FloatOps.hostUnary .exp
            (FloatOps.hostNegf (FloatOps.hostAbsf (FloatOps.subf y (FloatOps.ofBits .f32 0x00000000#32)))))))
      = softplusE y := by
  show Scalar.select (Ideal.cmp .une (y - Ideal.ofBits .f32 0x00000000#32) (y - Ideal.ofBits .f32 0x00000000#32))
      (y + Ideal.ofBits .f32 0x00000000#32)
      (max y (Ideal.ofBits .f32 0x00000000#32) + Ideal.log1p (Ideal.exp
        (-(max (y - Ideal.ofBits .f32 0x00000000#32) (-(y - Ideal.ofBits .f32 0x00000000#32)))))) = softplusE y
  rw [select_une_self, Ideal.ofBits_zero_f32, sub_zero]
  rfl

/-- valid of an entry. -/
theorem valid_ref (i : S131072x80.Idx) : val_main_v3 (F := Ideal) x2 i = validE (x2 i) := by
  rw [val_main_v3_apply, val_main_v2_apply, val_main_v1_apply, val_main_c_apply]
  show (((BitVec.ofBool ((0#32).slt (x2 i))).toNat : ℝ) : EReal) = validE (x2 i)
  have hs : (0#32).slt (x2 i) = decide (0 < (x2 i).toInt) := by
    simp [BitVec.slt]
  rw [hs]
  unfold validE
  by_cases h : 0 < (x2 i).toInt
  · simp [h]
  · simp [h]

/-- bin of an entry. -/
theorem bin_ref (i : S131072x80.Idx) : val_main_v18 (F := Ideal) x0 x1 i = binE (x0 i) (x1 i) := by
  rw [val_main_v18_apply, val_main_call0_v4_apply, val_main_call0_v3_apply, val_main_c_5_apply,
    val_main_call0_v2_apply, val_main_call0_v1_apply, val_main_call0_v0_apply, val_main_c_4_apply,
    val_main_v17_apply, val_main_v16_apply, val_main_v15_apply, val_main_v14_apply, val_main_cst_3_apply,
    val_main_v13_apply, val_main_v12_apply, val_main_v0_apply, val_main_v11_apply, val_main_v10_apply,
    val_main_cst_2_apply, val_main_v9_apply, val_main_v8_apply, val_main_cst_1_apply, val_main_v7_apply,
    val_main_v6_apply]
  show IntOp.minsi 9#32 (IntOp.maxsi 0#32 (Ideal.fptosi 32 (Ideal.liftRound Int.floor
      (max (Ideal.div (Ideal.ofBits .f32 0x3F800000#32) (Ideal.ofBits .f32 0x3F800000#32 + Ideal.exp (-(x0 i))) - labelE (x1 i))
          (-(Ideal.div (Ideal.ofBits .f32 0x3F800000#32) (Ideal.ofBits .f32 0x3F800000#32 + Ideal.exp (-(x0 i))) - labelE (x1 i)))
        * ten)))) = binE (x0 i) (x1 i)
  rw [Ideal.ofBits_one_f32]
  rfl

/-- bce of an entry. -/
theorem bce_ref (i : S131072x80.Idx) : val_main_v67 (F := Ideal) x0 x1 i = bceE (x0 i) (x1 i) := by
  rw [val_main_v67_apply, val_main_v62_apply, val_main_v66_apply, val_main_v64_apply, val_main_v63_apply,
    val_main_cst_23_apply, val_main_v0_apply,
    val_main_v61_apply, val_main_call5_v4_apply, val_main_call5_v6_apply, val_main_call5_v5_apply,
    val_main_call5_v11_apply, val_main_call5_v1_apply, val_main_call5_v0_apply,
    val_main_call5_v10_apply, val_main_call5_v9_apply, val_main_call5_v8_apply, val_main_call5_v7_apply,
    val_main_call5_v3_apply, val_main_call5_v2_apply, val_main_call5_cst_apply, val_main_v60_apply,
    val_main_v65_apply, val_main_call6_v4_apply, val_main_call6_v6_apply, val_main_call6_v5_apply,
    val_main_call6_v11_apply, val_main_call6_v1_apply, val_main_call6_v0_apply,
    val_main_call6_v10_apply, val_main_call6_v9_apply, val_main_call6_v8_apply, val_main_call6_v7_apply,
    val_main_call6_v3_apply, val_main_call6_v2_apply, val_main_call6_cst_apply]
  rw [softplus_ref (FloatOps.hostNegf (x0 i)), softplus_ref (x0 i)]
  show labelE (x1 i) * softplusE (-(x0 i)) + (Ideal.ofBits .f32 0x3F800000#32 - labelE (x1 i)) * softplusE (x0 i)
    = bceE (x0 i) (x1 i)
  rw [Ideal.ofBits_one_f32]
  rfl

/-- The number of valid entries, at least 1. -/
theorem total_ref (i : S_.Idx) : val_main_v5 (F := Ideal) x2 i = total x2 := by
  rw [val_main_v5_apply, val_main_v4_apply, val_main_cst_apply, val_main_cst_0_apply]
  show max (Ideal.ofBits .f32 0x00000000#32 + ∑ j : S131072x80.Idx, val_main_v3 (F := Ideal) x2 j)
      (Ideal.ofBits .f32 0x3F800000#32) = total x2
  rw [Ideal.ofBits_zero_f32, Ideal.ofBits_one_f32, zero_add]
  unfold total
  exact congrArg (fun s => max s (1 : EReal)) (Finset.sum_congr rfl fun j _ => valid_ref x2 j)

end Cert.ReferenceIdeal.RefValue

end
-- ==== Proof.LibScatterAdd.lean ====
/-
  A scatter that ADDS, read at one slot.

  The host's scatter folds over the updates in row-major order; when the combining function is the addition of a
  commutative monoid the order does not matter, and slot i ends holding what it held plus the sum of the updates that land on
  it (an update whose target falls outside the operand is dropped).
-/
import Idealize.ShloMosaic.PureOps
import Idealize.ShloMosaic.Lib.ValueIdx

noncomputable section

namespace Idealize.ShloMosaic

/-- The fold of the scatter's step over ANY list of update positions, from any starting array, read at slot i: what
    the array held there plus the updates of the list that land on i, in the list's order. -/
theorem Host.scatter_foldl_add_apply {α : Type} [AddCommMonoid α] {s si u : Shape} {w : Nat} (d : ScatterDims s si u)
    (idx : IVec si w) (upd : u.Idx → α) (i : s.Idx) (L : List (Fin u.numel)) (x : s.Idx → α) :
    L.foldl (fun r n =>
        match d.resultIdx? (u.rowMajor.symm n) idx with
        | some k => fun i' => if i' = k then (fun a b => a + b) (r k) (upd (u.rowMajor.symm n)) else r i'
        | none => r)
      x i
      = x i + (L.map fun n =>
          if d.resultIdx? (u.rowMajor.symm n) idx = some i then upd (u.rowMajor.symm n) else 0).sum := by
  induction L generalizing x with
  | nil => simp
  | cons n L ih =>
    rw [List.foldl_cons, ih]
    simp only [List.map_cons, List.sum_cons]
    -- the head update either is dropped, lands on i, or lands on another slot
    rcases h : d.resultIdx? (u.rowMajor.symm n) idx with _ | k
    · simp
    · simp only [Option.some.injEq]
      by_cases hik : i = k
      · subst hik
        simp [add_assoc]
      · have hki : ¬ k = i := fun e => hik e.symm
        simp [hik, hki]

/-- Slot i after an adding scatter: its old contents plus the updates whose target is i. -/
theorem Host.scatter_add_apply {α : Type} [AddCommMonoid α] {s si u : Shape} {w : Nat} (d : ScatterDims s si u)
    (x : s.Idx → α) (idx : IVec si w) (upd : u.Idx → α) (i : s.Idx) :
    Host.scatter d (fun a b => a + b) x idx upd i
      = x i + ∑ j : u.Idx, (if d.resultIdx? j idx = some i then upd j else 0) := by
  unfold Host.scatter
  refine (Host.scatter_foldl_add_apply d idx upd i (List.finRange u.numel) x).trans ?_
  congr 1
  -- the list sum over all positions is the sum over Fin u.numel, re-indexed by the row-major bijection
  rw [← List.ofFn_eq_map, List.sum_ofFn]
  exact Fintype.sum_equiv u.rowMajor.symm _ _ (fun _ => rfl)

end Idealize.ShloMosaic

end
-- ==== Proof.RefCounts.lean ====
/-
  The histogram.  The reference routes every entry to slot bin e when it is valid and to slot 10 otherwise, and adds 1 into
  that slot of eleven zeros; slots 0..9, as reals, are the counts of the bins.  (Fewer than 2^31 entries: the 32-bit sum does
  not wrap.)
-/
import proofs.«411588_j16535624089725_3_alg».proof.Proof.RefElements
import proofs.«411588_j16535624089725_3_alg».proof.Proof.LibScatterAdd
import Idealize.ShloMosaic.Lib.StableHlo.Predicate
import Mathlib.Data.BitVec
import Mathlib.Algebra.BigOperators.Ring.Finset

set_option maxRecDepth 16384

noncomputable section

namespace Cert.ReferenceIdeal.RefValue

open Idealize.ShloMosaic Idealize.ShloMosaic.ValueIdx Cert.ReferenceIdeal Cert.ReferenceIdeal.ReadP Cert.Ghmc
open Idealize.ShloMosaic.StableHlo

variable (x0 : (⟨S131072x80, .f32⟩ : BufTy).Contents (Elt Ideal)) (x1 x2 : (⟨S131072x80, .i32⟩ : BufTy).Contents (Elt Ideal))

/-- Update j of this scatter (one index per update, read off column j of the index table; the operand's one axis is
    inserted) lands on slot i exactly when the index word, read signed, is i's coordinate. -/
theorem hist_resultIdx_iff {w : Nat} (j : S10485760.Idx) (idx : IVec S10485760x1 w) (i : S11.Idx) :
    scatter_S11_S10485760x1_S10485760_n_0_0_1.resultIdx? j idx = some i
      ↔ (idx (Predicate.ixP (j 0))).toInt = ((i 0).val : Int) := by
  -- no window axis: the window coordinate is 0
  have hwin : ∀ a, scatter_S11_S10485760x1_S10485760_n_0_0_1.window j a = 0 := by
    intro a
    unfold ScatterDims.window
    rw [dif_neg (by revert a; decide)]
  -- the start on the operand's axis is the word in row (j 0) of the index column
  have hstart : ∀ a, scatter_S11_S10485760x1_S10485760_n_0_0_1.start j idx a = (idx (Predicate.ixP (j 0))).toInt := by
    intro a
    unfold ScatterDims.start
    rw [dif_pos (by revert a; decide)]
    congr 2
    funext c
    fin_cases c
    · apply Fin.ext
      have hx : ∀ x : Fin S10485760.rank, (j x).val = (j 0).val := fun x => by rw [Subsingleton.elim x 0]
      unfold ScatterDims.siIdx
      rw [dif_neg (by decide)]
      exact hx _
    · have hsub : ∀ p q : S10485760x1.Coord ⟨1, by decide⟩, p = q := fun p q => by
        apply Fin.ext; have hp := p.isLt; have hq := q.isLt
        change p.val < 1 at hp; change q.val < 1 at hq; omega
      exact hsub _ _
  generalize hT : (idx (Predicate.ixP (j 0))).toInt = T at hstart ⊢
  unfold ScatterDims.resultIdx?
  simp only [hwin, hstart, Nat.cast_zero, add_zero]
  have hi : (i 0).val < 11 := (i 0).isLt
  constructor
  · intro h
    split at h
    · rename_i hc
      have h2 := congrArg Fin.val (congrFun (Option.some.inj h) 0)
      have h3 := hc 0
      change T.toNat = (i 0).val at h2
      omega
    · exact absurd h (by simp)
  · intro h
    have hc : ∀ a : Fin S11.rank, 0 ≤ T ∧ T < (S11.size a : Int) := by
      intro a; fin_cases a
      refine ⟨by omega, ?_⟩
      show T < 11
      omega
    rw [dif_pos hc]
    congr 1
    funext a
    fin_cases a
    apply Fin.ext
    show T.toNat = (i 0).val
    omega

/-- The clip to 0..9 lands in 0..9. -/
theorem hist_clip_range (z : BitVec 32) :
    0 ≤ (IntOp.minsi 9#32 (IntOp.maxsi 0#32 z)).toInt ∧ (IntOp.minsi 9#32 (IntOp.maxsi 0#32 z)).toInt ≤ 9 := by
  have h0 : (0#32 : BitVec 32).toInt = 0 := by decide
  have h9 : (9#32 : BitVec 32).toInt = 9 := by decide
  unfold IntOp.minsi IntOp.maxsi
  simp only [BitVec.slt, decide_eq_true_eq]
  split_ifs <;> omega

/-- A word that is not negative passes "max with 0" and "plus 11 when negative" unchanged. -/
theorem hist_wrap_small (r : BitVec 32) (hr : 0 ≤ r.toInt) :
    Scalar.select (IntOp.cmpi .slt (IntOp.maxsi 0#32 r) 0#32) (IntOp.addi (IntOp.maxsi 0#32 r) 11#32)
      (IntOp.maxsi 0#32 r) = r := by
  have h0 : (0#32 : BitVec 32).toInt = 0 := by decide
  have hm : IntOp.maxsi 0#32 r = r := by
    unfold IntOp.maxsi
    simp only [BitVec.slt, decide_eq_true_eq]
    rw [if_neg (by omega)]
  have hc : IntOp.cmpi .slt r 0#32 = 0#1 := by
    unfold IntOp.cmpi
    simp only [BitVec.slt]
    rw [decide_eq_false (by omega)]
    rfl
  rw [hm, hc]
  rfl

/-- The slot update j is routed to: the bin of its entry when the entry is valid, slot 10 otherwise. -/
theorem hist_route_word (j : S10485760.Idx) :
    val_main_v29 (F := Ideal) x0 x1 x2 j
      = if 0 < BitVec.toInt (x2 (idx_main_v22 j)) then binE (x0 (idx_main_v22 j)) (x1 (idx_main_v22 j)) else 10#32 := by
  have hv22 : val_main_v22 (F := Ideal) x0 x1 x2 j
      = if 0 < BitVec.toInt (x2 (idx_main_v22 j)) then binE (x0 (idx_main_v22 j)) (x1 (idx_main_v22 j)) else 10#32 := by
    rw [val_main_v22_apply, val_main_v21_apply, val_main_v20_apply, valid_ref, bin_ref, val_main_v19_apply,
      val_main_cst_6_apply, val_main_call1_v1_apply, val_main_call1_v0_apply, val_main_c_7_apply,
      Ideal.cmpf_def, Ideal.ofBits_def, Ideal.ofBits_zero_f32]
    by_cases h : 0 < BitVec.toInt (x2 (idx_main_v22 j))
    · have hc : Ideal.cmp .ogt (validE (x2 (idx_main_v22 j))) 0 = 1#1 := by
        unfold validE Ideal.cmp; rw [if_pos h]; simp
      rw [if_pos h, hc]; rfl
    · have hc : Ideal.cmp .ogt (validE (x2 (idx_main_v22 j))) 0 = 0#1 := by
        unfold validE Ideal.cmp; rw [if_neg h]; simp
      rw [if_neg h, hc]; rfl
  rw [val_main_v29_apply, val_main_v26_apply, val_main_v28_apply, val_main_v24_apply, val_main_v25_apply,
    val_main_c_10_apply, val_main_v27_apply, val_main_c_11_apply, val_main_call2_v1_apply, val_main_call2_v0_apply,
    val_main_c_9_apply, hv22]
  apply hist_wrap_small
  split_ifs
  · exact (hist_clip_range _).1
  · decide

/-- A 32-bit sum of fewer than 2^31 ones does not wrap: read signed, it is the number of ones. -/
theorem hist_toInt_sum_ones {ι : Type} [Fintype ι] (P : ι → Prop) [DecidablePred P] (hN : Fintype.card ι < 2 ^ 31) :
    (0#32 + ∑ j : ι, (if P j then 1#32 else 0#32)).toInt = ((Finset.univ.filter P).card : Int) := by
  have hs : (0#32 + ∑ j : ι, (if P j then 1#32 else 0#32)) = BitVec.ofNat 32 (Finset.univ.filter P).card := by
    change (0 + ∑ j : ι, (if P j then (1 : BitVec 32) else 0)) = _
    rw [zero_add, Finset.sum_boole]
    rfl
  rw [hs]
  exact Predicate.toInt_ofNat_small _ (lt_of_le_of_lt ((Finset.card_filter_le _ _).trans_eq Finset.card_univ) hN)

/-- Slot b of the histogram, as a real, is the count of bin b. -/
theorem count_ref (b : Fin 10) :
    val_main_v34 (F := Ideal) x0 x1 x2 (ix1 b) = count x0 x1 x2 (BitVec.ofNat 32 b.val) := by
  rw [val_main_v34_apply, val_main_v33_apply]
  -- slot b of the scatter: the zero it held plus a one for every update that lands on it
  have hsc := Host.scatter_add_apply (α := BitVec 32) scatter_S11_S10485760x1_S10485760_n_0_0_1
    (val_main_v23 (F := Ideal)) (val_main_v30 (F := Ideal) x0 x1 x2) (val_main_v31 (F := Ideal)) (idx_main_v33 (ix1 b))
  refine (congrArg (FloatOps.sitofp (F := Ideal) (w := 32) .f32) hsc).trans ?_
  simp only [val_main_v23_apply, val_main_c_8_apply, val_main_v31_apply, val_main_c_12_apply]
  -- update j lands on slot b exactly when its entry is valid and in bin b
  have hland : ∀ j : S10485760.Idx,
      (scatter_S11_S10485760x1_S10485760_n_0_0_1.resultIdx? j (val_main_v30 (F := Ideal) x0 x1 x2)
          = some (idx_main_v33 (ix1 b)))
        ↔ (binE (x0 (idx_main_v22 j)) (x1 (idx_main_v22 j)) = BitVec.ofNat 32 b.val
            ∧ 0 < BitVec.toInt (x2 (idx_main_v22 j))) := by
    intro j
    rw [hist_resultIdx_iff, val_main_v30_apply]
    have hj : idx_main_v30 (Predicate.ixP (j 0)) = j := by funext a; fin_cases a; rfl
    rw [hj, hist_route_word]
    have hb : (BitVec.ofNat 32 b.val).toInt = (b.val : Int) := Predicate.toInt_ofNat_small _ (by omega)
    show _ = (b.val : Int) ↔ _
    by_cases hv : 0 < BitVec.toInt (x2 (idx_main_v22 j))
    · rw [if_pos hv, ← hb, BitVec.toInt_inj]
      exact ⟨fun h => ⟨h, hv⟩, fun h => h.1⟩
    · rw [if_neg hv]
      have h10 : (10#32 : BitVec 32).toInt = 10 := by decide
      constructor
      · intro h; omega
      · intro h; exact absurd h.2 hv
  simp only [hland]
  -- fewer than 2^31 updates: the 32-bit count is the number of such updates
  have hcard : Fintype.card S10485760.Idx < 2 ^ 31 := by
    rw [Fintype.card_congr S10485760.rowMajor, Fintype.card_fin, Shape.numel_rank1]
    show (10485760 : ℕ) < 2 ^ 31
    norm_num
  have hsi : ∀ v : BitVec 32, FloatOps.sitofp (F := Ideal) .f32 v = ((v.toInt : ℝ) : EReal) := fun _ => rfl
  rw [hsi]
  refine (congrArg (fun z : Int => ((z : ℝ) : EReal)) (hist_toInt_sum_ones
    (fun j : S10485760.Idx => binE (x0 (idx_main_v22 j)) (x1 (idx_main_v22 j)) = BitVec.ofNat 32 b.val
      ∧ 0 < BitVec.toInt (x2 (idx_main_v22 j))) hcard)).trans ?_
  simp only [Int.cast_natCast]
  rw [EReal.coe_natCast, Finset.natCast_card_filter]
  -- the updates are the entries, through the reshape
  have hre : ∀ j, Shape.reshapeEquiv Facts₀.shapeCasts_S131072x80_S10485760 j = idx_main_v22 j := fun j =>
    Shape.reshapeEquiv_eq_of_rowMajor _ (by
      rewrite [Shape.rowMajor_val_two, Shape.rowMajor_val_one]
      have h0 : (j 0).val < 10485760 := (j 0).isLt
      show ((j 0).val) / 80 * 80 + ((j 0).val) % 80 = (j 0).val
      omega)
  simp only [← hre]
  rw [Equiv.sum_comp (Shape.reshapeEquiv Facts₀.shapeCasts_S131072x80_S10485760)
    (fun e => if (binE (x0 e) (x1 e) = BitVec.ofNat 32 b.val ∧ 0 < BitVec.toInt (x2 e)) then (1 : EReal) else 0)]
  unfold Cert.Ghmc.count Cert.Ghmc.maskE Cert.Ghmc.validE
  refine Finset.sum_congr rfl fun e _ => ?_
  by_cases h1 : binE (x0 e) (x1 e) = BitVec.ofNat 32 b.val <;> by_cases h2 : 0 < BitVec.toInt (x2 e) <;> simp [h1, h2]

end Cert.ReferenceIdeal.RefValue

end
-- ==== Proof.RefLoss.lean ====
/-
  The reference's result.  From the counts: the number of non-empty bins (counted in 32-bit integers and then converted),
  the weights of the ten bins, each entry's weight looked up at its bin, and the weighted cross entropies summed and divided by
  the number of valid entries.
-/
import proofs.«411588_j16535624089725_3_alg».proof.Proof.RefCounts
import Idealize.ShloMosaic.Lib.StableHlo.Predicate
import Idealize.ShloMosaic.Lib.ValueIdxRank1
import Idealize.ShloMosaic.Lib.WordArith

set_option maxRecDepth 16384

noncomputable section

namespace Cert.ReferenceIdeal.RefValue

open Idealize.ShloMosaic Idealize.ShloMosaic.ValueIdx Cert.ReferenceIdeal Cert.ReferenceIdeal.ReadP Cert.Ghmc

variable (x0 : (⟨S131072x80, .f32⟩ : BufTy).Contents (Elt Ideal)) (x1 x2 : (⟨S131072x80, .i32⟩ : BufTy).Contents (Elt Ideal))

/-! ### The number of non-empty bins -/

/-- The bit the reference computes for bin b says whether the bin is non-empty. -/
private theorem nonempty_bit_ref (b : Fin 10) :
    val_main_v36 (F := Ideal) x0 x1 x2 (ix1 b) = BitVec.ofBool (decide (0 < count x0 x1 x2 (BitVec.ofNat 32 b.val))) := by
  rw [val_main_v36_apply, count_ref, val_main_v35_apply, val_main_cst_13_apply]
  show Ideal.cmp .ogt _ (Ideal.ofBits .f32 0x00000000#32) = _
  rw [Ideal.ofBits_zero_f32]
  rfl

/-- The bit widened to 32 bits is the number 1 or 0. -/
private theorem nonempty_word_toNat (b : Fin 10) :
    (val_main_v37 (F := Ideal) x0 x1 x2 (ix1 b)).toNat
      = (if 0 < count x0 x1 x2 (BitVec.ofNat 32 b.val) then 1 else 0 : ℕ) := by
  rw [val_main_v37_apply, StableHlo.Predicate.toNat_setWidth_bit, nonempty_bit_ref]
  simp only [StableHlo.Predicate.ofBool_eq_one_iff, decide_eq_true_eq]

/-- At most ten bins are non-empty. -/
private theorem nonempty_count_le :
    ∑ b : Fin 10, (if 0 < count x0 x1 x2 (BitVec.ofNat 32 b.val) then 1 else 0 : ℕ) ≤ 10 := by
  refine (Finset.sum_le_sum (g := fun _ => 1) fun b _ => ?_).trans (by simp)
  split <;> omega

/-- The 32-bit sum of the ten words is the number of non-empty bins: a sum of at most 10 does not wrap. -/
private theorem nonempty_sum_toNat (i : S_.Idx) :
    (val_main_v38 (F := Ideal) x0 x1 x2 i).toNat
      = ∑ b : Fin 10, (if 0 < count x0 x1 x2 (BitVec.ofNat 32 b.val) then 1 else 0 : ℕ) := by
  have hsum : ∑ k : S10.Idx, (val_main_v37 (F := Ideal) x0 x1 x2 k).toNat
      = ∑ b : Fin 10, (if 0 < count x0 x1 x2 (BitVec.ofNat 32 b.val) then 1 else 0 : ℕ) := by
    rw [← Equiv.sum_comp idxEquiv1.symm]
    exact Finset.sum_congr rfl fun b _ => nonempty_word_toNat x0 x1 x2 b
  have hle := nonempty_count_le x0 x1 x2
  unfold val_main_v38
  -- every index of the ten-element array reduces to the one index of the result
  rw [Host.reduce_eq_fold, Finset.filter_true_of_mem fun k _ => funext fun a => a.elim0]
  show (Finset.fold IntOp.addi 0#32 (val_main_v37 (F := Ideal) x0 x1 x2) Finset.univ).toNat = _
  rw [StableHlo.Predicate.toNat_fold_addi _ _ (by rw [hsum]; omega), hsum]

/-- The signed maximum with 1 of a small non-negative word, read as an integer. -/
private theorem toInt_maxsi_one_of_small (w : BitVec 32) (hw : w.toNat < 2 ^ 31) :
    (IntOp.maxsi w 1#32).toInt = ((max w.toNat 1 : ℕ) : ℤ) := by
  have hti : w.toInt = w.toNat := StableHlo.Predicate.toInt_eq_toNat_of_lt hw
  have h1 : (1#32 : BitVec 32).toInt = 1 := by decide
  unfold IntOp.maxsi
  split <;> rename_i hc <;> simp only [BitVec.slt, hti, h1, decide_eq_true_eq] at hc
  · rw [hti]; omega
  · rw [h1]; omega

/-- The number of non-empty bins, at least 1. -/
theorem nbins_ref (i : S_.Idx) : val_main_v40 (F := Ideal) x0 x1 x2 i = nbins x0 x1 x2 := by
  have h38 := nonempty_sum_toNat x0 x1 x2 i
  have hle := nonempty_count_le x0 x1 x2
  rw [val_main_v40_apply, val_main_v39_apply, val_main_c_15_apply]
  show (((IntOp.maxsi (val_main_v38 (F := Ideal) x0 x1 x2 i) 1#32).toInt : ℝ) : EReal) = _
  rw [toInt_maxsi_one_of_small _ (by rw [h38]; omega), h38, Int.cast_natCast, EReal.coe_coe_eq_natCast,
    Monotone.map_max (f := (Nat.cast : ℕ → EReal)) (fun a b h => EReal.natCast_le_iff.2 h), Nat.cast_sum]
  unfold nbins
  simp only [Nat.cast_ite, Nat.cast_one, Nat.cast_zero]

/-! ### The weights -/

/-- A select on the bit of a decided proposition is the `if`. -/
private theorem select_ofBool_decide {α : Type} (p : Prop) [Decidable p] (a b : α) :
    Scalar.select (BitVec.ofBool (decide p)) a b = if p then a else b := by
  by_cases h : p
  · rw [if_pos h, decide_eq_true h]; exact select_one a b
  · rw [if_neg h, decide_eq_false h]; exact select_zero a b

/-- The weight of bin b. -/
theorem weight_ref (b : Fin 10) :
    val_main_v49 (F := Ideal) x0 x1 x2 (ix1 b) = weight x0 x1 x2 (BitVec.ofNat 32 b.val) := by
  rw [val_main_v49_apply, val_main_v48_apply, nbins_ref, val_main_v47_apply, val_main_v42_apply, val_main_v46_apply,
    val_main_v45_apply, total_ref, val_main_v44_apply, count_ref, val_main_v43_apply, val_main_cst_17_apply,
    val_main_v41_apply, val_main_cst_16_apply, val_main_call3_v1_apply, val_main_call3_v0_apply, val_main_cst_18_apply]
  show Ideal.div (Scalar.select (Ideal.cmp .ogt _ (Ideal.ofBits .f32 0x00000000#32))
    (Ideal.div _ (max _ (Ideal.ofBits .f32 0x3F800000#32))) (Ideal.ofBits .f32 0x00000000#32)) _ = _
  rw [Ideal.ofBits_zero_f32, Ideal.ofBits_one_f32]
  show Ideal.div (Scalar.select (BitVec.ofBool (decide (0 < count x0 x1 x2 (BitVec.ofNat 32 b.val)))) _ _) _ = _
  rw [select_ofBool_decide]
  rfl

/-! ### The lookup -/

/-- A bin is one of 0, …, 9: it is clipped from below at 0 and then from above at 9. -/
private theorem binE_toInt_mem (x : EReal) (t : BitVec 32) : 0 ≤ (binE x t).toInt ∧ (binE x t).toInt ≤ 9 := by
  unfold binE
  generalize Ideal.fptosi 32 _ = z
  have hm := WordArith.toInt_maxsi_zero z
  generalize IntOp.maxsi 0#32 z = m at hm
  have h9 : (9#32 : BitVec 32).toInt = 9 := by decide
  unfold IntOp.minsi
  split <;> rename_i hc <;> simp only [BitVec.slt, h9, decide_eq_true_eq] at hc
  · rw [h9]; omega
  · omega

private theorem binE_toNat_lt_ten (x : EReal) (t : BitVec 32) : (binE x t).toNat < 10 := by
  obtain ⟨h0, h9⟩ := binE_toInt_mem x t
  have := BitVec.toInt_eq_toNat_cond (binE x t)
  have := (binE x t).isLt
  omega

/-- The index the lookup reads at is the entry's bin: 10 is added only to a negative index, and a bin is not negative. -/
private theorem lookup_index_ref (i : S131072x80.Idx) :
    val_main_v57 (F := Ideal) x0 x1 (takeIdx i) = binE (x0 i) (x1 i) := by
  obtain ⟨h0, h9⟩ := binE_toInt_mem (x0 i) (x1 i)
  rw [val_main_v57_apply,
    show idx_main_v57 (takeIdx i) = i from (funext fun a => match a with | ⟨0, _⟩ => rfl | ⟨1, _⟩ => rfl),
    val_main_v56_apply, val_main_v53_apply, bin_ref, val_main_v52_apply, val_main_c_20_apply]
  have hc : IntOp.cmpi .slt (binE (x0 i) (x1 i)) 0#32 = 0#1 := by
    show BitVec.ofBool (BitVec.slt _ _) = 0#1
    rw [BitVec.slt, decide_eq_false (by rw [show (0#32 : BitVec 32).toInt = 0 from by decide]; omega)]
    rfl
  rw [hc]
  exact select_zero _ _

/-- The lookup reads the table of weights at the index, read as a signed integer and clamped into 0..9. -/
private theorem lookup_read (i : S131072x80.Idx) :
    val_main_v58 (F := Ideal) x0 x1 x2 i
      = val_main_v49 (F := Ideal) x0 x1 x2
          (ix1 ⟨min (val_main_v57 (F := Ideal) x0 x1 (takeIdx i)).toInt.toNat (10 - 1), by omega⟩) := by
  unfold val_main_v58
  exact gather_take_apply (by decide) _ _ _ i

/-- An entry's weight, looked up at its bin. -/
theorem lookup_ref (i : S131072x80.Idx) :
    val_main_v58 (F := Ideal) x0 x1 x2 i = weight x0 x1 x2 (binE (x0 i) (x1 i)) := by
  obtain ⟨h0, h9⟩ := binE_toInt_mem (x0 i) (x1 i)
  have hlt := binE_toNat_lt_ten (x0 i) (x1 i)
  -- a bin lies in 0..9, so the clamp does nothing to it
  have hfin : ∀ h, (⟨min (val_main_v57 (F := Ideal) x0 x1 (takeIdx i)).toInt.toNat (10 - 1), h⟩ : Fin 10)
      = ⟨(binE (x0 i) (x1 i)).toNat, hlt⟩ := fun h => Fin.ext (by
    show min _ _ = (binE (x0 i) (x1 i)).toNat
    rw [lookup_index_ref]
    have := BitVec.toInt_eq_toNat_cond (binE (x0 i) (x1 i))
    omega)
  refine (lookup_read x0 x1 x2 i).trans
    ((congrArg (fun k => val_main_v49 (F := Ideal) x0 x1 x2 (ix1 k)) (hfin _)).trans
      ((weight_ref x0 x1 x2 _).trans (congrArg (weight x0 x1 x2) ?_)))
  exact BitVec.eq_of_toNat_eq (by simp only [BitVec.toNat_ofNat]; omega)

/-! ### The loss -/

/-- One entry's term of the sum: its weight when it is valid, else 0, times its cross entropy. -/
private theorem loss_entry_ref (j : S131072x80.Idx) :
    val_main_v68 (F := Ideal) x0 x1 x2 j
      = (if 0 < validE (x2 j) then weight x0 x1 x2 (binE (x0 j) (x1 j)) else 0) * bceE (x0 j) (x1 j) := by
  rw [val_main_v68_apply, bce_ref, val_main_v59_apply, lookup_ref, val_main_v51_apply, valid_ref, val_main_v50_apply,
    val_main_cst_19_apply, val_main_call4_v1_apply, val_main_call4_v0_apply, val_main_cst_22_apply]
  show (Scalar.select (Ideal.cmp .ogt _ (Ideal.ofBits .f32 0x00000000#32)) _ (Ideal.ofBits .f32 0x00000000#32)) * _ = _
  rw [Ideal.ofBits_zero_f32]
  show (Scalar.select (BitVec.ofBool (decide (0 < validE (x2 j)))) _ _) * _ = _
  rw [select_ofBool_decide]

/-- The reference's result is the loss, entry by entry. -/
theorem loss_ref : val_main_v71 (F := Ideal) x0 x1 x2 = fun _ => lossEntries x0 x1 x2 := by
  funext i
  rw [val_main_v71_apply, val_main_v70_apply, total_ref, val_main_v69_apply, val_main_cst_24_apply, val_main_cst_25_apply]
  show Ideal.div (Ideal.ofBits .f32 0x00000000#32 + ∑ j, val_main_v68 (F := Ideal) x0 x1 x2 j) _
    * Ideal.ofBits .f32 0x3F800000#32 = _
  rw [Ideal.ofBits_zero_f32, Ideal.ofBits_one_f32, zero_add, Finset.sum_congr rfl fun j _ => loss_entry_ref x0 x1 x2 j]
  rfl

end Cert.ReferenceIdeal.RefValue

end
-- ==== Proof.Regroup.lean ====
/-
  The two groupings of the loss agree when every logit is a real number.

  Every entry's bin is one of 0..9, so summing weight b * (valid e * bce e) over the bins b with bin e = b leaves
  weight (bin e) * valid e * bce e, and valid e is 0 or 1.  Exchanging the sum over the bins with the sum over the entries, and
  moving weight b inside the sum over the entries, needs every term to be a real number: bce e is one because the logit is,
  and weight b is one because total, the counts and the number of non-empty bins are finite and their maxima with 1 are not 0.
-/
import proofs.«411588_j16535624089725_3_alg».proof.Proof.Spec
import Mathlib.Data.EReal.Basic
import Mathlib.Algebra.BigOperators.Ring.Finset

noncomputable section

namespace Cert.Ghmc

open Idealize.ShloMosaic

namespace Regroup

/-! ### Real numbers inside the extended reals -/

/-- The coercion of a finite sum of reals is the sum of the coercions. -/
theorem coe_sum_real {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of real numbers is a real number. -/
theorem real_sum {ι : Type*} (s : Finset ι) (f : ι → EReal) (hf : ∀ i, ∃ r : ℝ, f i = r) :
    ∃ r : ℝ, ∑ i ∈ s, f i = r := by
  choose g hg using hf
  exact ⟨∑ i ∈ s, g i, by rw [coe_sum_real]; exact Finset.sum_congr rfl (fun i _ => hg i)⟩

/-- A product of two real numbers is a real number. -/
theorem real_mul (a b : EReal) (ha : ∃ r : ℝ, a = r) (hb : ∃ r : ℝ, b = r) : ∃ r : ℝ, a * b = r := by
  obtain ⟨ar, rfl⟩ := ha
  obtain ⟨br, rfl⟩ := hb
  exact ⟨ar * br, (EReal.coe_mul ar br).symm⟩

/-- Multiplication by a real number distributes over a finite sum of real numbers (on the extended reals it
    does not in general). -/
theorem real_mul_sum {ι : Type*} (s : Finset ι) (a : EReal) (f : ι → EReal) (ha : ∃ r : ℝ, a = r)
    (hf : ∀ i, ∃ r : ℝ, f i = r) : a * ∑ i ∈ s, f i = ∑ i ∈ s, a * f i := by
  obtain ⟨ar, rfl⟩ := ha
  choose g hg using hf
  have hf' : f = fun i => (g i : EReal) := funext hg
  subst hf'
  rw [← coe_sum_real, ← EReal.coe_mul, Finset.mul_sum, coe_sum_real]
  exact Finset.sum_congr rfl (fun i _ => EReal.coe_mul _ _)

/-- The maximum of two reals, taken on the extended reals. -/
theorem coe_max_real (a b : ℝ) : max (a : EReal) (b : EReal) = ((max a b : ℝ) : EReal) :=
  (EReal.coe_strictMono.monotone.map_max).symm

/-- The maximum of a real number with 1 is a real number other than 0. -/
theorem real_max_one (z : EReal) (hz : ∃ r : ℝ, z = r) : ∃ r : ℝ, r ≠ 0 ∧ max z 1 = r := by
  obtain ⟨r, rfl⟩ := hz
  refine ⟨max r 1, (lt_max_of_lt_right one_pos).ne', ?_⟩
  rw [← EReal.coe_one, coe_max_real]

/-- The quotient of a real number by a real number other than 0 is a real number. -/
theorem real_div (a b : EReal) (ha : ∃ r : ℝ, a = r) (hb : ∃ r : ℝ, r ≠ 0 ∧ b = r) :
    ∃ r : ℝ, Ideal.div a b = r := by
  obtain ⟨ar, rfl⟩ := ha
  obtain ⟨br, hbr, rfl⟩ := hb
  exact ⟨ar * (1 / br), by rw [Ideal.div_coe hbr, EReal.coe_mul]⟩

/-! ### The pieces of the loss are real numbers -/

theorem real_valid (l : BitVec 32) : ∃ r : ℝ, validE l = r := by
  unfold validE
  split_ifs
  · exact ⟨1, EReal.coe_one.symm⟩
  · exact ⟨0, EReal.coe_zero.symm⟩

theorem valid_cases (l : BitVec 32) : validE l = 1 ∨ validE l = 0 := by
  unfold validE
  split_ifs
  · exact Or.inl rfl
  · exact Or.inr rfl

/-- softplus of a real: 1 + exp (-|r|) is positive, so its logarithm is a real. -/
theorem real_softplus (r : ℝ) : ∃ s : ℝ, softplusE (r : EReal) = s := by
  refine ⟨max r 0 + Real.log (1 + Real.exp (-(max r (-r)))), ?_⟩
  have hpos : ¬ (1 + Real.exp (-(max r (-r))) ≤ 0) := not_le.mpr (by positivity)
  unfold softplusE Ideal.log1p
  rw [← EReal.coe_neg, coe_max_real, ← EReal.coe_neg, Ideal.exp_coe, ← EReal.coe_zero, coe_max_real,
    ← EReal.coe_one, ← EReal.coe_add, Ideal.log_coe, if_neg hpos, ← EReal.coe_add]

theorem real_bce (r : ℝ) (t : BitVec 32) : ∃ s : ℝ, bceE (r : EReal) t = s := by
  obtain ⟨s1, h1⟩ := real_softplus (-r)
  obtain ⟨s2, h2⟩ := real_softplus r
  refine ⟨(t.toInt : ℝ) * s1 + (1 - (t.toInt : ℝ)) * s2, ?_⟩
  unfold bceE labelE
  rw [← EReal.coe_neg, h1, h2, ← EReal.coe_one, ← EReal.coe_sub, ← EReal.coe_mul, ← EReal.coe_mul, ← EReal.coe_add]

section
variable (x : SE.Idx → EReal) (t l : SE.Idx → BitVec 32)

theorem real_mask (b : BitVec 32) (e : SE.Idx) : ∃ r : ℝ, maskE x t l b e = r := by
  unfold maskE
  split_ifs
  · exact real_valid _
  · exact ⟨0, EReal.coe_zero.symm⟩

theorem real_count (b : BitVec 32) : ∃ r : ℝ, count x t l b = r :=
  real_sum _ _ (fun e => real_mask x t l b e)

theorem real_total : ∃ r : ℝ, r ≠ 0 ∧ total l = r :=
  real_max_one _ (real_sum _ _ (fun e => real_valid (l e)))

theorem real_nbins : ∃ r : ℝ, r ≠ 0 ∧ nbins x t l = r := by
  refine real_max_one _ (real_sum _ _ (fun b => ?_))
  split_ifs
  · exact ⟨1, EReal.coe_one.symm⟩
  · exact ⟨0, EReal.coe_zero.symm⟩

/-- Every bin's weight is a real number: both divisors are maxima with 1. -/
theorem real_weight (b : BitVec 32) : ∃ r : ℝ, weight x t l b = r := by
  unfold weight
  refine real_div _ _ ?_ (real_nbins x t l)
  split_ifs
  · obtain ⟨r, _, hr⟩ := real_total l
    exact real_div _ _ ⟨r, hr⟩ (real_max_one _ (real_count x t l b))
  · exact ⟨0, EReal.coe_zero.symm⟩

end

/-! ### The bins -/

/-- A 32-bit integer clipped to 0..9 is one of the ten words 0, …, 9. -/
theorem clip_mem (w : BitVec 32) :
    ∃ k : Fin 10, IntOp.minsi 9#32 (IntOp.maxsi 0#32 w) = BitVec.ofNat 32 k.val := by
  unfold IntOp.maxsi
  by_cases h0 : w.slt 0#32 = true
  · rw [if_pos h0]; exact ⟨0, rfl⟩
  · rw [if_neg h0]; unfold IntOp.minsi
    by_cases h9 : (9#32).slt w = true
    · rw [if_pos h9]; exact ⟨9, rfl⟩
    · rw [if_neg h9]
      have e0 : (0#32).toInt = 0 := rfl
      have e9 : (9#32).toInt = 9 := rfl
      have a0 : 0 ≤ w.toInt := by
        have := h0; simp only [BitVec.slt, e0, decide_eq_true_eq, not_lt] at this; exact this
      have a9 : w.toInt ≤ 9 := by
        have := h9; simp only [BitVec.slt, e9, decide_eq_true_eq, not_lt] at this; exact this
      rw [BitVec.toInt_eq_toNat_cond] at a0 a9
      have hlt : w.toNat < 10 := by split_ifs at a0 a9 <;> omega
      refine ⟨⟨w.toNat, hlt⟩, ?_⟩
      apply BitVec.eq_of_toNat_eq
      rw [BitVec.toNat_ofNat]
      exact (Nat.mod_eq_of_lt (by omega)).symm

/-- The ten words 0, …, 9 are distinct. -/
theorem ofNat_inj10 (a b : Fin 10) (h : BitVec.ofNat 32 a.val = BitVec.ofNat 32 b.val) : a = b := by
  have := congrArg BitVec.toNat h
  rw [BitVec.toNat_ofNat, BitVec.toNat_ofNat] at this
  apply Fin.ext
  have ha := a.isLt
  have hb := b.isLt
  omega

/-- The two numerators agree: the bin sums regrouped entry by entry. -/
theorem numerator_eq (x : SE.Idx → EReal) (t l : SE.Idx → BitVec 32) (hx : ∀ e, ∃ r : ℝ, x e = (r : EReal)) :
    ∑ b : Fin 10, weight x t l (BitVec.ofNat 32 b.val) * bceSum x t l (BitVec.ofNat 32 b.val)
      = ∑ e : SE.Idx, (if 0 < validE (l e) then weight x t l (binE (x e) (t e)) else 0) * bceE (x e) (t e) := by
  have hB : ∀ e, ∃ r : ℝ, bceE (x e) (t e) = r := fun e => by
    obtain ⟨r, hr⟩ := hx e
    rw [hr]
    exact real_bce r (t e)
  have hbin : ∀ e, ∃ k : Fin 10, binE (x e) (t e) = BitVec.ofNat 32 k.val := fun e => clip_mem _
  calc ∑ b : Fin 10, weight x t l (BitVec.ofNat 32 b.val) * bceSum x t l (BitVec.ofNat 32 b.val)
      = ∑ b : Fin 10, ∑ e : SE.Idx,
          weight x t l (BitVec.ofNat 32 b.val) * (maskE x t l (BitVec.ofNat 32 b.val) e * bceE (x e) (t e)) := by
        refine Finset.sum_congr rfl (fun b _ => ?_)
        unfold bceSum
        exact real_mul_sum _ _ _ (real_weight x t l _) (fun e => real_mul _ _ (real_mask x t l _ e) (hB e))
    _ = ∑ e : SE.Idx, ∑ b : Fin 10,
          weight x t l (BitVec.ofNat 32 b.val) * (maskE x t l (BitVec.ofNat 32 b.val) e * bceE (x e) (t e)) :=
        Finset.sum_comm
    _ = ∑ e : SE.Idx, (if 0 < validE (l e) then weight x t l (binE (x e) (t e)) else 0) * bceE (x e) (t e) := by
        refine Finset.sum_congr rfl (fun e _ => ?_)
        obtain ⟨k, hk⟩ := hbin e
        rw [Finset.sum_eq_single k]
        · unfold maskE
          rw [if_pos hk, hk]
          rcases valid_cases (l e) with h | h <;> rw [h]
          · rw [if_pos one_pos, one_mul]
          · rw [if_neg (lt_irrefl 0), zero_mul, mul_zero]
        · intro b _ hb
          unfold maskE
          rw [if_neg, zero_mul, mul_zero]
          rw [hk]
          exact fun h => hb (ofNat_inj10 _ _ h).symm
        · intro h
          exact absurd (Finset.mem_univ k) h

end Regroup

/-- The loss bin by bin is the loss entry by entry, for real logits. -/
theorem lossBins_eq_lossEntries (x : SE.Idx → EReal) (t l : SE.Idx → BitVec 32) (hx : ∀ e, ∃ r : ℝ, x e = (r : EReal)) :
    lossBins x t l = lossEntries x t l := by
  unfold lossBins lossEntries
  rw [Regroup.numerator_eq x t l hx]

end Cert.Ghmc

end
-- ==== Proof.Finite.lean ====
/-
  The precondition says every logit is finite: |x e| < +inf for every entry, so x e is a real number.
-/
import proofs.«411588_j16535624089725_3_alg».proof.Defs
import proofs.«411588_j16535624089725_3_alg».proof.Proof.Gen.Pre_finite_inputs
import Idealize.ShloMosaic.Lib.ReduceAll
import Idealize.ShloMosaic.Lib.ValueIdx

noncomputable section

namespace Cert.Proof

open Idealize.ShloMosaic Idealize.ShloMosaic.ValueIdx Idealize.SL.Sem

namespace Finite

/-- The word 0x7F800000 denotes +inf. -/
theorem inf_word : Ideal.ofBits .f32 0x7F800000#32 = (⊤ : EReal) := by
  simp [Ideal.ofBits, Ideal.ieee]

/-- An extended real whose absolute value is below +inf is a real number. -/
theorem real_of_abs_lt_top (z : EReal) (hz : max z (-z) < ⊤) : ∃ r : ℝ, z = (r : EReal) := by
  induction z using EReal.rec with
  | bot => exact absurd hz (by simp)
  | coe r => exact ⟨r, rfl⟩
  | top => exact absurd hz (by simp)

/-- A comparison "less than" that came out 1 says so. -/
theorem lt_of_cmp_olt (a b : EReal) (h : Ideal.cmp .olt a b = 1#1) : a < b := by
  by_contra hn
  have h0 : Ideal.cmp .olt a b = 0#1 := by simp [Ideal.cmp, hn]
  rw [h0] at h
  exact absurd h (by decide)

end Finite

/-- Under the precondition every logit of the idealized kernel's first argument is a real number. -/
theorem real_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (e : Cert.KernelIdeal.S131072x80.Idx) :
    ∃ r : ℝ, (m ((c.tc : Thread Cert.KernelIdeal.nD Cert.KernelIdeal.τ).loc Cert.KernelIdeal.main_arg0) : Vec Ideal Cert.KernelIdeal.S131072x80 .f32) e = (r : EReal) := by
  haveI : Subsingleton Cert.Pre_finite_inputs.S_.Idx := ⟨fun a b => funext fun d => d.elim0⟩
  have h1 := congrFun (h c) ValueIdx.ix0
  dsimp only [Cert.Pre_finite_inputs.fn] at h1
  have h2 := Host.reduce_andi_all _ _ _ _ _ h1 e
  have key : ∀ z : EReal, Ideal.cmp .olt (max z (-z)) (Ideal.ofBits .f32 0x7F800000#32) = 1#1 →
      ∃ r : ℝ, z = (r : EReal) := by
    intro z hz
    rw [Finite.inf_word] at hz
    exact Finite.real_of_abs_lt_top _ (Finite.lt_of_cmp_olt _ _ hz)
  exact key _ h2

end Cert.Proof

end
-- ==== Proof.lean ====
/-
  The certificate of a gradient-harmonized classification loss: a one-pass kernel against its jnp reference.

  Both programs take logits x, integer labels t and integer weights l of shape 131072 x 80 and return one number.  With
  valid = (l > 0), g = |sigmoid x - t|, bin = floor (10 g) clipped to 0..9 and bce the cross entropy with logits, the
  reference weighs every valid entry by total / (count of its bin) / (number of non-empty bins) and averages the weighted cross
  entropies over total = max (number of valid entries) 1.  The kernel never forms the per-entry weights: in one pass, on two
  cores of twenty steps each, it accumulates per bin the count and the cross-entropy sum (and the number of valid entries) lane
  by lane in a scratch buffer, reduces the lanes at each core's last step, and the lines after the call add the cores, form the
  ten weights and take the weighted sum of the ten cross-entropy sums.  On the extended reals the two agree because the loss is
  linear in the per-bin weight: moving the weight of a bin across the sum over that bin's entries is the only law used, and
  it holds because every logit is a real number (the precondition), which makes every term a real number.

  The modules: Spec (the loss, in both groupings), Regroup (the law), Finite (the precondition gives real logits);
  for the kernel Contrib and RowSums (what one step adds to the scratch), StepFirst / StepMiddle / StepLast (the three kinds
  of step), Accumulate (the scratch step by step), Blocks and Layout (which entries a step sees), OutputArray (the array the
  kernel leaves), HostTail (the lines after the call), Elements and KernelSum (the accumulated rows are the specification's
  sums), KernelLoss (the kernel computes the loss bin by bin); for the reference RefElements, LibScatterAdd and RefCounts
  (the histogram), RefLoss (the reference computes the loss entry by entry).  The idealization rewrote nothing, so the
  kernel's idealized program is its own text read over the extended reals.
-/
import proofs.«411588_j16535624089725_3_alg».proof.Defs
import proofs.«411588_j16535624089725_3_alg».proof.Proof.Gen.Kernel
import proofs.«411588_j16535624089725_3_alg».proof.Proof.Gen.Kernel.Skeleton
import proofs.«411588_j16535624089725_3_alg».proof.Proof.Gen.Kernel.Launch
import proofs.«411588_j16535624089725_3_alg».proof.Proof.Gen.Kernel.Points
import proofs.«411588_j16535624089725_3_alg».proof.Proof.Gen.Kernel.Frame
import proofs.«411588_j16535624089725_3_alg».proof.Proof.Gen.KernelIdeal
import proofs.«411588_j16535624089725_3_alg».proof.Proof.Gen.KernelIdeal.Skeleton
import proofs.«411588_j16535624089725_3_alg».proof.Proof.Gen.KernelIdeal.Launch
import proofs.«411588_j16535624089725_3_alg».proof.Proof.Gen.KernelIdeal.Points
import proofs.«411588_j16535624089725_3_alg».proof.Proof.Gen.KernelIdeal.Frame
import proofs.«411588_j16535624089725_3_alg».proof.Proof.Gen.ReferenceIdeal
import proofs.«411588_j16535624089725_3_alg».proof.Proof.Gen.Pre_finite_inputs
import proofs.«411588_j16535624089725_3_alg».proof.Proof.RefRun
import proofs.«411588_j16535624089725_3_alg».proof.Proof.RefRead
import proofs.«411588_j16535624089725_3_alg».proof.Proof.KernelLoss
import proofs.«411588_j16535624089725_3_alg».proof.Proof.RefLoss
import proofs.«411588_j16535624089725_3_alg».proof.Proof.Regroup
import proofs.«411588_j16535624089725_3_alg».proof.Proof.Finite
import Idealize.ShloMosaic.Adequacy
import Idealize.ShloMosaic.Init

noncomputable section

namespace Cert.Proof

open Idealize.ShloMosaic Idealize.SL.Sem Cert.Ghmc

/-- The kernel as printed runs and leaves its arguments alone. -/
theorem frame_kernel : Cert.frame_Kernel := fun m ρ _ => Cert.Kernel.Gen.frame m ρ

/-- So does its idealized program. -/
theorem frame_kernelIdeal : Cert.frame_KernelIdeal := fun m ρ _ => Cert.KernelIdeal.Gen.frame m ρ

/-- The reference runs and leaves its arguments alone: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From arguments that agree, the kernel ends at the loss bin by bin and the reference at the loss entry by entry; the logits
    being real numbers, these are one number. -/
theorem algebraic : Cert.algebraic_KernelIdeal_ReferenceIdeal := by
  intro m ρ m' ρ' hpre hagree
  refine ⟨fun c => fun _ => lossBins (Cert.KernelIdeal.Acc.arg0 m c) (Cert.KernelIdeal.Acc.arg1 m c) (Cert.KernelIdeal.Acc.arg2 m c),
    Cert.KernelIdeal.Acc.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v71_eq, Cert.ReferenceIdeal.RefValue.loss_ref, (hagree c).1, (hagree c).2.1, (hagree c).2.2]
  funext _
  exact (lossBins_eq_lossEntries _ _ _ fun e => real_of_pre m hpre c e).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
